-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x1000 : Shape := ⟨2, ![16384, 1000]⟩
abbrev S16384x200 : Shape := ⟨2, ![16384, 200]⟩
abbrev S_ : Shape := ⟨0, ![]⟩

class Facts : Prop where
  bcast_S_S16384x1000 : S_.BroadcastsInDim S16384x1000 (![] : Fin 0 → Fin S16384x1000.rank)
  reducesTo_S16384x1000_S_d0_1 : S16384x1000.ReducesTo [0, 1] S_
  h_S_ : 0 < S_.numel
  bcast_S_S16384x200 : S_.BroadcastsInDim S16384x200 (![] : Fin 0 → Fin S16384x200.rank)
  reducesTo_S16384x200_S_d0_1 : S16384x200.ReducesTo [0, 1] S_

variable [Facts]

def fn {F : FTy → Type} [FloatOps F] (main_arg0 : FVec F S16384x1000 .f32) (main_arg1 : IVec S16384x200 32) : IVec S_ 1 :=
  let main_v0 : FVec F S16384x1000 .f32 := Host.absf main_arg0
  let main_cst : FVec F S_ .f32 := constant S_ .f32 0x7F800000#32
  let main_v1 : FVec F S16384x1000 .f32 := broadcastInDim S16384x1000 ![] bcast_S_S16384x1000 main_cst
  let main_v2 : IVec S16384x1000 1 := cmpf .olt main_v0 main_v1
  let main_c : IVec S_ 1 := constantI S_ 1 1#1
  let main_v3 : IVec S_ 1 := (fun x v => Host.reduce IntOp.andi x v reducesTo_S16384x1000_S_d0_1 h_S_) main_v2 main_c
  let main_c_0 : IVec S_ 32 := constantI S_ 32 0#32
  let main_v4 : IVec S16384x200 32 := broadcastInDim S16384x200 ![] bcast_S_S16384x200 main_c_0
  let main_v5 : IVec S16384x200 1 := cmpi .sge main_arg1 main_v4
  let main_c_1 : IVec S_ 32 := constantI S_ 32 999#32
  let main_v6 : IVec S16384x200 32 := broadcastInDim S16384x200 ![] bcast_S_S16384x200 main_c_1
  let main_v7 : IVec S16384x200 1 := cmpi .sle main_arg1 main_v6
  let main_v8 : IVec S16384x200 1 := andi main_v5 main_v7
  let main_c_2 : IVec S_ 1 := constantI S_ 1 1#1
  let main_v9 : IVec S_ 1 := (fun x v => Host.reduce IntOp.andi x v reducesTo_S16384x200_S_d0_1 h_S_) main_v8 main_c_2
  let main_v10 : IVec S_ 1 := andi main_v3 main_v9
  main_v10
-- ==== Kernel.lean ====
abbrev S16384x1000 : Shape := ⟨2, ![16384, 1000]⟩
abbrev S16384x200 : Shape := ⟨2, ![16384, 200]⟩
abbrev S200x16384 : Shape := ⟨2, ![200, 16384]⟩
abbrev S2x32x1000 : Shape := ⟨3, ![2, 32, 1000]⟩
abbrev S200x128 : Shape := ⟨2, ![200, 128]⟩
abbrev S2 : Shape := ⟨1, ![2]⟩
abbrev S16 : Shape := ⟨1, ![16]⟩
abbrev S1x32x1000 : Shape := ⟨3, ![1, 32, 1000]⟩
abbrev S32x1000 : Shape := ⟨2, ![32, 1000]⟩
abbrev S1 : Shape := ⟨1, ![1]⟩
abbrev S_ : Shape := ⟨0, ![]⟩
abbrev S1x16 : Shape := ⟨2, ![1, 16]⟩

abbrev nBuf : Table → Nat
  | .hbm => 5
  | .local .scVector .vmem => 3
  | _ => 0

abbrev bufTy : (tb : Table) → Fin (nBuf tb) → BufTy
  | .hbm, ⟨0, _⟩ => ⟨S16384x1000, .f32⟩
  | .hbm, ⟨1, _⟩ => ⟨S16384x200, .i32⟩
  | .hbm, ⟨2, _⟩ => ⟨S200x16384, .i32⟩
  | .hbm, ⟨3, _⟩ => ⟨S200x16384, .f32⟩
  | .hbm, ⟨4, _⟩ => ⟨S16384x200, .f32⟩
  | .local .scVector .vmem, ⟨0, _⟩ => ⟨S2x32x1000, .f32⟩
  | .local .scVector .vmem, ⟨1, _⟩ => ⟨S200x128, .i32⟩
  | .local .scVector .vmem, ⟨2, _⟩ => ⟨S200x128, .f32⟩
  | _, _ => ⟨S16384x1000, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_arg0_scv : Ref sig .scVector := ⟨.hbm, 0, rfl⟩
abbrev main_v0_scv : Ref sig .scVector := ⟨.hbm, 2, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let v9 : BitVec 32 := Scalar.addi v2 c0_i32_0
  let c0_i32_5 : BitVec 32 := 0#32
  ![v9.toNat, 0]
@[reducible] def k0_t1_loop : Scf.Loop 32 :=
  let c0_i32_9 : BitVec 32 := 0#32
  let c16_i32_10 : BitVec 32 := 16#32
  let v18 : BitVec 32 := Scalar.addi c0_i32_9 c16_i32_10
  let c1_i32 : BitVec 32 := 1#32
  ⟨c0_i32_9, v18, c1_i32⟩
def k0_cond1 (k0_t1 : Fin k0_t1_loop.trips) : BitVec 1 :=
  let c0_i32_13 : BitVec 32 := 0#32
  let c0_i32_9 : BitVec 32 := 0#32
  let c1_i32 : BitVec 32 := 1#32
  let arg9 : BitVec 32 := Scf.iv c0_i32_9 c1_i32 k0_t1
  let c1_i32_12 : BitVec 32 := 1#32
  let v19 : BitVec 32 := Scalar.muli arg9 c1_i32_12
  let v20 : BitVec 32 := Scalar.addi c0_i32_13 v19
  let c4_i32 : BitVec 32 := 4#32
  let v22 : BitVec 32 := Scalar.remsi v20 c4_i32
  let c0_i32_22 : BitVec 32 := 0#32
  let v42 : BitVec 1 := Scalar.cmpi .eq v22 c0_i32_22
  let v43 : BitVec 32 := Scalar.extui v42
  let c0_i32_23 : BitVec 32 := 0#32
  let v44 : BitVec 1 := Scalar.cmpi .ne v43 c0_i32_23
  v44

def k0_off2 (i : grid0.Coords) (k0_t1 : Fin k0_t1_loop.trips) : Fin 2 → Nat :=
  let c0_i32_37_r0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_13 : BitVec 32 := 0#32
  let c0_i32_9 : BitVec 32 := 0#32
  let c1_i32 : BitVec 32 := 1#32
  let arg9 : BitVec 32 := Scf.iv c0_i32_9 c1_i32 k0_t1
  let c1_i32_12 : BitVec 32 := 1#32
  let v19 : BitVec 32 := Scalar.muli arg9 c1_i32_12
  let v20 : BitVec 32 := Scalar.addi c0_i32_13 v19
  let c0_i32_16 : BitVec 32 := 0#32
  let v24 : BitVec 1 := Scalar.cmpi .sgt v20 c0_i32_16
  let v25 : BitVec 32 := Scalar.extui v24
  let c0_i32_17 : BitVec 32 := 0#32
  let v26 : BitVec 1 := Scalar.cmpi .slt v20 c0_i32_17
  let v27 : BitVec 32 := Scalar.extui v26
  let v28 : BitVec 32 := Scalar.subi v25 v27
  let c4_i32_15 : BitVec 32 := 4#32
  let c0_i32_18 : BitVec 32 := 0#32
  let v29 : BitVec 1 := Scalar.cmpi .sgt c4_i32_15 c0_i32_18
  let v30 : BitVec 32 := Scalar.extui v29
  let c0_i32_19 : BitVec 32 := 0#32
  let v31 : BitVec 1 := Scalar.cmpi .slt c4_i32_15 c0_i32_19
  let v32 : BitVec 32 := Scalar.extui v31
  let v33 : BitVec 32 := Scalar.subi v30 v32
  let v34 : BitVec 1 := Scalar.cmpi .ne v28 v33
  let v35 : BitVec 32 := Scalar.remsi v20 c4_i32_15
  let c0_i32_20 : BitVec 32 := 0#32
  let v36 : BitVec 1 := Scalar.cmpi .ne v35 c0_i32_20
  let v37 : BitVec 1 := Scalar.andi v34 v36
  let v23 : BitVec 32 := Scalar.divsi v20 c4_i32_15
  let c1_i32_21 : BitVec 32 := 1#32
  let v38 : BitVec 32 := Scalar.subi v23 c1_i32_21
  let v39 : BitVec 32 := Scalar.select v37 v38 v23
  let c128_i32 : BitVec 32 := 128#32
  let v40 : BitVec 32 := Scalar.muli v39 c128_i32
  let v41 : BitVec 32 := Scalar.addi v2 v40
  ![0, v41.toNat]
def k0_cond2 (k0_t1 : Fin k0_t1_loop.trips) : BitVec 1 :=
  let c0_i32_13 : BitVec 32 := 0#32
  let c0_i32_9 : BitVec 32 := 0#32
  let c1_i32 : BitVec 32 := 1#32
  let arg9 : BitVec 32 := Scf.iv c0_i32_9 c1_i32 k0_t1
  let c1_i32_12 : BitVec 32 := 1#32
  let v19 : BitVec 32 := Scalar.muli arg9 c1_i32_12
  let v20 : BitVec 32 := Scalar.addi c0_i32_13 v19
  let c1_i32_24 : BitVec 32 := 1#32
  let v45 : BitVec 32 := Scalar.addi v20 c1_i32_24
  let c16_i32_25 : BitVec 32 := 16#32
  let v46 : BitVec 1 := Scalar.cmpi .slt v45 c16_i32_25
  let v47 : BitVec 32 := Scalar.extui v46
  let c0_i32_26 : BitVec 32 := 0#32
  let v48 : BitVec 1 := Scalar.cmpi .ne v47 c0_i32_26
  v48

def k0_off3 (k0_t1 : Fin k0_t1_loop.trips) : Fin 3 → Nat :=
  let c1_i32_38 : BitVec 32 := 1#32
  let c0_i32_13 : BitVec 32 := 0#32
  let c0_i32_9 : BitVec 32 := 0#32
  let c1_i32 : BitVec 32 := 1#32
  let arg9 : BitVec 32 := Scf.iv c0_i32_9 c1_i32 k0_t1
  let c1_i32_12 : BitVec 32 := 1#32
  let v19 : BitVec 32 := Scalar.muli arg9 c1_i32_12
  let v20 : BitVec 32 := Scalar.addi c0_i32_13 v19
  let c2_i32_14 : BitVec 32 := 2#32
  let v21 : BitVec 32 := Scalar.remsi v20 c2_i32_14
  let v64 : BitVec 32 := Scalar.subi c1_i32_38 v21
  let c0_i32_40 : BitVec 32 := 0#32
  let c0_i32_41 : BitVec 32 := 0#32
  ![v64.toNat, 0, 0]
def k0_off4 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_13 : BitVec 32 := 0#32
  let c0_i32_9 : BitVec 32 := 0#32
  let c1_i32 : BitVec 32 := 1#32
  let arg9 : BitVec 32 := Scf.iv c0_i32_9 c1_i32 k0_t1
  let c1_i32_12 : BitVec 32 := 1#32
  let v19 : BitVec 32 := Scalar.muli arg9 c1_i32_12
  let v20 : BitVec 32 := Scalar.addi c0_i32_13 v19
  let c1_i32_37 : BitVec 32 := 1#32
  let v63 : BitVec 32 := Scalar.addi v20 c1_i32_37
  let c32_i32_39 : BitVec 32 := 32#32
  let v65 : BitVec 32 := Scalar.muli v63 c32_i32_39
  let v66 : BitVec 32 := Scalar.addi v2 v65
  let c0_i32_42 : BitVec 32 := 0#32
  ![v66.toNat, 0]
def k0_off5 (k0_t1 : Fin k0_t1_loop.trips) : Fin 1 → Nat :=
  let c1_i32_38 : BitVec 32 := 1#32
  let c0_i32_13 : BitVec 32 := 0#32
  let c0_i32_9 : BitVec 32 := 0#32
  let c1_i32 : BitVec 32 := 1#32
  let arg9 : BitVec 32 := Scf.iv c0_i32_9 c1_i32 k0_t1
  let c1_i32_12 : BitVec 32 := 1#32
  let v19 : BitVec 32 := Scalar.muli arg9 c1_i32_12
  let v20 : BitVec 32 := Scalar.addi c0_i32_13 v19
  let c2_i32_14 : BitVec 32 := 2#32
  let v21 : BitVec 32 := Scalar.remsi v20 c2_i32_14
  let v64 : BitVec 32 := Scalar.subi c1_i32_38 v21
  ![v64.toNat]
def k0_off6 (k0_t1 : Fin k0_t1_loop.trips) : Fin 3 → Nat :=
  let c0_i32_13 : BitVec 32 := 0#32
  let c0_i32_9 : BitVec 32 := 0#32
  let c1_i32 : BitVec 32 := 1#32
  let arg9 : BitVec 32 := Scf.iv c0_i32_9 c1_i32 k0_t1
  let c1_i32_12 : BitVec 32 := 1#32
  let v19 : BitVec 32 := Scalar.muli arg9 c1_i32_12
  let v20 : BitVec 32 := Scalar.addi c0_i32_13 v19
  let c2_i32_14 : BitVec 32 := 2#32
  let v21 : BitVec 32 := Scalar.remsi v20 c2_i32_14
  let c0_i32_27 : BitVec 32 := 0#32
  let c0_i32_28 : BitVec 32 := 0#32
  ![v21.toNat, 0, 0]
def k0_off7 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_13 : BitVec 32 := 0#32
  let c0_i32_9 : BitVec 32 := 0#32
  let c1_i32 : BitVec 32 := 1#32
  let arg9 : BitVec 32 := Scf.iv c0_i32_9 c1_i32 k0_t1
  let c1_i32_12 : BitVec 32 := 1#32
  let v19 : BitVec 32 := Scalar.muli arg9 c1_i32_12
  let v20 : BitVec 32 := Scalar.addi c0_i32_13 v19
  let c32_i32 : BitVec 32 := 32#32
  let v49 : BitVec 32 := Scalar.muli v20 c32_i32
  let v50 : BitVec 32 := Scalar.addi v2 v49
  let c0_i32_29 : BitVec 32 := 0#32
  ![v50.toNat, 0]
def k0_off8 (k0_t1 : Fin k0_t1_loop.trips) : Fin 1 → Nat :=
  let c0_i32_13 : BitVec 32 := 0#32
  let c0_i32_9 : BitVec 32 := 0#32
  let c1_i32 : BitVec 32 := 1#32
  let arg9 : BitVec 32 := Scf.iv c0_i32_9 c1_i32 k0_t1
  let c1_i32_12 : BitVec 32 := 1#32
  let v19 : BitVec 32 := Scalar.muli arg9 c1_i32_12
  let v20 : BitVec 32 := Scalar.addi c0_i32_13 v19
  let c2_i32_14 : BitVec 32 := 2#32
  let v21 : BitVec 32 := Scalar.remsi v20 c2_i32_14
  ![v21.toNat]
@[reducible] def k0_t2_loop : Scf.Loop 32 :=
  let c0_i32_33 : BitVec 32 := 0#32
  let c100_i32 : BitVec 32 := 100#32
  let v59 : BitVec 32 := Scalar.addi c0_i32_33 c100_i32
  let c1_i32_34 : BitVec 32 := 1#32
  ⟨c0_i32_33, v59, c1_i32_34⟩
def k0_off9 (k0_t1 : Fin k0_t1_loop.trips) (k0_t2 : Fin k0_t2_loop.trips) (c0_i32_41 : BitVec 32) (c0_i32_40 : BitVec 32) : Fin 2 → Nat :=
  let c0_i32_38 : BitVec 32 := 0#32
  let c0_i32_33 : BitVec 32 := 0#32
  let c1_i32_34 : BitVec 32 := 1#32
  let arg10 : BitVec 32 := Scf.iv c0_i32_33 c1_i32_34 k0_t2
  let c2_i32_37 : BitVec 32 := 2#32
  let v63 : BitVec 32 := Scalar.muli arg10 c2_i32_37
  let v64 : BitVec 32 := Scalar.addi c0_i32_38 v63
  let v67 : BitVec 32 := Scalar.addi v64 c0_i32_41
  let v68 : Index := Scalar.indexCast v67
  let c0_i32_13 : BitVec 32 := 0#32
  let c0_i32_9 : BitVec 32 := 0#32
  let c1_i32 : BitVec 32 := 1#32
  let arg9 : BitVec 32 := Scf.iv c0_i32_9 c1_i32 k0_t1
  let c1_i32_12 : BitVec 32 := 1#32
  let v19 : BitVec 32 := Scalar.muli arg9 c1_i32_12
  let v20 : BitVec 32 := Scalar.addi c0_i32_13 v19
  let c4_i32 : BitVec 32 := 4#32
  let v22 : BitVec 32 := Scalar.remsi v20 c4_i32
  let c32_i32_39 : BitVec 32 := 32#32
  let v65 : BitVec 32 := Scalar.muli v22 c32_i32_39
  let v66 : BitVec 32 := Scalar.addi v65 c0_i32_40
  let v69 : Index := Scalar.indexCast v66
  ![v68.toNat, v69.toNat]
def k0_off10 (k0_t1 : Fin k0_t1_loop.trips) : Fin 3 → Nat :=
  let c0_i32_13 : BitVec 32 := 0#32
  let c0_i32_9 : BitVec 32 := 0#32
  let c1_i32 : BitVec 32 := 1#32
  let arg9 : BitVec 32 := Scf.iv c0_i32_9 c1_i32 k0_t1
  let c1_i32_12 : BitVec 32 := 1#32
  let v19 : BitVec 32 := Scalar.muli arg9 c1_i32_12
  let v20 : BitVec 32 := Scalar.addi c0_i32_13 v19
  let c2_i32_14 : BitVec 32 := 2#32
  let v21 : BitVec 32 := Scalar.remsi v20 c2_i32_14
  let c0_i32_51 : BitVec 32 := 0#32
  let c0_i32_52 : BitVec 32 := 0#32
  ![v21.toNat, 0, 0]

def k0_chk1 (v5 : IVec S16 32) (v70 : IVec S16 32) : Prop :=
  (∀ a x, ((![v5, v70] : Fin 2 → IVec S16 32) a x).toNat < S32x1000.size a)
instance k0_chk1.dec : ∀ (v5 : IVec S16 32) (v70 : IVec S16 32), Decidable (k0_chk1 v5 v70) := fun v5 v70 => decidable_of_iff' _ (Iff.of_eq (k0_chk1.eq_1 v5 v70))
theorem k0_idx1_inb : ∀ (v5 : IVec S16 32) (v70 : IVec S16 32) (k0_hw1 : k0_chk1 v5 v70), ∀ a x, ((![v5, v70] : Fin 2 → IVec S16 32) a x).toNat < S32x1000.size a := fun v5 v70 k0_hw1 => k0_hw1
def k0_off11 (k0_t1 : Fin k0_t1_loop.trips) : Fin 3 → Nat :=
  let c0_i32_13 : BitVec 32 := 0#32
  let c0_i32_9 : BitVec 32 := 0#32
  let c1_i32 : BitVec 32 := 1#32
  let arg9 : BitVec 32 := Scf.iv c0_i32_9 c1_i32 k0_t1
  let c1_i32_12 : BitVec 32 := 1#32
  let v19 : BitVec 32 := Scalar.muli arg9 c1_i32_12
  let v20 : BitVec 32 := Scalar.addi c0_i32_13 v19
  let c2_i32_14 : BitVec 32 := 2#32
  let v21 : BitVec 32 := Scalar.remsi v20 c2_i32_14
  let c0_i32_53 : BitVec 32 := 0#32
  let c0_i32_54 : BitVec 32 := 0#32
  ![v21.toNat, 0, 0]

def k0_chk2 (v8 : IVec S16 32) (v76 : IVec S16 32) : Prop :=
  (∀ a x, ((![v8, v76] : Fin 2 → IVec S16 32) a x).toNat < S32x1000.size a)
instance k0_chk2.dec : ∀ (v8 : IVec S16 32) (v76 : IVec S16 32), Decidable (k0_chk2 v8 v76) := fun v8 v76 => decidable_of_iff' _ (Iff.of_eq (k0_chk2.eq_1 v8 v76))
theorem k0_idx2_inb : ∀ (v8 : IVec S16 32) (v76 : IVec S16 32) (k0_hw2 : k0_chk2 v8 v76), ∀ a x, ((![v8, v76] : Fin 2 → IVec S16 32) a x).toNat < S32x1000.size a := fun v8 v76 k0_hw2 => k0_hw2
def k0_off12 (k0_t1 : Fin k0_t1_loop.trips) : Fin 3 → Nat :=
  let c0_i32_13 : BitVec 32 := 0#32
  let c0_i32_9 : BitVec 32 := 0#32
  let c1_i32 : BitVec 32 := 1#32
  let arg9 : BitVec 32 := Scf.iv c0_i32_9 c1_i32 k0_t1
  let c1_i32_12 : BitVec 32 := 1#32
  let v19 : BitVec 32 := Scalar.muli arg9 c1_i32_12
  let v20 : BitVec 32 := Scalar.addi c0_i32_13 v19
  let c2_i32_14 : BitVec 32 := 2#32
  let v21 : BitVec 32 := Scalar.remsi v20 c2_i32_14
  let c0_i32_55 : BitVec 32 := 0#32
  let c0_i32_56 : BitVec 32 := 0#32
  ![v21.toNat, 0, 0]

def k0_chk3 (v5 : IVec S16 32) (v82 : IVec S16 32) : Prop :=
  (∀ a x, ((![v5, v82] : Fin 2 → IVec S16 32) a x).toNat < S32x1000.size a)
instance k0_chk3.dec : ∀ (v5 : IVec S16 32) (v82 : IVec S16 32), Decidable (k0_chk3 v5 v82) := fun v5 v82 => decidable_of_iff' _ (Iff.of_eq (k0_chk3.eq_1 v5 v82))
theorem k0_idx3_inb : ∀ (v5 : IVec S16 32) (v82 : IVec S16 32) (k0_hw3 : k0_chk3 v5 v82), ∀ a x, ((![v5, v82] : Fin 2 → IVec S16 32) a x).toNat < S32x1000.size a := fun v5 v82 k0_hw3 => k0_hw3
def k0_off13 (k0_t1 : Fin k0_t1_loop.trips) : Fin 3 → Nat :=
  let c0_i32_13 : BitVec 32 := 0#32
  let c0_i32_9 : BitVec 32 := 0#32
  let c1_i32 : BitVec 32 := 1#32
  let arg9 : BitVec 32 := Scf.iv c0_i32_9 c1_i32 k0_t1
  let c1_i32_12 : BitVec 32 := 1#32
  let v19 : BitVec 32 := Scalar.muli arg9 c1_i32_12
  let v20 : BitVec 32 := Scalar.addi c0_i32_13 v19
  let c2_i32_14 : BitVec 32 := 2#32
  let v21 : BitVec 32 := Scalar.remsi v20 c2_i32_14
  let c0_i32_57 : BitVec 32 := 0#32
  let c0_i32_58 : BitVec 32 := 0#32
  ![v21.toNat, 0, 0]

def k0_chk4 (v8 : IVec S16 32) (v88 : IVec S16 32) : Prop :=
  (∀ a x, ((![v8, v88] : Fin 2 → IVec S16 32) a x).toNat < S32x1000.size a)
instance k0_chk4.dec : ∀ (v8 : IVec S16 32) (v88 : IVec S16 32), Decidable (k0_chk4 v8 v88) := fun v8 v88 => decidable_of_iff' _ (Iff.of_eq (k0_chk4.eq_1 v8 v88))
theorem k0_idx4_inb : ∀ (v8 : IVec S16 32) (v88 : IVec S16 32) (k0_hw4 : k0_chk4 v8 v88), ∀ a x, ((![v8, v88] : Fin 2 → IVec S16 32) a x).toNat < S32x1000.size a := fun v8 v88 k0_hw4 => k0_hw4
def k0_off14 (k0_t1 : Fin k0_t1_loop.trips) (k0_t2 : Fin k0_t2_loop.trips) (c0_i32_59 : BitVec 32) (c0_i32_40 : BitVec 32) : Fin 2 → Nat :=
  let c0_i32_38 : BitVec 32 := 0#32
  let c0_i32_33 : BitVec 32 := 0#32
  let c1_i32_34 : BitVec 32 := 1#32
  let arg10 : BitVec 32 := Scf.iv c0_i32_33 c1_i32_34 k0_t2
  let c2_i32_37 : BitVec 32 := 2#32
  let v63 : BitVec 32 := Scalar.muli arg10 c2_i32_37
  let v64 : BitVec 32 := Scalar.addi c0_i32_38 v63
  let v101 : BitVec 32 := Scalar.addi v64 c0_i32_59
  let v102 : Index := Scalar.indexCast v101
  let c0_i32_13 : BitVec 32 := 0#32
  let c0_i32_9 : BitVec 32 := 0#32
  let c1_i32 : BitVec 32 := 1#32
  let arg9 : BitVec 32 := Scf.iv c0_i32_9 c1_i32 k0_t1
  let c1_i32_12 : BitVec 32 := 1#32
  let v19 : BitVec 32 := Scalar.muli arg9 c1_i32_12
  let v20 : BitVec 32 := Scalar.addi c0_i32_13 v19
  let c4_i32 : BitVec 32 := 4#32
  let v22 : BitVec 32 := Scalar.remsi v20 c4_i32
  let c32_i32_39 : BitVec 32 := 32#32
  let v65 : BitVec 32 := Scalar.muli v22 c32_i32_39
  let v66 : BitVec 32 := Scalar.addi v65 c0_i32_40
  let v103 : Index := Scalar.indexCast v66
  ![v102.toNat, v103.toNat]
def k0_cond3 (k0_t1 : Fin k0_t1_loop.trips) : BitVec 1 :=
  let c0_i32_13 : BitVec 32 := 0#32
  let c0_i32_9 : BitVec 32 := 0#32
  let c1_i32 : BitVec 32 := 1#32
  let arg9 : BitVec 32 := Scf.iv c0_i32_9 c1_i32 k0_t1
  let c1_i32_12 : BitVec 32 := 1#32
  let v19 : BitVec 32 := Scalar.muli arg9 c1_i32_12
  let v20 : BitVec 32 := Scalar.addi c0_i32_13 v19
  let c4_i32 : BitVec 32 := 4#32
  let v22 : BitVec 32 := Scalar.remsi v20 c4_i32
  let c3_i32 : BitVec 32 := 3#32
  let v60 : BitVec 1 := Scalar.cmpi .eq v22 c3_i32
  let v61 : BitVec 32 := Scalar.extui v60
  let c0_i32_36 : BitVec 32 := 0#32
  let v62 : BitVec 1 := Scalar.cmpi .ne v61 c0_i32_36
  v62

def k0_off15 (i : grid0.Coords) (k0_t1 : Fin k0_t1_loop.trips) : Fin 2 → Nat :=
  let c0_i32_37_r1 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_13 : BitVec 32 := 0#32
  let c0_i32_9 : BitVec 32 := 0#32
  let c1_i32 : BitVec 32 := 1#32
  let arg9 : BitVec 32 := Scf.iv c0_i32_9 c1_i32 k0_t1
  let c1_i32_12 : BitVec 32 := 1#32
  let v19 : BitVec 32 := Scalar.muli arg9 c1_i32_12
  let v20 : BitVec 32 := Scalar.addi c0_i32_13 v19
  let c0_i32_16 : BitVec 32 := 0#32
  let v24 : BitVec 1 := Scalar.cmpi .sgt v20 c0_i32_16
  let v25 : BitVec 32 := Scalar.extui v24
  let c0_i32_17 : BitVec 32 := 0#32
  let v26 : BitVec 1 := Scalar.cmpi .slt v20 c0_i32_17
  let v27 : BitVec 32 := Scalar.extui v26
  let v28 : BitVec 32 := Scalar.subi v25 v27
  let c4_i32_15 : BitVec 32 := 4#32
  let c0_i32_18 : BitVec 32 := 0#32
  let v29 : BitVec 1 := Scalar.cmpi .sgt c4_i32_15 c0_i32_18
  let v30 : BitVec 32 := Scalar.extui v29
  let c0_i32_19 : BitVec 32 := 0#32
  let v31 : BitVec 1 := Scalar.cmpi .slt c4_i32_15 c0_i32_19
  let v32 : BitVec 32 := Scalar.extui v31
  let v33 : BitVec 32 := Scalar.subi v30 v32
  let v34 : BitVec 1 := Scalar.cmpi .ne v28 v33
  let v35 : BitVec 32 := Scalar.remsi v20 c4_i32_15
  let c0_i32_20 : BitVec 32 := 0#32
  let v36 : BitVec 1 := Scalar.cmpi .ne v35 c0_i32_20
  let v37 : BitVec 1 := Scalar.andi v34 v36
  let v23 : BitVec 32 := Scalar.divsi v20 c4_i32_15
  let c1_i32_21 : BitVec 32 := 1#32
  let v38 : BitVec 32 := Scalar.subi v23 c1_i32_21
  let v39 : BitVec 32 := Scalar.select v37 v38 v23
  let c128_i32 : BitVec 32 := 128#32
  let v40 : BitVec 32 := Scalar.muli v39 c128_i32
  let v41 : BitVec 32 := Scalar.addi v2 v40
  ![0, v41.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S16384x200_S200x16384_1_0 : S16384x200.Transposes [1, 0] S200x16384
  iota_S16_d0_w32_scVector : S16.Iotas .scVector 32 [0]
  inb_S2x32x1000_S1x32x1000_0_0_0 : ∀ a, (![0, 0, 0] : Fin 3 → Nat) a + S1x32x1000.size a ≤ S2x32x1000.size a
  squeezes_S1x32x1000_S32x1000 : S1x32x1000.Squeezes S32x1000
  inb_S2_S1_0 : ∀ a, (![0] : Fin 1 → Nat) a + S1.size a ≤ S2.size a
  squeezes_S1_S_ : S1.Squeezes S_
  h_S1x16 : 0 < S1x16.numel
  shapeCasts_S1x16_S16 : S1x16.ShapeCasts S16
  h_S32x1000 : 0 < S32x1000.numel
  shapeCasts_S16_S1x16 : S16.ShapeCasts S1x16
  transposes_S200x16384_S16384x200_1_0 : S200x16384.Transposes [1, 0] S16384x200
  hcc0_scratch3 : 0 + S2.numel ≤ 4
  hcc0_scoped0 : 2 + S_.numel ≤ 4
  hcc0_scoped1 : 3 + S_.numel ≤ 4
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S32x1000.size a ≤ S16384x1000.size a
  k0_t1_ok : k0_t1_loop.OK
  k0_off2_inb : ∀ (i : grid0.Coords) (k0_t1 : Fin k0_t1_loop.trips), ∀ (k0_h1 : k0_cond1 k0_t1 = 1#1), ∀ a, (k0_off2 i k0_t1) a + S200x128.size a ≤ S200x16384.size a
  k0_off3_inb : ∀ k0_t1 : Fin k0_t1_loop.trips, ∀ (k0_h2 : k0_cond2 k0_t1 = 1#1), ∀ a, (k0_off3 k0_t1) a + S1x32x1000.size a ≤ S2x32x1000.size a
  k0_off4_inb : ∀ (i : grid0.Coords) (k0_t1 : Fin k0_t1_loop.trips), ∀ (k0_h2 : k0_cond2 k0_t1 = 1#1), ∀ a, (k0_off4 i k0_t1) a + S32x1000.size a ≤ S16384x1000.size a
  k0_off5_inb : ∀ k0_t1 : Fin k0_t1_loop.trips, ∀ (k0_h2 : k0_cond2 k0_t1 = 1#1), ∀ a, (k0_off5 k0_t1) a + S1.size a ≤ S2.size a
  k0_off6_inb : ∀ k0_t1 : Fin k0_t1_loop.trips, ∀ a, (k0_off6 k0_t1) a + S1x32x1000.size a ≤ S2x32x1000.size a
  k0_off7_inb : ∀ (i : grid0.Coords) (k0_t1 : Fin k0_t1_loop.trips), ∀ a, (k0_off7 i k0_t1) a + S32x1000.size a ≤ S16384x1000.size a
  k0_off8_inb : ∀ k0_t1 : Fin k0_t1_loop.trips, ∀ a, (k0_off8 k0_t1) a + S1.size a ≤ S2.size a
  k0_t2_ok : k0_t2_loop.OK
  k0_off9_inb : ∀ (k0_t1 : Fin k0_t1_loop.trips) (k0_t2 : Fin k0_t2_loop.trips), ∀ (r₁ : Fin 2) (r₂ : Fin 2), ∀ a, (k0_off9 k0_t1 k0_t2 (BitVec.ofNat 32 r₁.val) (BitVec.ofNat 32 (16 * r₂.val))) a + S1x16.size a ≤ S200x128.size a
  k0_off10_inb : ∀ k0_t1 : Fin k0_t1_loop.trips, ∀ a, (k0_off10 k0_t1) a + S1x32x1000.size a ≤ S2x32x1000.size a
  k0_off11_inb : ∀ k0_t1 : Fin k0_t1_loop.trips, ∀ a, (k0_off11 k0_t1) a + S1x32x1000.size a ≤ S2x32x1000.size a
  k0_off12_inb : ∀ k0_t1 : Fin k0_t1_loop.trips, ∀ a, (k0_off12 k0_t1) a + S1x32x1000.size a ≤ S2x32x1000.size a
  k0_off13_inb : ∀ k0_t1 : Fin k0_t1_loop.trips, ∀ a, (k0_off13 k0_t1) a + S1x32x1000.size a ≤ S2x32x1000.size a
  k0_off14_inb : ∀ (k0_t1 : Fin k0_t1_loop.trips) (k0_t2 : Fin k0_t2_loop.trips), ∀ (r₁ : Fin 2) (r₂ : Fin 2), ∀ a, (k0_off14 k0_t1 k0_t2 (BitVec.ofNat 32 r₁.val) (BitVec.ofNat 32 (16 * r₂.val))) a + S1x16.size a ≤ S200x128.size a
  k0_off15_inb : ∀ (i : grid0.Coords) (k0_t1 : Fin k0_t1_loop.trips), ∀ (k0_h3 : k0_cond3 k0_t1 = 1#1), ∀ a, (k0_off15 i k0_t1) a + S200x128.size a ≤ S200x16384.size a

variable [Facts₀]

abbrev cc0_scratch3 : DmaSems sig S2 := SemArray.consecutive 0 S2 hcc0_scratch3
abbrev cc0_scoped0 : DmaSems sig S_ := SemArray.consecutive 2 S_ hcc0_scoped0
abbrev cc0_scoped1 : DmaSems sig S_ := SemArray.consecutive 3 S_ hcc0_scoped1

class Facts : Prop extends Facts₀ where

variable [Facts]
-- ==== ReferenceIdeal.lean ====
abbrev S16384x1000 : Shape := ⟨2, ![16384, 1000]⟩
abbrev S16384x200 : Shape := ⟨2, ![16384, 200]⟩
abbrev S_ : Shape := ⟨0, ![]⟩
abbrev S16384x200x1 : Shape := ⟨3, ![16384, 200, 1]⟩
abbrev S1 : Shape := ⟨1, ![1]⟩
abbrev S1x1x1 : Shape := ⟨3, ![1, 1, 1]⟩

abbrev nBuf : Space → Nat
  | .hbm => 24
  | .vmem => 0
  | .smem => 0
  | _ => 0

abbrev bufTy : (tb : Table) → Fin (tcTables nBuf tb) → BufTy
  | .hbm, ⟨0, _⟩ => ⟨S16384x1000, .f32⟩
  | .hbm, ⟨1, _⟩ => ⟨S16384x200, .i32⟩
  | .hbm, ⟨2, _⟩ => ⟨S_, .i32⟩
  | .hbm, ⟨3, _⟩ => ⟨S16384x200, .i32⟩
  | .hbm, ⟨4, _⟩ => ⟨S16384x200, .i1⟩
  | .hbm, ⟨5, _⟩ => ⟨S_, .i32⟩
  | .hbm, ⟨6, _⟩ => ⟨S16384x200, .i32⟩
  | .hbm, ⟨7, _⟩ => ⟨S16384x200, .i32⟩
  | .hbm, ⟨8, _⟩ => ⟨S16384x200, .i32⟩
  | .hbm, ⟨9, _⟩ => ⟨S16384x200x1, .i32⟩
  | .hbm, ⟨10, _⟩ => ⟨S1, .i32⟩
  | .hbm, ⟨11, _⟩ => ⟨S_, .i32⟩
  | .hbm, ⟨12, _⟩ => ⟨S16384x200x1, .i32⟩
  | .hbm, ⟨13, _⟩ => ⟨S16384x200x1, .i1⟩
  | .hbm, ⟨14, _⟩ => ⟨S1x1x1, .i32⟩
  | .hbm, ⟨15, _⟩ => ⟨S16384x200x1, .i32⟩
  | .hbm, ⟨16, _⟩ => ⟨S16384x200x1, .i1⟩
  | .hbm, ⟨17, _⟩ => ⟨S16384x200x1, .i1⟩
  | .hbm, ⟨18, _⟩ => ⟨S_, .i1⟩
  | .hbm, ⟨19, _⟩ => ⟨S16384x200, .i1⟩
  | .hbm, ⟨20, _⟩ => ⟨S16384x200, .f32⟩
  | .hbm, ⟨21, _⟩ => ⟨S_, .f32⟩
  | .hbm, ⟨22, _⟩ => ⟨S16384x200, .f32⟩
  | .hbm, ⟨23, _⟩ => ⟨S16384x200, .f32⟩
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_cst : Ref sig .tc := ⟨.hbm, 21, rfl⟩
abbrev main_call0_v14 : Ref sig .tc := ⟨.hbm, 22, rfl⟩
abbrev main_v0 : Ref sig .tc := ⟨.hbm, 23, rfl⟩

abbrev nD : Nat := 1
abbrev τ : Topo := Topo.v7x

variable {F : FTy → Type} [FloatOps F]

class Facts₀ : Prop where
  bcast_S_S16384x200 : S_.BroadcastsInDim S16384x200 (![] : Fin 0 → Fin S16384x200.rank)
  shapeCasts_S16384x200_S16384x200x1 : S16384x200.ShapeCasts S16384x200x1
  bcast_S_S16384x200x1 : S_.BroadcastsInDim S16384x200x1 (![] : Fin 0 → Fin S16384x200x1.rank)
  bcast_S1_S1x1x1_2 : S1.BroadcastsInDim S1x1x1 (![2] : Fin 1 → Fin S1x1x1.rank)
  bcast_S1x1x1_S16384x200x1_0_1_2 : S1x1x1.BroadcastsInDim S16384x200x1 (![0, 1, 2] : Fin 3 → Fin S16384x200x1.rank)
  reducesTo_S16384x200x1_S16384x200_d2 : S16384x200x1.ReducesTo [2] S16384x200
  h_S_ : 0 < S_.numel
  gather_S16384x1000_S16384x200x1_S16384x200_n_1_0_0_1_2_11_wf : GatherDims.WF S16384x1000 S16384x200x1 S16384x200 [] [1] [0] [1] [0] 2 ![1, 1]

variable [Facts₀]

def gather_S16384x1000_S16384x200x1_S16384x200_n_1_0_0_1_2_11 : GatherDims S16384x1000 S16384x200x1 S16384x200 where
  offsetDims := []
  collapsedSliceDims := [1]
  operandBatchingDims := [0]
  startIndicesBatchingDims := [0]
  startIndexMap := [1]
  indexVectorDim := 2
  sliceSizes := ![1, 1]
  wf := gather_S16384x1000_S16384x200x1_S16384x200_n_1_0_0_1_2_11_wf

class Facts : Prop extends Facts₀ where

variable [Facts]
-- ==== Proof.Spec.lean ====
/-
  The function both programs compute, stated once over the argument arrays.

  `tbl` is a table of 16384 rows of 1000 entries and `idx` an array of 16384 rows of 200 words; entry (r, j) of the
  result is entry (r, col (idx (r, j))) of the table: row r of the table read at the column its j-th index word names.
  A word names the column `toNat % 1000` (for the words the precondition admits, 0 ≤ w ≤ 999 as a signed word, that
  is the word's own value). The kernel produces the TRANSPOSE of that array, from the transpose of `idx`
  (`pickT`: entry (j, r) is entry (r, col (idxT (j, r))) of the table), and transposes it back: `transpose_pickT`.
-/
import Idealize.ShloMosaic.PureOps
import Idealize.ShloMosaic.Lib.ValueIdx
import Idealize.ShloMosaic.Lib.Pipeline.Value

noncomputable section

namespace Cert.Spec

open Idealize.ShloMosaic Idealize.ShloMosaic.ValueIdx

abbrev T16384x1000 : Shape := ⟨2, ![16384, 1000]⟩
abbrev T16384x200 : Shape := ⟨2, ![16384, 200]⟩
abbrev T200x16384 : Shape := ⟨2, ![200, 16384]⟩

/-- The column an index word names. -/
def col (w : BitVec 32) : Fin 1000 := ⟨w.toNat % 1000, Nat.mod_lt _ (by decide)⟩

theorem col_val_of_lt {w : BitVec 32} (h : w.toNat < 1000) : (col w).val = w.toNat := Nat.mod_eq_of_lt h

/-- Row r of the table read at the column the (r, j) index word names. -/
def pick {α : Type} (tbl : T16384x1000.Idx → α) (idx : T16384x200.Idx → BitVec 32) : T16384x200.Idx → α :=
  fun i => tbl (ix2 (n0 := 16384) (n1 := 1000) ⟨(i 0).val, idx2_lt0 i⟩ (col (idx i)))

/-- The same array laid out index-major: entry (j, r) reads row r of the table at the column the (j, r) word of the
    transposed index array names. -/
def pickT {α : Type} (tbl : T16384x1000.Idx → α) (idxT : T200x16384.Idx → BitVec 32) : T200x16384.Idx → α :=
  fun y => tbl (ix2 (n0 := 16384) (n1 := 1000) ⟨(y 1).val, idx2_lt1 y⟩ (col (idxT y)))

/-- Transposing the index array, picking index-major and transposing back is the row-wise pick. -/
theorem transpose_pickT {α : Type} (tbl : T16384x1000.Idx → α) (idx : T16384x200.Idx → BitVec 32)
    (h1 : T16384x200.Transposes [1, 0] T200x16384) (h2 : T200x16384.Transposes [1, 0] T16384x200) :
    transpose T16384x200 [1, 0] (pickT tbl (transpose T200x16384 [1, 0] idx h1)) h2 = pick tbl idx := by
  funext i
  obtain ⟨r, j, rfl⟩ : ∃ (r : Fin 16384) (j : Fin 200), i = ix2 r j := ⟨i 0, i 1, eq_ix2 i⟩
  have e1 : transpose T16384x200 [1, 0] (pickT tbl (transpose T200x16384 [1, 0] idx h1)) h2 (ix2 r j)
      = pickT tbl (transpose T200x16384 [1, 0] idx h1) (ix2 j r) :=
    transpose_apply [1, 0] _ h2 (ix2 r j) (ix2 j r) (fun b => by match b with | ⟨0, _⟩ => rfl | ⟨1, _⟩ => rfl)
  have e2 : transpose T200x16384 [1, 0] idx h1 (ix2 j r) = idx (ix2 r j) :=
    transpose_apply [1, 0] idx h1 (ix2 j r) (ix2 r j) (fun b => by match b with | ⟨0, _⟩ => rfl | ⟨1, _⟩ => rfl)
  rw [e1]
  unfold pickT pick
  rw [e2]

end Cert.Spec

end
-- ==== Proof.Setup.lean ====
/-
  The program as the launch theorem sees it, the resources, and how the arrays are dealt to the 32 tiles.

  Tile (c, s) (SparseCore c, vector subcore s) has number w = 2 s + c and works on the 512 table rows
  [512 w, 512 w + 512), sixteen blocks of 32 rows, one block at a time: block number 16 w + g of the table's 512
  blocks. It reads columns [512 w, 512 w + 512) of the transposed index array (200 rows) and writes the same columns
  of the transposed result, four stripes of 128 columns: stripe number 4 w + q of the 128 stripes. Blocks, and
  stripes, are the parts of an axis: pairwise disjoint and covering the array, so each tile holds its parts outright.
-/
import proofs.«207812_g85461259256412_cont_9to1c4b_20_21_alg».proof.Defs
import proofs.«207812_g85461259256412_cont_9to1c4b_20_21_alg».proof.Proof.Gen.KernelIdeal
import proofs.«207812_g85461259256412_cont_9to1c4b_20_21_alg».proof.Proof.SkelKernelIdeal
import proofs.«207812_g85461259256412_cont_9to1c4b_20_21_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.Proof.KI

open Cert.KernelIdeal Cert.KernelIdeal.Gen Cert.KernelIdeal.GenP

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

/-- The table, the index array, its transpose, the transposed result and the result, as locations of device `d`. -/
abbrev aLoc (d : Dev nD) : Loc nD τ sig := (SparseCore.T d).loc main_arg0
abbrev bLoc (d : Dev nD) : Loc nD τ sig := (SparseCore.T d).loc main_arg1
abbrev tLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

/-- The transposed index array, as @main's first operation leaves it. -/
def idxT (d : Dev nD) : Buf (Elt F) (tLoc d) :=
  transpose S200x16384 [1, 0] (m (bLoc d)) transposes_S16384x200_S200x16384_1_0
/-- What the kernel leaves in the transposed result: entry (j, r) is row r of the table at the column word (j, r) names. -/
def outT (d : Dev nD) : Buf (Elt F) (oLoc d) := Cert.Spec.pickT (m (aLoc d)) (idxT m d)
/-- What @main's last operation leaves in the result. -/
def outR (d : Dev nD) : Buf (Elt F) (rLoc d) := Cert.Spec.pick (m (aLoc d)) (m (bLoc d))

theorem outR_eq (d : Dev nD) :
    transpose S16384x200 [1, 0] (outT m d) transposes_S200x16384_S16384x200_1_0 = outR m d :=
  Cert.Spec.transpose_pickT (m (aLoc d)) (m (bLoc d)) transposes_S16384x200_S200x16384_1_0 transposes_S200x16384_S16384x200_1_0

/-- What the proof asks of the launch memory: every index word is below 1000. -/
def PreOK : Prop := ∀ (d : Dev nD) i, (m (bLoc d) i).toNat < 1000

/-! ## The tiles' parts -/

theorem hdivA : 512 ∣ S16384x1000.size 0 := ⟨32, rfl⟩
theorem hdivT : 128 ∣ S200x16384.size 1 := ⟨128, rfl⟩
/-- The table in 512 blocks of 32 rows; the transposed arrays in 128 stripes of 128 columns. -/
abbrev aBlk (b : Fin 512) : Rect S16384x1000 := Rect.part (s := S16384x1000) (a₀ := 0) hdivA b
abbrev tStr (q : Fin 128) : Rect S200x16384 := Rect.part (s := S200x16384) (a₀ := 1) hdivT q

/-- Tile (c, s)'s number; tile `w`'s `g`-th block of the table and `q`-th stripe of the transposed arrays. -/
def wid (c : Fin 2) (s : Fin 16) : Fin 32 := ⟨2 * s.val + c.val, by omega⟩
def blkOf (w : Fin 32) (g : Fin 16) : Fin 512 := ⟨16 * w.val + g.val, by omega⟩
def strOf (w : Fin 32) (q : Fin 4) : Fin 128 := ⟨4 * w.val + q.val, by omega⟩

variable [FloatOps F]

abbrev aPts (d : Dev nD) : sProp 𝕄 := aLoc d ↦{fullShare} m (aLoc d)
abbrev tPts (d : Dev nD) : sProp 𝕄 := tLoc d ↦{fullShare} idxT m d
abbrev oPts (d : Dev nD) (f : Buf (Elt F) (oLoc d)) : sProp 𝕄 := oLoc d ↦{fullShare} f
/-- One block of the table at its launch contents; one stripe of the transposed index array; one stripe of the
    transposed result at `f`. -/
abbrev aBlkPts (d : Dev nD) (b : Fin 512) : sProp 𝕄 := aLoc d ↦[(aBlk b).set]{fullShare} m (aLoc d)
abbrev tStrPts (d : Dev nD) (q : Fin 128) : sProp 𝕄 := tLoc d ↦[(tStr q).set]{fullShare} idxT m d
abbrev oStrPts (d : Dev nD) (q : Fin 128) (f : Buf (Elt F) (oLoc d)) : sProp 𝕄 := oLoc d ↦[(tStr q).set]{fullShare} f

/-- What tile number `w` is handed: its sixteen blocks of the table, its four stripes of the transposed index array,
    and its four stripes of the transposed result at whatever they hold. -/
abbrev goPts (d : Dev nD) (w : Fin 32) : sProp 𝕄 :=
  iprop((bigSep Finset.univ fun g : Fin 16 => aBlkPts m d (blkOf w g)) ∗ (bigSep Finset.univ fun q : Fin 4 => tStrPts m d (strOf w q))
    ∗ bigSep Finset.univ fun q : Fin 4 => iprop(∃ f, oStrPts d (strOf w q) f))
/-- What it hands back: the same, the result's stripes at `outT`. -/
abbrev tdPts (d : Dev nD) (w : Fin 32) : sProp 𝕄 :=
  iprop((bigSep Finset.univ fun g : Fin 16 => aBlkPts m d (blkOf w g)) ∗ (bigSep Finset.univ fun q : Fin 4 => tStrPts m d (strOf w q))
    ∗ bigSep Finset.univ fun q : Fin 4 => oStrPts d (strOf w q) (outT m d))

/-- The one call: SparseCore `c` takes its sixteen tiles' parts and brings them back, the result's stripes written. -/
def P : (K (F := F)).Pay (nD := nD) (Val := Elt F) (Name := ℕ) (U := UU) where
  st := fun q d c => match q with
    | 0 => bigSep Finset.univ fun s : Fin 16 => goPts m d (wid (Fin.cast nCore_zero c) s)
  dn := fun q d c => match q with
    | 0 => bigSep Finset.univ fun s : Fin 16 => tdPts m d (wid (Fin.cast nCore_zero c) s)
  go := fun q d c i => match q with
    | 0 => goPts m d (wid (Fin.cast nCore_zero c) (Fin.cast nSub_zero i))
  td := fun q d c i => match q with
    | 0 => tdPts m d (wid (Fin.cast nCore_zero c) (Fin.cast nSub_zero i))
  x := fun _ _ => iprop(emp)

instance P_storable : (P (F := F) m).IsStorable where
  st q d c := match q with
    | 0 => (inferInstance : BI.Storable (upEmb : UEmb _ 𝕄) (bigSep Finset.univ fun s : Fin 16 => goPts m d (wid (Fin.cast nCore_zero c) s)))
  dn q d c := match q with
    | 0 => (inferInstance : BI.Storable (upEmb : UEmb _ 𝕄) (bigSep Finset.univ fun s : Fin 16 => tdPts m d (wid (Fin.cast nCore_zero c) s)))
  go q d c i := match q with
    | 0 => (inferInstance : BI.Storable (upEmb : UEmb _ 𝕄) (goPts m d (wid (Fin.cast nCore_zero c) (Fin.cast nSub_zero i))))
  td q d c i := match q with
    | 0 => (inferInstance : BI.Storable (upEmb : UEmb _ 𝕄) (tdPts m d (wid (Fin.cast nCore_zero c) (Fin.cast nSub_zero i))))

end Cert.Proof.KI

end
-- ==== Proof.Tile.lean ====
/-
  One tile's own storage: its three scratch buffers and its four DMA cells (the two table slots' semaphores and the
  two whole-buffer copies' own) taken out of what the subcore owns, and the kernel's HBM windows identified with the
  tile's blocks and stripes: the block copied at outer trip g is block 16 w + g of the table, the stripe copied at
  trips 4 t .. 4 t + 3 is stripe 4 w + t of the transposed arrays.
-/
import proofs.«207812_g85461259256412_cont_9to1c4b_20_21_alg».proof.Proof.Setup

noncomputable section

namespace Cert.Proof.KI

open Cert.KernelIdeal Cert.KernelIdeal.Gen Cert.KernelIdeal.GenP

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-- The thread of the tile at grid coordinates `L`, and its number. -/
abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev widL (L : grid0.Coords) : Fin 32 := wid (Fin.cast bound_zero (L 0)) (Fin.cast bound_one (L 1))

/-- The kernel's operands as the body table passes them. -/
abbrev aV : Memref sig .scVector .hbm S16384x1000 .f32 := Memref.whole main_arg0_scv
abbrev tV : Memref sig .scVector .hbm S200x16384 .i32 := Memref.whole main_v0_scv
abbrev oV : Memref sig .scVector .hbm S200x16384 .f32 := Memref.whole main_v1_scv
abbrev sR : Memref sig .scVector .vmem S2x32x1000 .f32 := Memref.whole cc0_scratch0
abbrev sI : Memref sig .scVector .vmem S200x128 .i32 := Memref.whole cc0_scratch1
abbrev sO : Memref sig .scVector .vmem S200x128 .f32 := Memref.whole cc0_scratch2

section Tile
variable (d : Dev nD) (L : grid0.Coords)

/-- The tile's four DMA cells: the two slots' semaphores and the two whole-buffer copies' own. -/
abbrev dsem (b : Fin 2) : DmaSem sig := ⟨b.val, by have := b.isLt; show b.val < 4; omega⟩
abbrev cellA (b : Fin 2) : GSem nD τ sig := (V d (cV L) (jV L), .dma (dsem b))
abbrev cellI : GSem nD τ sig := (V d (cV L) (jV L), .dma cc0_scoped0.sem)
abbrev cellO : GSem nD τ sig := (V d (cV L) (jV L), .dma cc0_scoped1.sem)

theorem ownSems0_V :
    (ownSems0 (V d (cV L) (jV L)) : sProp 𝕄)
      = iprop(semVal (cellA d L 0) 0 ∗ semVal (cellA d L 1) 0 ∗ semVal (cellI d L) 0 ∗ semVal (cellO d L) 0
          ∗ bigSep (((((ownCells (V d (cV L) (jV L))).erase (cellA d L 0)).erase (cellA d L 1)).erase (cellI d L)).erase (cellO d L))
              fun g => semVal g 0) := by
  unfold SparseCore.Cfg.ownSems0
  rw [SparseCore.bigSep_erase' ((mem_ownCells (g := cellA d L 0)).mpr ⟨rfl, by
      show (SemLoc.dma (dsem 0) : SemLoc sig).isScoped .scVector = true; decide⟩),
    SparseCore.bigSep_erase' (Finset.mem_erase.mpr ⟨fun e => absurd (Prod.mk.inj e).2 (by decide), (mem_ownCells (g := cellA d L 1)).mpr ⟨rfl, by
      show (SemLoc.dma (dsem 1) : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide),
      (mem_ownCells (g := cellI d L)).mpr ⟨rfl, by show (SemLoc.dma cc0_scoped0.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide),
      Finset.mem_erase.mpr ⟨fun e => absurd (Prod.mk.inj e).2 (by decide),
      (mem_ownCells (g := cellO d L)).mpr ⟨rfl, by show (SemLoc.dma cc0_scoped1.sem : SemLoc sig).isScoped .scVector = true; decide⟩⟩⟩⟩)]

/-- The three scratch buffers are among the subcore's own. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

/-! ## The kernel's HBM windows are the tile's blocks and stripes -/

/-- The table window of outer trip `g`, as the wait of that trip slices it. -/
abbrev blkRect (g : Fin k0_t1_loop.trips) : Rect S16384x1000 := Rect.unit (s := S16384x1000) (k0_off7 L g) S32x1000.size (k0_off7_inb L g)
/-- The table window the prologue slices (block 0). -/
abbrev blkRect0 : Rect S16384x1000 := Rect.unit (s := S16384x1000) (k0_off1 L) S32x1000.size (k0_off1_inb L)

theorem trips1 : k0_t1_loop.trips = 16 := by decide
theorem trips2 : k0_t2_loop.trips = 100 := by decide

theorem blkOf_val (g : Fin k0_t1_loop.trips) :
    (blkOf (widL L) (Fin.cast trips1 g)).val * 32 = 1024 * (L 1).val + 512 * (L 0).val + 32 * g.val := by
  show (16 * (2 * (L 1).val + (L 0).val) + g.val) * 32 = _
  omega

theorem blkOf_val0 : (blkOf (widL L) 0).val * 32 = 1024 * (L 1).val + 512 * (L 0).val := by
  show (16 * (2 * (L 1).val + (L 0).val) + 0) * 32 = _
  omega

theorem blkRect_eq (g : Fin k0_t1_loop.trips) : blkRect L g = aBlk (blkOf (widL L) (Fin.cast trips1 g)) := by
  unfold blkRect aBlk Rect.part Rect.block
  congr 1 <;> funext a
  · rw [k0_off7_eq]
    match a with
    | 0 => exact (blkOf_val L g).symm
    | 1 => simp [Shape.partIx, Shape.partSize]
  · match a with
    | 0 => simp [Shape.partSize]
    | 1 => simp [Shape.partSize]

theorem blkRect0_eq : blkRect0 L = aBlk (blkOf (widL L) 0) := by
  unfold blkRect0 aBlk Rect.part Rect.block
  congr 1 <;> funext a
  · rw [k0_off1_eq]
    match a with
    | 0 => exact (blkOf_val0 L).symm
    | 1 => simp [Shape.partIx, Shape.partSize]
  · match a with
    | 0 => simp [Shape.partSize]
    | 1 => simp [Shape.partSize]

/-- The elements of a window of the table are the rectangle's. -/
theorem set_aSlice (r : Rect S16384x1000) (h : ∀ a, r.stride a = 1) : (aV.slice r h).view.set = r.set := by
  show ((View.whole (main_arg0_scv : Ref sig .scVector)).slice r).set = _
  rw [View.set_slice]; exact Finset.map_refl

theorem pts_blk0 (f : Buf (Elt F) (aLoc d)) :
    ((aV.slice (blkRect0 L) (fun _ => rfl)).view.loc (V d (cV L) (jV L)) ↦[(aV.slice (blkRect0 L) (fun _ => rfl)).view.set]{fullShare} f : sProp 𝕄)
      = aLoc d ↦[(aBlk (blkOf (widL L) 0)).set]{fullShare} f := by
  rw [set_aSlice]
  exact congrArg (fun s => (aLoc d ↦[s]{fullShare} f : sProp 𝕄)) (congrArg (fun r : Rect S16384x1000 => r.set) (blkRect0_eq L))

theorem pts_blk (g : Fin k0_t1_loop.trips) (f : Buf (Elt F) (aLoc d)) :
    ((aV.slice (blkRect L g) (fun _ => rfl)).view.loc (V d (cV L) (jV L)) ↦[(aV.slice (blkRect L g) (fun _ => rfl)).view.set]{fullShare} f : sProp 𝕄)
      = aLoc d ↦[(aBlk (blkOf (widL L) (Fin.cast trips1 g))).set]{fullShare} f := by
  rw [set_aSlice]
  exact congrArg (fun s => (aLoc d ↦[s]{fullShare} f : sProp 𝕄)) (congrArg (fun r : Rect S16384x1000 => r.set) (blkRect_eq L g))

/-- The scratch buffers as the kernel's memrefs address them. -/
theorem pts_sR (f : Buf (Elt F) ((V d (cV L) (jV L)).loc cc0_scratch0)) :
    (sR.view.loc (V d (cV L) (jV L)) ↦{fullShare} f : sProp 𝕄) = (V d (cV L) (jV L)).loc cc0_scratch0 ↦{fullShare} f := rfl
theorem pts_sI (f : Buf (Elt F) ((V d (cV L) (jV L)).loc cc0_scratch1)) :
    (sI.view.loc (V d (cV L) (jV L)) ↦{fullShare} f : sProp 𝕄) = (V d (cV L) (jV L)).loc cc0_scratch1 ↦{fullShare} f := rfl
theorem pts_sO (f : Buf (Elt F) ((V d (cV L) (jV L)).loc cc0_scratch2)) :
    (sO.view.loc (V d (cV L) (jV L)) ↦{fullShare} f : sProp 𝕄) = (V d (cV L) (jV L)).loc cc0_scratch2 ↦{fullShare} f := rfl

/-- A slot of the rows scratch at offsets `off`, as a memref of 32 rows. -/
abbrev slotAt (off : Fin 3 → Nat) (h : ∀ a, off a + S1x32x1000.size a ≤ S2x32x1000.size a) : Memref sig .scVector .vmem S32x1000 .f32 :=
  (sR.slice (Rect.unit (s := S2x32x1000) off S1x32x1000.size h) (fun _ => rfl)).squeeze S32x1000 squeezes_S1x32x1000_S32x1000

/-- What a slot's elements hold does not depend on how its offsets are spelt. -/
theorem pts_slot_respell {off off' : Fin 3 → Nat} (e : off = off') (h : ∀ a, off a + S1x32x1000.size a ≤ S2x32x1000.size a)
    (h' : ∀ a, off' a + S1x32x1000.size a ≤ S2x32x1000.size a) (q : PosShare TreeShare) (f : Buf (Elt F) ((V d (cV L) (jV L)).loc cc0_scratch0)) :
    ((slotAt off h).view.loc (V d (cV L) (jV L)) ↦[(slotAt off h).view.set]{q} f : sProp 𝕄)
      = (slotAt off' h').view.loc (V d (cV L) (jV L)) ↦[(slotAt off' h').view.set]{q} f := by
  subst e; rfl

/-! ## The stripe windows, the conditions, the lane vectors -/

set_option maxHeartbeats 4000000 in
theorem k0_off2_eq : ∀ (L : grid0.Coords) (k : Fin k0_t1_loop.trips), k0_off2 L k = ![0, 1024 * (L 1).val + 512 * (L 0).val + 128 * (k.val / 4)] := by decide +kernel
set_option maxHeartbeats 4000000 in
theorem k0_off15_eq : ∀ (L : grid0.Coords) (k : Fin k0_t1_loop.trips), k0_off15 L k = ![0, 1024 * (L 1).val + 512 * (L 0).val + 128 * (k.val / 4)] := by decide +kernel
/-- The index copy runs at the first trip of a stripe, the result copy at the last, the next block is fetched at all but the last trip. -/
theorem cond1_iff : ∀ k : Fin k0_t1_loop.trips, (k0_cond1 k = 1#1) ↔ k.val % 4 = 0 := by decide +kernel
theorem cond2_iff : ∀ k : Fin k0_t1_loop.trips, (k0_cond2 k = 1#1) ↔ k.val + 1 < 16 := by decide +kernel
theorem cond3_iff : ∀ k : Fin k0_t1_loop.trips, (k0_cond3 k = 1#1) ↔ k.val % 4 = 3 := by decide +kernel
/-- The two lane vectors: lanes 0 .. 16 and 16 .. 32. -/
theorem pay1_val : ∀ x : S16.Idx, (k0_pay1 x).toNat = (x 0).val := by decide +kernel
theorem pay2_val : ∀ x : S16.Idx, (k0_pay2 x).toNat = (x 0).val + 16 := by decide +kernel
theorem pay1_lt : ∀ x : S16.Idx, (k0_pay1 x).toNat < 32 := by decide +kernel
theorem pay2_lt : ∀ x : S16.Idx, (k0_pay2 x).toNat < 32 := by decide +kernel

/-- Every lane of a gather names a row of the slot and a column of the table. -/
theorem chk_gen (pay v : IVec S16 32) (hpay : ∀ x, (pay x).toNat < 32) (hv : ∀ x, (v x).toNat < 1000) :
    ∀ a x, ((![pay, v] : Fin 2 → IVec S16 32) a x).toNat < S32x1000.size a := by
  intro a x
  match a with
  | ⟨0, _⟩ => exact hpay x
  | ⟨1, _⟩ => exact hv x

/-- The slot semaphore at offsets `off`. -/
abbrev semAt (off : Fin 1 → Nat) (h : ∀ a, off a + S1.size a ≤ S2.size a) : DmaSem sig :=
  ((cc0_scratch3.slice (Rect.unit (s := S2) off S1.size h)).squeeze S_ squeezes_S1_S_).sem

theorem semAt_congr {off off' : Fin 1 → Nat} (e : off = off') (h : ∀ a, off a + S1.size a ≤ S2.size a) (h' : ∀ a, off' a + S1.size a ≤ S2.size a) :
    semAt off h = semAt off' h' := by subst e; rfl

/-- A table window at offsets `off`. -/
abbrev blkAt (off : Fin 2 → Nat) (h : ∀ a, off a + S32x1000.size a ≤ S16384x1000.size a) : Memref sig .scVector .hbm S32x1000 .f32 :=
  aV.slice (Rect.unit (s := S16384x1000) off S32x1000.size h) (fun _ => rfl)

/-- The index-array window and the result window of outer trip `k` (their stripe is number k / 4 of the tile's four). -/
abbrev strRectI (k : Fin k0_t1_loop.trips) (h : k0_cond1 k = 1#1) : Rect S200x16384 := Rect.unit (s := S200x16384) (k0_off2 L k) S200x128.size (k0_off2_inb L k h)
abbrev strRectO (k : Fin k0_t1_loop.trips) (h : k0_cond3 k = 1#1) : Rect S200x16384 := Rect.unit (s := S200x16384) (k0_off15 L k) S200x128.size (k0_off15_inb L k h)

/-- The stripe of outer trip `k`, as one of the tile's four. -/
def strIx (k : Fin k0_t1_loop.trips) : Fin 4 := ⟨k.val / 4, by have := k.isLt.trans_eq trips1; omega⟩

theorem strOf_val (k : Fin k0_t1_loop.trips) :
    (strOf (widL L) (strIx k)).val * 128 = 1024 * (L 1).val + 512 * (L 0).val + 128 * (k.val / 4) := by
  show (4 * (2 * (L 1).val + (L 0).val) + k.val / 4) * 128 = _
  omega

theorem strRectI_eq (k : Fin k0_t1_loop.trips) (h : k0_cond1 k = 1#1) : strRectI L k h = tStr (strOf (widL L) (strIx k)) := by
  unfold strRectI tStr Rect.part Rect.block
  congr 1 <;> funext a
  · rw [k0_off2_eq]
    match a with
    | 0 => simp [Shape.partIx, Shape.partSize]
    | 1 => exact (strOf_val L k).symm
  · match a with
    | 0 => simp [Shape.partSize]
    | 1 => simp [Shape.partSize]

theorem strRectO_eq (k : Fin k0_t1_loop.trips) (h : k0_cond3 k = 1#1) : strRectO L k h = tStr (strOf (widL L) (strIx k)) := by
  unfold strRectO tStr Rect.part Rect.block
  congr 1 <;> funext a
  · rw [k0_off15_eq]
    match a with
    | 0 => simp [Shape.partIx, Shape.partSize]
    | 1 => exact (strOf_val L k).symm
  · match a with
    | 0 => simp [Shape.partSize]
    | 1 => simp [Shape.partSize]

theorem set_tSlice (r : Rect S200x16384) (h : ∀ a, r.stride a = 1) : (tV.slice r h).view.set = r.set := by
  show ((View.whole (main_v0_scv : Ref sig .scVector)).slice r).set = _
  rw [View.set_slice]; exact Finset.map_refl
theorem set_oSlice (r : Rect S200x16384) (h : ∀ a, r.stride a = 1) : (oV.slice r h).view.set = r.set := by
  show ((View.whole (main_v1_scv : Ref sig .scVector)).slice r).set = _
  rw [View.set_slice]; exact Finset.map_refl

theorem pts_strI (k : Fin k0_t1_loop.trips) (h : k0_cond1 k = 1#1) (f : Buf (Elt F) (tLoc d)) :
    ((tV.slice (strRectI L k h) (fun _ => rfl)).view.loc (V d (cV L) (jV L)) ↦[(tV.slice (strRectI L k h) (fun _ => rfl)).view.set]{fullShare} f : sProp 𝕄)
      = tLoc d ↦[(tStr (strOf (widL L) (strIx k))).set]{fullShare} f := by
  rw [set_tSlice]
  exact congrArg (fun s => (tLoc d ↦[s]{fullShare} f : sProp 𝕄)) (congrArg (fun r : Rect S200x16384 => r.set) (strRectI_eq L k h))

theorem pts_strO (k : Fin k0_t1_loop.trips) (h : k0_cond3 k = 1#1) (f : Buf (Elt F) (oLoc d)) :
    ((oV.slice (strRectO L k h) (fun _ => rfl)).view.loc (V d (cV L) (jV L)) ↦[(oV.slice (strRectO L k h) (fun _ => rfl)).view.set]{fullShare} f : sProp 𝕄)
      = oLoc d ↦[(tStr (strOf (widL L) (strIx k))).set]{fullShare} f := by
  rw [set_oSlice]
  exact congrArg (fun s => (oLoc d ↦[s]{fullShare} f : sProp 𝕄)) (congrArg (fun r : Rect S200x16384 => r.set) (strRectO_eq L k h))

/-- A table window's elements at offsets spelt two ways. -/
theorem pts_blk_respell {off off' : Fin 2 → Nat} (e : off = off') (h : ∀ a, off a + S32x1000.size a ≤ S16384x1000.size a)
    (h' : ∀ a, off' a + S32x1000.size a ≤ S16384x1000.size a) (q : PosShare TreeShare) (f : Buf (Elt F) (aLoc d)) :
    ((blkAt off h).view.loc (V d (cV L) (jV L)) ↦[(blkAt off h).view.set]{q} f : sProp 𝕄)
      = (blkAt off' h').view.loc (V d (cV L) (jV L)) ↦[(blkAt off' h').view.set]{q} f := by
  subst e; rfl

end Tile

end Cert.Proof.KI

end
-- ==== Proof.Values.lean ====
/-
  What the scratch buffers hold, as facts about their contents, and the two computations of an inner trip.

  At outer trip k of the tile numbered w (table rows 512 w + 32 k .. + 32, columns 32 (k % 4) .. + 32 of stripe k / 4):
  the slot k % 2 of the rows scratch holds those 32 table rows (SlotOK); the index scratch holds the 128 columns
  512 w + 128 (k / 4) .. of the transposed index array (IdxOK); the out scratch holds the transposed result's entries
  at the columns already finished, and after inner trip t also rows 0 .. 2 t of the 32 columns in hand (OutOK).
  One gathered vector is sixteen entries of the transposed result (piece_val): lane l reads table row
  512 w + 32 k + 16 r₂ + l at the column its index word names, and that word is below 1000. Four such vectors stored
  at rows 2 t, 2 t + 1 and columns 32 (k % 4) + 16 r₂ .. + 16 take OutOK from t to t + 1 (out_step).
-/
import proofs.«207812_g85461259256412_cont_9to1c4b_20_21_alg».proof.Proof.Tile
import Idealize.ShloMosaic.Lib.Writes
import Idealize.ShloMosaic.Lib.ValueIdx
import Idealize.ShloMosaic.Lib.Pipeline.Value

noncomputable section

namespace Cert.Proof.KI

open Cert.KernelIdeal Cert.KernelIdeal.Gen Cert.KernelIdeal.GenP

open Idealize.ShloMosaic Idealize.ShloMosaic.ValueIdx
open Idealize.ShloMosaic.SparseCore (S V T)

variable {F : FTy → Type}

variable (m : (ℓ : Loc nD τ sig) → Buf (Elt F) ℓ)

section Tile
variable (d : Dev nD) (L : grid0.Coords)

theorem widL_lt : (widL L).val < 32 := (widL L).isLt
theorem k_lt (k : Fin k0_t1_loop.trips) : k.val < 16 := k.isLt.trans_eq trips1
theorem t_lt (t : Fin k0_t2_loop.trips) : t.val < 100 := t.isLt.trans_eq trips2

/-- Slot k % 2 of the rows scratch holds table rows 512 w + 32 k .. + 32. -/
def SlotOK (k : Fin k0_t1_loop.trips) (fr : Buf (Elt F) ((V d (cV L) (jV L)).loc cc0_scratch0)) : Prop :=
  ∀ (x : Fin 32) (c : Fin 1000),
    fr (ix3 (n0 := 2) (n1 := 32) (n2 := 1000) ⟨k.val % 2, Nat.mod_lt _ (by decide)⟩ x c)
      = m (aLoc d) (ix2 (n0 := 16384) (n1 := 1000) ⟨512 * (widL L).val + 32 * k.val + x.val, by have := widL_lt L; have := k_lt k; omega⟩ c)

/-- The index scratch holds columns 512 w + 128 (k / 4) .. + 128 of the transposed index array. -/
def IdxOK (k : Fin k0_t1_loop.trips) (fi : Buf (Elt F) ((V d (cV L) (jV L)).loc cc0_scratch1)) : Prop :=
  ∀ (j : Fin 200) (y : Fin 128),
    fi (ix2 (n0 := 200) (n1 := 128) j y)
      = idxT m d (ix2 (n0 := 200) (n1 := 16384) j ⟨512 * (widL L).val + 128 * (k.val / 4) + y.val, by have := widL_lt L; have := k_lt k; omega⟩)

/-- The out scratch holds the transposed result at the columns finished before outer trip k of its stripe, and at
    rows below 2 t of the 32 columns in hand. -/
def OutOK (k : Fin k0_t1_loop.trips) (t : Nat) (fo : Buf (Elt F) ((V d (cV L) (jV L)).loc cc0_scratch2)) : Prop :=
  ∀ (j : Fin 200) (y : Fin 128), (y.val < 32 * (k.val % 4) ∨ (y.val < 32 * (k.val % 4) + 32 ∧ j.val < 2 * t)) →
    fo (ix2 (n0 := 200) (n1 := 128) j y)
      = outT m d (ix2 (n0 := 200) (n1 := 16384) j ⟨512 * (widL L).val + 128 * (k.val / 4) + y.val, by have := widL_lt L; have := k_lt k; omega⟩)

variable [FloatOps F]

/-- Every word the index scratch holds is below 1000. -/
theorem idx_lt_of_IdxOK (hpre : PreOK m) (k : Fin k0_t1_loop.trips) (fi : Buf (Elt F) ((V d (cV L) (jV L)).loc cc0_scratch1))
    (hfi : IdxOK m d L k fi) : ∀ i, (fi i).toNat < 1000 := by
  intro i
  obtain ⟨j, y, rfl⟩ : ∃ (j : Fin 200) (y : Fin 128), i = ix2 j y := ⟨i 0, i 1, eq_ix2 i⟩
  rw [hfi j y]
  exact hpre d _

/-- A slot of the rows scratch read whole at (x, c) is the buffer at (b, x, c). -/
theorem slot_read (b : Fin 2) (off : Fin 3 → Nat) (hoff : off = ![b.val, 0, 0]) (hin : ∀ a, off a + S1x32x1000.size a ≤ S2x32x1000.size a)
    (fr : Buf (Elt F) ((V d (cV L) (jV L)).loc cc0_scratch0)) (x : Fin 32) (c : Fin 1000) :
    View.readAt (Elt F) (slotAt off hin).view (LoadRect.whole S32x1000) fr (ix2 (n0 := 32) (n1 := 1000) x c)
      = fr (ix3 (n0 := 2) (n1 := 32) (n2 := 1000) b x c) := by
  subst hoff
  rw [View.readAt_apply, View.read_apply]
  have e : (slotAt ![b.val, 0, 0] hin).view.emb ((LoadRect.whole S32x1000).idx (ix2 (n0 := 32) (n1 := 1000) x c))
      = ix3 (n0 := 2) (n1 := 32) (n2 := 1000) b x c := by
    show (Rect.unit (s := S2x32x1000) ![b.val, 0, 0] S1x32x1000.size hin).emb (Shape.reshapeEquiv _ ((LoadRect.whole S32x1000).idx (ix2 (n0 := 32) (n1 := 1000) x c))) = _
    rw [Shape.reshapeEquiv_eq_of_rowMajor _ (y := ix3 (n0 := 1) (n1 := 32) (n2 := 1000) 0 x c) (by
      rw [Shape.rowMajor_val_three, Shape.rowMajor_val_two]
      show (0 * 32 + x.val) * 1000 + c.val = (0 + 1 * x.val) * 1000 + (0 + 1 * c.val)
      omega)]
    funext a
    match a with
    | ⟨0, _⟩ => exact Fin.ext (by show b.val + 1 * 0 = b.val; omega)
    | ⟨1, _⟩ => exact Fin.ext (by show 0 + 1 * x.val = x.val; omega)
    | ⟨2, _⟩ => exact Fin.ext (by show 0 + 1 * c.val = c.val; omega)
  rw [e]
  rfl

/-- The sixteen index words loaded at row 2 t + r₁, columns 32 (k % 4) + 16 r₂ .. + 16 of the index scratch: lane l is
    the transposed index array at row 2 t + r₁, column 512 w + 32 k + 16 r₂ + l. -/
theorem idx_word (k : Fin k0_t1_loop.trips) (t : Fin k0_t2_loop.trips) (r₁ r₂ : Fin 2)
    (fi : Buf (Elt F) ((V d (cV L) (jV L)).loc cc0_scratch1)) (hfi : IdxOK m d L k fi) (l : Fin 16) :
    shapeCast S16 (View.readAt (Elt F) sI.view
        (Rect.unit (s := S200x128) (k0_off9 k t (BitVec.ofNat 32 r₁.val) (BitVec.ofNat 32 (16 * r₂.val))) S1x16.size (k0_off9_inb k t r₁ r₂)).toLoadRect fi)
        shapeCasts_S1x16_S16 (ix1 (n := 16) l)
      = idxT m d (ix2 (n0 := 200) (n1 := 16384) ⟨2 * t.val + r₁.val, by have := t_lt t; have := r₁.isLt; omega⟩
          ⟨512 * (widL L).val + 32 * k.val + 16 * r₂.val + l.val, by have := widL_lt L; have := k_lt k; have := r₂.isLt; omega⟩) := by
  have h9 := k0_off9_eq k t r₁ r₂
  have h90 : k0_off9 k t (BitVec.ofNat 32 r₁.val) (BitVec.ofNat 32 (16 * r₂.val)) 0 = 2 * t.val + r₁.val := by rw [h9]; rfl
  have h91 : k0_off9 k t (BitVec.ofNat 32 r₁.val) (BitVec.ofNat 32 (16 * r₂.val)) 1 = 32 * (k.val % 4) + 16 * r₂.val := by rw [h9]; rfl
  rw [shapeCast_apply _ _ (ix1 (n := 16) l) (ix2 (n0 := 1) (n1 := 16) 0 l) (by
    rw [Shape.rowMajor_val_two, Shape.rowMajor_val_one]; show 0 * 16 + l.val = l.val; omega)]
  rw [View.readAt_apply]
  have e : (Rect.unit (s := S200x128) (k0_off9 k t (BitVec.ofNat 32 r₁.val) (BitVec.ofNat 32 (16 * r₂.val))) S1x16.size (k0_off9_inb k t r₁ r₂)).toLoadRect.idx
        (ix2 (n0 := 1) (n1 := 16) 0 l)
      = ix2 (n0 := 200) (n1 := 128) ⟨2 * t.val + r₁.val, by have := t_lt t; have := r₁.isLt; omega⟩
          ⟨32 * (k.val % 4) + 16 * r₂.val + l.val, by have := r₂.isLt; omega⟩ := by
    funext a
    match a with
    | ⟨0, _⟩ => exact Fin.ext (by
        show k0_off9 k t (BitVec.ofNat 32 r₁.val) (BitVec.ofNat 32 (16 * r₂.val)) 0 + 1 * 0 = 2 * t.val + r₁.val
        rw [h90]; omega)
    | ⟨1, _⟩ => exact Fin.ext (by
        show k0_off9 k t (BitVec.ofNat 32 r₁.val) (BitVec.ofNat 32 (16 * r₂.val)) 1 + 1 * l.val = 32 * (k.val % 4) + 16 * r₂.val + l.val
        rw [h91]; omega)
  rw [e]
  show fi (ix2 (n0 := 200) (n1 := 128) ⟨2 * t.val + r₁.val, _⟩ ⟨32 * (k.val % 4) + 16 * r₂.val + l.val, _⟩) = _
  rw [hfi]
  exact congrArg (idxT m d) (congrArg (ix2 (n0 := 200) (n1 := 16384) _) (Fin.ext (by
    show 512 * (widL L).val + 128 * (k.val / 4) + (32 * (k.val % 4) + 16 * r₂.val + l.val) = 512 * (widL L).val + 32 * k.val + 16 * r₂.val + l.val
    omega)))

/-- One gathered lane, the index words abstracted: if lane l's word is the transposed index array's at
    (2 t + r₁, 512 w + 32 k + 16 r₂ + l), the lane is the transposed result there. -/
theorem piece_val_aux (hpre : PreOK m) (k : Fin k0_t1_loop.trips) (t : Fin k0_t2_loop.trips) (r₁ r₂ : Fin 2)
    (off : Fin 3 → Nat) (hoff : off = ![k.val % 2, 0, 0]) (hin : ∀ a, off a + S1x32x1000.size a ≤ S2x32x1000.size a)
    (pay : IVec S16 32) (hpay : ∀ x : S16.Idx, (pay x).toNat = (x 0).val + 16 * r₂.val) (vv : IVec S16 32)
    (fr : Buf (Elt F) ((V d (cV L) (jV L)).loc cc0_scratch0)) (hfr : SlotOK m d L k fr)
    (hchk : ∀ a x, ((![pay, vv] : Fin 2 → IVec S16 32) a x).toNat < S32x1000.size a) (l : Fin 16)
    (hv : vv (ix1 (n := 16) l) = idxT m d (ix2 (n0 := 200) (n1 := 16384) ⟨2 * t.val + r₁.val, by have := t_lt t; have := r₁.isLt; omega⟩
          ⟨512 * (widL L).val + 32 * k.val + 16 * r₂.val + l.val, by have := widL_lt L; have := k_lt k; have := r₂.isLt; omega⟩)) :
    loadIdx (View.readAt (Elt F) (slotAt off hin).view (LoadRect.whole S32x1000) fr) ![pay, vv] hchk (ix1 (n := 16) l)
      = outT m d (ix2 (n0 := 200) (n1 := 16384) ⟨2 * t.val + r₁.val, by have := t_lt t; have := r₁.isLt; omega⟩
          ⟨512 * (widL L).val + 32 * k.val + 16 * r₂.val + l.val, by have := widL_lt L; have := k_lt k; have := r₂.isLt; omega⟩) := by
  have hx : (pay (ix1 (n := 16) l)).toNat = l.val + 16 * r₂.val := hpay (ix1 (n := 16) l)
  have hlt : (vv (ix1 (n := 16) l)).toNat < 1000 := by rw [hv]; exact hpre d _
  show View.readAt (Elt F) (slotAt off hin).view (LoadRect.whole S32x1000) fr (idxAt ![pay, vv] hchk (ix1 (n := 16) l)) = _
  have ei : idxAt ![pay, vv] hchk (ix1 (n := 16) l)
      = ix2 (n0 := 32) (n1 := 1000) ⟨(pay (ix1 (n := 16) l)).toNat, hchk 0 (ix1 (n := 16) l)⟩ ⟨(vv (ix1 (n := 16) l)).toNat, hchk 1 (ix1 (n := 16) l)⟩ := by
    funext a
    match a with
    | ⟨0, _⟩ => rfl
    | ⟨1, _⟩ => rfl
  rw [ei, slot_read d L ⟨k.val % 2, Nat.mod_lt _ (by decide)⟩ off hoff hin fr, hfr]
  unfold outT Cert.Spec.pickT
  refine congrArg (m (aLoc d)) ?_
  funext a
  match a with
  | ⟨0, _⟩ => exact Fin.ext (by
      show 512 * (widL L).val + 32 * k.val + (pay (ix1 (n := 16) l)).toNat = 512 * (widL L).val + 32 * k.val + 16 * r₂.val + l.val
      omega)
  | ⟨1, _⟩ => exact Fin.ext (by
      show (vv (ix1 (n := 16) l)).toNat = (Cert.Spec.col (idxT m d _)).val
      rw [← hv, Cert.Spec.col_val_of_lt hlt])

/-- One gathered vector: lane l is the transposed result at row 2 t + r₁, column 512 w + 32 k + 16 r₂ + l. -/
theorem piece_val (hpre : PreOK m) (k : Fin k0_t1_loop.trips) (t : Fin k0_t2_loop.trips) (r₁ r₂ : Fin 2)
    (off : Fin 3 → Nat) (hoff : off = ![k.val % 2, 0, 0]) (hin : ∀ a, off a + S1x32x1000.size a ≤ S2x32x1000.size a)
    (pay : IVec S16 32) (hpay : ∀ x : S16.Idx, (pay x).toNat = (x 0).val + 16 * r₂.val)
    (fr : Buf (Elt F) ((V d (cV L) (jV L)).loc cc0_scratch0)) (fi : Buf (Elt F) ((V d (cV L) (jV L)).loc cc0_scratch1))
    (hfr : SlotOK m d L k fr) (hfi : IdxOK m d L k fi)
    (hchk : ∀ a x, ((![pay, shapeCast S16 (View.readAt (Elt F) sI.view
        (Rect.unit (s := S200x128) (k0_off9 k t (BitVec.ofNat 32 r₁.val) (BitVec.ofNat 32 (16 * r₂.val))) S1x16.size (k0_off9_inb k t r₁ r₂)).toLoadRect fi)
        shapeCasts_S1x16_S16] : Fin 2 → IVec S16 32) a x).toNat < S32x1000.size a)
    (l : Fin 16) :
    loadIdx (View.readAt (Elt F) (slotAt off hin).view (LoadRect.whole S32x1000) fr)
        ![pay, shapeCast S16 (View.readAt (Elt F) sI.view
          (Rect.unit (s := S200x128) (k0_off9 k t (BitVec.ofNat 32 r₁.val) (BitVec.ofNat 32 (16 * r₂.val))) S1x16.size (k0_off9_inb k t r₁ r₂)).toLoadRect fi)
          shapeCasts_S1x16_S16] hchk (ix1 (n := 16) l)
      = outT m d (ix2 (n0 := 200) (n1 := 16384) ⟨2 * t.val + r₁.val, by have := t_lt t; have := r₁.isLt; omega⟩
          ⟨512 * (widL L).val + 32 * k.val + 16 * r₂.val + l.val, by have := widL_lt L; have := k_lt k; have := r₂.isLt; omega⟩) := by
  exact piece_val_aux m d L hpre k t r₁ r₂ off hoff hin pay hpay _ fr hfr hchk l (idx_word m d L k t r₁ r₂ fi hfi l)

/-- The rectangle of the store at row 2 t + r₁, columns 32 (k % 4) + 16 r₂ .. + 16 of the out scratch. -/
abbrev oRect (k : Fin k0_t1_loop.trips) (t : Fin k0_t2_loop.trips) (r₁ r₂ : Fin 2) : Rect S200x128 :=
  Rect.unit (s := S200x128) (k0_off14 k t (BitVec.ofNat 32 r₁.val) (BitVec.ofNat 32 (16 * r₂.val))) S1x16.size (k0_off14_inb k t r₁ r₂)

theorem off14_zero (k : Fin k0_t1_loop.trips) (t : Fin k0_t2_loop.trips) (r₁ r₂ : Fin 2) :
    k0_off14 k t (BitVec.ofNat 32 r₁.val) (BitVec.ofNat 32 (16 * r₂.val)) 0 = 2 * t.val + r₁.val := by
  rw [k0_off14_eq k t r₁ r₂]; rfl
theorem off14_one (k : Fin k0_t1_loop.trips) (t : Fin k0_t2_loop.trips) (r₁ r₂ : Fin 2) :
    k0_off14 k t (BitVec.ofNat 32 r₁.val) (BitVec.ofNat 32 (16 * r₂.val)) 1 = 32 * (k.val % 4) + 16 * r₂.val := by
  rw [k0_off14_eq k t r₁ r₂]; rfl

/-- (j, y) lies under that rectangle iff j = 2 t + r₁ and y is one of its sixteen columns. -/
theorem mem_oRect (k : Fin k0_t1_loop.trips) (t : Fin k0_t2_loop.trips) (r₁ r₂ : Fin 2) (a b : Nat) (ha : r₁.val = a) (hb : r₂.val = b)
    (j : Fin 200) (y : Fin 128) :
    ix2 (n0 := 200) (n1 := 128) j y ∈ (oRect k t r₁ r₂).set
      ↔ j.val = 2 * t.val + a ∧ 32 * (k.val % 4) + 16 * b ≤ y.val ∧ y.val < 32 * (k.val % 4) + 16 * b + 16 := by
  subst ha hb
  rw [Rect.mem_set_unit]
  constructor
  · intro h
    have h0 : k0_off14 k t (BitVec.ofNat 32 r₁.val) (BitVec.ofNat 32 (16 * r₂.val)) 0 ≤ j.val
        ∧ j.val < k0_off14 k t (BitVec.ofNat 32 r₁.val) (BitVec.ofNat 32 (16 * r₂.val)) 0 + 1 := h 0
    have h1 : k0_off14 k t (BitVec.ofNat 32 r₁.val) (BitVec.ofNat 32 (16 * r₂.val)) 1 ≤ y.val
        ∧ y.val < k0_off14 k t (BitVec.ofNat 32 r₁.val) (BitVec.ofNat 32 (16 * r₂.val)) 1 + 16 := h 1
    rw [off14_zero] at h0
    rw [off14_one] at h1
    omega
  · intro h a
    match a with
    | ⟨0, _⟩ =>
      show k0_off14 k t (BitVec.ofNat 32 r₁.val) (BitVec.ofNat 32 (16 * r₂.val)) 0 ≤ j.val
        ∧ j.val < k0_off14 k t (BitVec.ofNat 32 r₁.val) (BitVec.ofNat 32 (16 * r₂.val)) 0 + 1
      rw [off14_zero]; omega
    | ⟨1, _⟩ =>
      show k0_off14 k t (BitVec.ofNat 32 r₁.val) (BitVec.ofNat 32 (16 * r₂.val)) 1 ≤ y.val
        ∧ y.val < k0_off14 k t (BitVec.ofNat 32 r₁.val) (BitVec.ofNat 32 (16 * r₂.val)) 1 + 16
      rw [off14_one]; omega

/-- What the out scratch is to hold at (j, y) during outer trip k: the transposed result at column 512 w + 128 (k / 4) + y. -/
def outG (k : Fin k0_t1_loop.trips) : S200x128.Idx → Elt F .f32 :=
  fun i => outT m d (ix2 (n0 := 200) (n1 := 16384) ⟨(i 0).val, idx2_lt0 i⟩
    ⟨512 * (widL L).val + 128 * (k.val / 4) + (i 1).val, by have := widL_lt L; have := k_lt k; have := idx2_lt1 i; omega⟩)

/-- A stored vector whose lanes are the transposed result's entries agrees with outG under its rectangle. -/
theorem piece_outG (k : Fin k0_t1_loop.trips) (t : Fin k0_t2_loop.trips) (r₁ r₂ : Fin 2) (p : Vec F S16 .f32)
    (hp : ∀ l : Fin 16, p (ix1 (n := 16) l)
      = outT m d (ix2 (n0 := 200) (n1 := 16384) ⟨2 * t.val + r₁.val, by have := t_lt t; have := r₁.isLt; omega⟩
          ⟨512 * (widL L).val + 32 * k.val + 16 * r₂.val + l.val, by have := widL_lt L; have := k_lt k; have := r₂.isLt; omega⟩))
    (x : (oRect k t r₁ r₂).shape.Idx) :
    shapeCast S1x16 p shapeCasts_S16_S1x16 x = outG m d L k ((oRect k t r₁ r₂).emb x) := by
  obtain ⟨x0, l, rfl⟩ : ∃ (x0 : Fin 1) (l : Fin 16), x = ix2 (n0 := 1) (n1 := 16) x0 l := ⟨x 0, x 1, eq_ix2 (n0 := 1) (n1 := 16) x⟩
  rw [shapeCast_apply p shapeCasts_S16_S1x16 (ix2 (n0 := 1) (n1 := 16) x0 l) (ix1 (n := 16) l) (by
    rw [Shape.rowMajor_val_one, Shape.rowMajor_val_two]; show l.val = x0.val * 16 + l.val; omega)]
  rw [hp l]
  unfold outG
  refine congrArg (outT m d) ?_
  funext a
  match a with
  | ⟨0, _⟩ => exact Fin.ext (by
      show 2 * t.val + r₁.val = k0_off14 k t (BitVec.ofNat 32 r₁.val) (BitVec.ofNat 32 (16 * r₂.val)) 0 + 1 * x0.val
      rw [off14_zero]; omega)
  | ⟨1, _⟩ => exact Fin.ext (by
      show 512 * (widL L).val + 32 * k.val + 16 * r₂.val + l.val
        = 512 * (widL L).val + 128 * (k.val / 4) + (k0_off14 k t (BitVec.ofNat 32 r₁.val) (BitVec.ofNat 32 (16 * r₂.val)) 1 + 1 * l.val)
      rw [off14_one]; omega)

/-- Four gathered vectors stored at rows 2 t, 2 t + 1 and columns 32 (k % 4) + 16 r₂ .. + 16 take OutOK from t to t + 1. -/
theorem out_step (k : Fin k0_t1_loop.trips) (t : Fin k0_t2_loop.trips)
    (fo : Buf (Elt F) ((V d (cV L) (jV L)).loc cc0_scratch2)) (p00 p01 p10 p11 : Vec F S16 .f32)
    (hfo : OutOK m d L k t.val fo)
    (h : ∀ (r₁ r₂ : Fin 2) (l : Fin 16),
      (match r₁, r₂ with | 0, 0 => p00 | 0, 1 => p01 | 1, 0 => p10 | 1, 1 => p11) (ix1 (n := 16) l)
        = outT m d (ix2 (n0 := 200) (n1 := 16384) ⟨2 * t.val + r₁.val, by have := t_lt t; have := r₁.isLt; omega⟩
            ⟨512 * (widL L).val + 32 * k.val + 16 * r₂.val + l.val, by have := widL_lt L; have := k_lt k; have := r₂.isLt; omega⟩)) :
    OutOK m d L k (t.val + 1) (sO.view.writes (Elt F) fo
      [⟨Rect.unit (s := S200x128) (k0_off14 k t 1#32 16#32) S1x16.size (k0_off14_inb k t 1 1), shapeCast S1x16 p11 shapeCasts_S16_S1x16⟩,
       ⟨Rect.unit (s := S200x128) (k0_off14 k t 1#32 0#32) S1x16.size (k0_off14_inb k t 1 0), shapeCast S1x16 p10 shapeCasts_S16_S1x16⟩,
       ⟨Rect.unit (s := S200x128) (k0_off14 k t 0#32 16#32) S1x16.size (k0_off14_inb k t 0 1), shapeCast S1x16 p01 shapeCasts_S16_S1x16⟩,
       ⟨Rect.unit (s := S200x128) (k0_off14 k t 0#32 0#32) S1x16.size (k0_off14_inb k t 0 0), shapeCast S1x16 p00 shapeCasts_S16_S1x16⟩]) := by
  intro j y hy
  show sO.view.read (Elt F) (sO.view.writes (Elt F) fo
      [⟨oRect k t 1 1, shapeCast S1x16 p11 shapeCasts_S16_S1x16⟩, ⟨oRect k t 1 0, shapeCast S1x16 p10 shapeCasts_S16_S1x16⟩,
       ⟨oRect k t 0 1, shapeCast S1x16 p01 shapeCasts_S16_S1x16⟩, ⟨oRect k t 0 0, shapeCast S1x16 p00 shapeCasts_S16_S1x16⟩])
      (ix2 (n0 := 200) (n1 := 128) j y) = _
  by_cases hc : (j.val = 2 * t.val ∨ j.val = 2 * t.val + 1) ∧ 32 * (k.val % 4) ≤ y.val ∧ y.val < 32 * (k.val % 4) + 32
  · -- under one of the four rectangles: the piece's lane, the transposed result there
    have hG : ∀ p ∈ ([⟨oRect k t 1 1, shapeCast S1x16 p11 shapeCasts_S16_S1x16⟩, ⟨oRect k t 1 0, shapeCast S1x16 p10 shapeCasts_S16_S1x16⟩,
        ⟨oRect k t 0 1, shapeCast S1x16 p01 shapeCasts_S16_S1x16⟩, ⟨oRect k t 0 0, shapeCast S1x16 p00 shapeCasts_S16_S1x16⟩] : List (View.Piece (Elt F) S200x128 .f32)),
        ∀ x : p.1.shape.Idx, p.2 x = outG m d L k (p.1.emb x) := by
      intro p hp
      simp only [List.mem_cons, List.not_mem_nil, or_false] at hp
      rcases hp with rfl | rfl | rfl | rfl
      · exact piece_outG m d L k t 1 1 p11 (h 1 1)
      · exact piece_outG m d L k t 1 0 p10 (h 1 0)
      · exact piece_outG m d L k t 0 1 p01 (h 0 1)
      · exact piece_outG m d L k t 0 0 p00 (h 0 0)
    have hcov : ∃ p ∈ ([⟨oRect k t 1 1, shapeCast S1x16 p11 shapeCasts_S16_S1x16⟩, ⟨oRect k t 1 0, shapeCast S1x16 p10 shapeCasts_S16_S1x16⟩,
        ⟨oRect k t 0 1, shapeCast S1x16 p01 shapeCasts_S16_S1x16⟩, ⟨oRect k t 0 0, shapeCast S1x16 p00 shapeCasts_S16_S1x16⟩] : List (View.Piece (Elt F) S200x128 .f32)),
        ix2 (n0 := 200) (n1 := 128) j y ∈ p.1.set := by
      obtain ⟨hj, hy1, hy2⟩ := hc
      rcases hj with hj | hj <;> by_cases hlo : y.val < 32 * (k.val % 4) + 16
      · exact ⟨_, List.mem_cons_of_mem _ (List.mem_cons_of_mem _ (List.mem_cons_of_mem _ List.mem_cons_self)),
          (mem_oRect k t 0 0 0 0 rfl rfl j y).mpr (by omega)⟩
      · exact ⟨_, List.mem_cons_of_mem _ (List.mem_cons_of_mem _ List.mem_cons_self),
          (mem_oRect k t 0 1 0 1 rfl rfl j y).mpr (by omega)⟩
      · exact ⟨_, List.mem_cons_of_mem _ List.mem_cons_self,
          (mem_oRect k t 1 0 1 0 rfl rfl j y).mpr (by omega)⟩
      · exact ⟨_, List.mem_cons_self,
          (mem_oRect k t 1 1 1 1 rfl rfl j y).mpr (by omega)⟩
    rw [View.read_writes_apply_of_pieces sO.view fo (outG m d L k) _ hG (ix2 (n0 := 200) (n1 := 128) j y) hcov]
    rfl
  · -- under none: the scratch keeps what it held, and that was already right
    have hnot : ∀ p ∈ ([⟨oRect k t 1 1, shapeCast S1x16 p11 shapeCasts_S16_S1x16⟩, ⟨oRect k t 1 0, shapeCast S1x16 p10 shapeCasts_S16_S1x16⟩,
        ⟨oRect k t 0 1, shapeCast S1x16 p01 shapeCasts_S16_S1x16⟩, ⟨oRect k t 0 0, shapeCast S1x16 p00 shapeCasts_S16_S1x16⟩] : List (View.Piece (Elt F) S200x128 .f32)),
        ix2 (n0 := 200) (n1 := 128) j y ∉ p.1.set := by
      have one : ∀ r₁ r₂ : Fin 2, ix2 (n0 := 200) (n1 := 128) j y ∉ (oRect k t r₁ r₂).set := by
        intro r₁ r₂ hm
        have := (mem_oRect k t r₁ r₂ r₁.val r₂.val rfl rfl j y).mp hm
        have := r₁.isLt
        have := r₂.isLt
        omega
      intro p hp
      simp only [List.mem_cons, List.not_mem_nil, or_false] at hp
      rcases hp with rfl | rfl | rfl | rfl
      · exact one 1 1
      · exact one 1 0
      · exact one 0 1
      · exact one 0 0
    rw [View.read_writes_apply_of_forall_not_mem sO.view fo (ix2 (n0 := 200) (n1 := 128) j y) _ hnot]
    exact hfo j y (by omega)

/-- Before the first inner trip nothing of the 32 columns in hand is asked; after the last all 200 rows are there. -/
theorem OutOK_zero_of_prev (k : Fin k0_t1_loop.trips) (fo : Buf (Elt F) ((V d (cV L) (jV L)).loc cc0_scratch2))
    (h : ∀ (j : Fin 200) (y : Fin 128), y.val < 32 * (k.val % 4) →
      fo (ix2 (n0 := 200) (n1 := 128) j y) = outT m d (ix2 (n0 := 200) (n1 := 16384) j ⟨512 * (widL L).val + 128 * (k.val / 4) + y.val, by have := widL_lt L; have := k_lt k; omega⟩)) :
    OutOK m d L k 0 fo := by
  intro j y hy
  rcases hy with hy | ⟨_, hj⟩
  · exact h j y hy
  · omega

theorem OutOK_hundred (k : Fin k0_t1_loop.trips) (fo : Buf (Elt F) ((V d (cV L) (jV L)).loc cc0_scratch2))
    (h : OutOK m d L k 100 fo) : ∀ (j : Fin 200) (y : Fin 128), y.val < 32 * (k.val % 4) + 32 →
      fo (ix2 (n0 := 200) (n1 := 128) j y) = outT m d (ix2 (n0 := 200) (n1 := 16384) j ⟨512 * (widL L).val + 128 * (k.val / 4) + y.val, by have := widL_lt L; have := k_lt k; omega⟩) := by
  intro j y hy
  exact h j y (Or.inr ⟨hy, by have := j.isLt; omega⟩)

end Tile

end Cert.Proof.KI

end
-- ==== Proof.Inner.lean ====
/-
  The inner loop of one outer trip: 100 trips, each gathering four vectors of sixteen lanes from the slot in hand at
  the columns the index scratch names and storing them in the out scratch at rows 2 t, 2 t + 1. The slot and the index
  scratch are only read; the out scratch gains two rows of the 32 columns in hand per trip (OutOK at t to OutOK at t + 1).
-/
import proofs.«207812_g85461259256412_cont_9to1c4b_20_21_alg».proof.Proof.Values

noncomputable section

namespace Cert.Proof.KI

open Cert.KernelIdeal Cert.KernelIdeal.Gen Cert.KernelIdeal.GenP

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable [FloatOps F]

section Tile
variable (d : Dev nD) (L : grid0.Coords)

/-- Before inner trip `t` of outer trip `k`: the slot in hand at `fr`, the index scratch at `fi`, the out scratch at
    contents with rows below 2 t of the columns in hand done. -/
def invIn (k : Fin k0_t1_loop.trips) (fr : Buf (Elt F) ((V d (cV L) (jV L)).loc cc0_scratch0))
    (fi : Buf (Elt F) ((V d (cV L) (jV L)).loc cc0_scratch1)) (t : Nat) (_ : Unit) : sProp 𝕄 :=
  iprop(((slotAt (k0_off10 k) (k0_off10_inb k)).view.loc (V d (cV L) (jV L)) ↦[(slotAt (k0_off10 k) (k0_off10_inb k)).view.set]{fullShare} fr)
    ∗ (sI.view.loc (V d (cV L) (jV L)) ↦{fullShare} fi)
    ∗ ∃ fo, (sO.view.loc (V d (cV L) (jV L)) ↦{fullShare} fo) ∗ ⌜OutOK m d L k t fo⌝)

set_option maxHeartbeats 4000000 in
/-- One inner trip. -/
theorem inner_step (hpre : PreOK m) (k : Fin k0_t1_loop.trips) (v22 : BitVec 32)
    (fr : Buf (Elt F) ((V d (cV L) (jV L)).loc cc0_scratch0)) (fi : Buf (Elt F) ((V d (cV L) (jV L)).loc cc0_scratch1))
    (hfr : SlotOK m d L k fr) (hfi : IdxOK m d L k fi) (t : Fin k0_t2_loop.trips) (u : Unit) :
    invIn m d L k fr fi t.val u
      ⊢ wp frame (wpE (defs₀ (F := F)) 𝒱₀ (V d (cV L) (jV L)) none) Set.univ
          (k0_t2_body L aV (Memref.isWhole_whole _) tV (Memref.isWhole_whole _) oV (Memref.isWhole_whole _)
            sR (Memref.isWhole_whole _) sI (Memref.isWhole_whole _) sO (Memref.isWhole_whole _) cc0_scratch3 cc0_scoped0 cc0_scoped1 k v22 t u)
          (invIn m d L k fr fi (t.val + 1)) := by
  have hlt : ∀ i, (fi i).toNat < 1000 := idx_lt_of_IdxOK m d L hpre k fi hfi
  unfold invIn k0_t2_body
  iintro ⟨Hr, Hi, %fo, Hso, %hfo⟩
  sl_exec (disch := first | exact chk_gen _ _ pay1_lt (fun x => hlt _) | exact chk_gen _ _ pay2_lt (fun x => hlt _))
  rw [SparseCore.vectorLoadIdx_bind (V d (cV L) (jV L))]
  sl_exec
  ihave Hr := (Entails.of_eq (pts_slot_respell (F := F) d L ((k0_off10_eq k).trans (k0_off11_eq k).symm) (k0_off10_inb k) (k0_off11_inb k) fullShare _)) $$ Hr
  rw [SparseCore.vectorLoadIdx_bind (V d (cV L) (jV L))]
  sl_exec
  ihave Hr := (Entails.of_eq (pts_slot_respell (F := F) d L ((k0_off11_eq k).trans (k0_off12_eq k).symm) (k0_off11_inb k) (k0_off12_inb k) fullShare _)) $$ Hr
  rw [SparseCore.vectorLoadIdx_bind (V d (cV L) (jV L))]
  sl_exec
  ihave Hr := (Entails.of_eq (pts_slot_respell (F := F) d L ((k0_off12_eq k).trans (k0_off13_eq k).symm) (k0_off12_inb k) (k0_off13_inb k) fullShare _)) $$ Hr
  rw [SparseCore.vectorLoadIdx_bind (V d (cV L) (jV L))]
  sl_exec
  ihave Hr := (Entails.of_eq (pts_slot_respell (F := F) d L ((k0_off13_eq k).trans (k0_off10_eq k).symm) (k0_off13_inb k) (k0_off10_inb k) fullShare _)) $$ Hr
  rw [wp_ret]; imodintro
  isplitl [Hr]; · iexact Hr
  isplitl [Hi]; · iexact Hi
  iexists _
  isplitl [Hso]; · iexact Hso
  ipureintro
  refine out_step m d L k t fo _ _ _ _ hfo (fun r₁ r₂ l => ?_)
  match r₁, r₂ with
  | 0, 0 => exact piece_val m d L hpre k t 0 0 _ (k0_off10_eq k) _ _ (fun x => pay1_val x) fr fi hfr hfi _ l
  | 0, 1 => exact piece_val m d L hpre k t 0 1 _ (k0_off11_eq k) _ _ (fun x => pay2_val x) fr fi hfr hfi _ l
  | 1, 0 => exact piece_val m d L hpre k t 1 0 _ (k0_off12_eq k) _ _ (fun x => pay1_val x) fr fi hfr hfi _ l
  | 1, 1 => exact piece_val m d L hpre k t 1 1 _ (k0_off13_eq k) _ _ (fun x => pay2_val x) fr fi hfr hfi _ l

end Tile

end Cert.Proof.KI

end
-- ==== Proof.Lands.lean ====
/-
  What a landed copy leaves, read at an index.

  A block of the table landed in a slot makes the slot hold those 32 rows (SlotOK); a stripe of the transposed index
  array landed in the index scratch makes it hold those 128 columns (IdxOK); the out scratch, full, landed in a stripe
  of the transposed result makes the result equal outT on that stripe and leaves it unchanged elsewhere.
-/
import proofs.«207812_g85461259256412_cont_9to1c4b_20_21_alg».proof.Proof.Values

noncomputable section

namespace Cert.Proof.KI

open Cert.KernelIdeal Cert.KernelIdeal.Gen Cert.KernelIdeal.GenP

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable [FloatOps F]

section Tile
variable (d : Dev nD) (L : grid0.Coords)

/-- Block k of the tile's table rows, landed in slot k % 2. -/
theorem slot_lands (k : Fin k0_t1_loop.trips) (off : Fin 3 → Nat) (hoff : off = ![k.val % 2, 0, 0])
    (hin : ∀ a, off a + S1x32x1000.size a ≤ S2x32x1000.size a)
    (off2 : Fin 2 → Nat) (hoff2 : off2 = ![1024 * (L 1).val + 512 * (L 0).val + 32 * k.val, 0])
    (hin2 : ∀ a, off2 a + S32x1000.size a ≤ S16384x1000.size a)
    (fr : Buf (Elt F) ((V d (cV L) (jV L)).loc cc0_scratch0)) :
    SlotOK m d L k ((slotAt off hin).view.writes (Elt F) fr
      [⟨Rect.whole S32x1000, ReadAs.same.apply (View.read (Elt F) (blkAt off2 hin2).view (m (aLoc d)))⟩]) := by
  subst hoff hoff2
  unfold SlotOK
  intro x c
  have hw : (widL L).val = 2 * (L 1).val + (L 0).val := rfl
  -- the buffer at (k % 2, x, c) is the slot's view read at (x, c)
  refine (slot_read d L ⟨k.val % 2, Nat.mod_lt _ (by decide)⟩ ![k.val % 2, 0, 0] rfl hin _ x c).symm.trans ?_
  rw [View.readAt_apply, LoadRect.idx_whole]
  -- the one write covers the whole slot: the read is the payload at (x, c)
  have hr := View.read_writes_cons_emb (slotAt ![k.val % 2, 0, 0] hin).view fr (Rect.whole S32x1000)
    (ReadAs.same.apply (View.read (Elt F) (blkAt ![1024 * (L 1).val + 512 * (L 0).val + 32 * k.val, 0] hin2).view (m (aLoc d))))
    [] (ix2 (n0 := 32) (n1 := 1000) x c)
  rw [Rect.emb_whole_apply] at hr
  refine hr.trans ?_
  -- the payload is the table read through the window: row offset + x, column c
  show View.read (Elt F) (blkAt ![1024 * (L 1).val + 512 * (L 0).val + 32 * k.val, 0] hin2).view (m (aLoc d))
    (ix2 (n0 := 32) (n1 := 1000) x c) = _
  rw [View.read_apply]
  have e : (blkAt ![1024 * (L 1).val + 512 * (L 0).val + 32 * k.val, 0] hin2).view.emb (ix2 (n0 := 32) (n1 := 1000) x c)
      = ix2 (n0 := 16384) (n1 := 1000) ⟨512 * (widL L).val + 32 * k.val + x.val, by have := widL_lt L; have := k_lt k; omega⟩ c := by
    show (Rect.unit (s := S16384x1000) ![1024 * (L 1).val + 512 * (L 0).val + 32 * k.val, 0] S32x1000.size hin2).emb
      (ix2 (n0 := 32) (n1 := 1000) x c) = _
    funext a
    match a with
    | ⟨0, _⟩ => exact Fin.ext (by
        show 1024 * (L 1).val + 512 * (L 0).val + 32 * k.val + 1 * x.val = 512 * (widL L).val + 32 * k.val + x.val
        rw [hw]; omega)
    | ⟨1, _⟩ => exact Fin.ext (by show 0 + 1 * c.val = c.val; omega)
  rw [e]
  rfl

/-- Stripe k / 4 of the tile's columns of the transposed index array, landed in the index scratch. -/
theorem idx_lands (k : Fin k0_t1_loop.trips) (off : Fin 2 → Nat) (hoff : off = ![0, 1024 * (L 1).val + 512 * (L 0).val + 128 * (k.val / 4)])
    (hin : ∀ a, off a + S200x128.size a ≤ S200x16384.size a)
    (fi : Buf (Elt F) ((V d (cV L) (jV L)).loc cc0_scratch1)) :
    IdxOK m d L k (View.write (Elt F) sI.view fi
      (ReadAs.same.apply (View.read (Elt F) (tV.slice (Rect.unit (s := S200x16384) off S200x128.size hin) (fun _ => rfl)).view (idxT m d))) Finset.univ) := by
  subst hoff
  unfold IdxOK
  intro j y
  have hw : (widL L).val = 2 * (L 1).val + (L 0).val := rfl
  -- an unmasked write through the whole buffer replaces its contents by the payload
  have hwr : View.write (Elt F) sI.view fi
      (ReadAs.same.apply (View.read (Elt F) (tV.slice (Rect.unit (s := S200x16384) ![0, 1024 * (L 1).val + 512 * (L 0).val + 128 * (k.val / 4)] S200x128.size hin) (fun _ => rfl)).view (idxT m d)))
      Finset.univ
      = ReadAs.same.apply (View.read (Elt F) (tV.slice (Rect.unit (s := S200x16384) ![0, 1024 * (L 1).val + 512 * (L 0).val + 128 * (k.val / 4)] S200x128.size hin) (fun _ => rfl)).view (idxT m d)) :=
    View.write_whole_univ _ _ _
  refine (congrFun hwr (ix2 (n0 := 200) (n1 := 128) j y)).trans ?_
  -- the payload is the transposed index array read through the window: row j, column offset + y
  show View.read (Elt F) (tV.slice (Rect.unit (s := S200x16384) ![0, 1024 * (L 1).val + 512 * (L 0).val + 128 * (k.val / 4)] S200x128.size hin) (fun _ => rfl)).view (idxT m d)
    (ix2 (n0 := 200) (n1 := 128) j y) = _
  rw [View.read_apply]
  have e : (tV.slice (Rect.unit (s := S200x16384) ![0, 1024 * (L 1).val + 512 * (L 0).val + 128 * (k.val / 4)] S200x128.size hin) (fun _ => rfl)).view.emb
        (ix2 (n0 := 200) (n1 := 128) j y)
      = ix2 (n0 := 200) (n1 := 16384) j ⟨512 * (widL L).val + 128 * (k.val / 4) + y.val, by have := widL_lt L; have := k_lt k; omega⟩ := by
    show (Rect.unit (s := S200x16384) ![0, 1024 * (L 1).val + 512 * (L 0).val + 128 * (k.val / 4)] S200x128.size hin).emb
      (ix2 (n0 := 200) (n1 := 128) j y) = _
    funext a
    match a with
    | ⟨0, _⟩ => exact Fin.ext (by show 0 + 1 * j.val = j.val; omega)
    | ⟨1, _⟩ => exact Fin.ext (by
        show 1024 * (L 1).val + 512 * (L 0).val + 128 * (k.val / 4) + 1 * y.val = 512 * (widL L).val + 128 * (k.val / 4) + y.val
        rw [hw]; omega)
  rw [e]
  rfl

end Tile

end Cert.Proof.KI

end
-- ==== Proof.LandsOut.lean ====
/-
  What the result copy leaves, read at an index: the out scratch, full, landed in a stripe of the transposed result
  makes the result equal outT on that stripe and leaves it unchanged elsewhere.
-/
import proofs.«207812_g85461259256412_cont_9to1c4b_20_21_alg».proof.Proof.Values

noncomputable section

namespace Cert.Proof.KI

open Cert.KernelIdeal Cert.KernelIdeal.Gen Cert.KernelIdeal.GenP

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable [FloatOps F]

section Tile
variable (d : Dev nD) (L : grid0.Coords)

/-- The tile's number from its grid coordinates. -/
theorem widL_val : (widL L).val = 2 * (L 1).val + (L 0).val := rfl

/-- The window of 200 rows and 128 columns at column 512 w + 128 (k / 4) is stripe k / 4 of the tile's four. -/
theorem winRect_eq (k : Fin k0_t1_loop.trips) (off : Fin 2 → Nat) (hoff : off = ![0, 1024 * (L 1).val + 512 * (L 0).val + 128 * (k.val / 4)])
    (hin : ∀ a, off a + S200x128.size a ≤ S200x16384.size a) :
    Rect.unit (s := S200x16384) off S200x128.size hin = tStr (strOf (widL L) (strIx k)) := by
  subst hoff
  unfold tStr Rect.part Rect.block
  congr 1 <;> funext a
  · match a with
    | 0 => simp [Shape.partIx, Shape.partSize]
    | 1 => exact (strOf_val L k).symm
  · match a with
    | 0 => simp [Shape.partSize]
    | 1 => simp [Shape.partSize]

/-- A whole write through a window of the transposed result, read under the window: the payload. -/
theorem window_write_emb (off : Fin 2 → Nat) (hin : ∀ a, off a + S200x128.size a ≤ S200x16384.size a) (g : Buf (Elt F) (oLoc d))
    (w : (Rect.whole (Rect.unit (s := S200x16384) off S200x128.size hin).shape).shape.Idx → Elt F .f32)
    (x : (Rect.unit (s := S200x16384) off S200x128.size hin).shape.Idx) :
    (oV.slice (Rect.unit (s := S200x16384) off S200x128.size hin) (fun _ => rfl)).view.writes (Elt F) g
        [⟨Rect.whole (Rect.unit (s := S200x16384) off S200x128.size hin).shape, w⟩]
        ((Rect.unit (s := S200x16384) off S200x128.size hin).emb x) = w x := by
  have hw := View.read_writes_cons_emb (oV.slice (Rect.unit (s := S200x16384) off S200x128.size hin) (fun _ => rfl)).view g
    (Rect.whole (Rect.unit (s := S200x16384) off S200x128.size hin).shape) w [] x
  rw [Rect.emb_whole_apply, View.read_apply] at hw
  exact hw

/-- Off the window the write changes nothing. -/
theorem window_write_off (off : Fin 2 → Nat) (hin : ∀ a, off a + S200x128.size a ≤ S200x16384.size a) (g : Buf (Elt F) (oLoc d))
    (w : (Rect.whole (Rect.unit (s := S200x16384) off S200x128.size hin).shape).shape.Idx → Elt F .f32)
    (i : S200x16384.Idx) (hi : i ∉ (Rect.unit (s := S200x16384) off S200x128.size hin).set) :
    (oV.slice (Rect.unit (s := S200x16384) off S200x128.size hin) (fun _ => rfl)).view.writes (Elt F) g
        [⟨Rect.whole (Rect.unit (s := S200x16384) off S200x128.size hin).shape, w⟩] i = g i := by
  show (((oV.slice (Rect.unit (s := S200x16384) off S200x128.size hin) (fun _ => rfl)).view.slice
    (Rect.whole (Rect.unit (s := S200x16384) off S200x128.size hin).shape)).write (Elt F) g w Finset.univ) i = g i
  refine View.write_of_not_mem _ _ _ ?_
  rw [View.setOn_univ, View.set_slice, Rect.set_whole]
  show i ∉ (oV.slice (Rect.unit (s := S200x16384) off S200x128.size hin) (fun _ => rfl)).view.set
  rw [set_oSlice]
  exact hi

/-- The out scratch holding the transposed result at all 128 columns of stripe k / 4, landed in that stripe: the
    result is outT on the stripe, unchanged off it. -/
theorem out_lands (k : Fin k0_t1_loop.trips) (off : Fin 2 → Nat) (hoff : off = ![0, 1024 * (L 1).val + 512 * (L 0).val + 128 * (k.val / 4)])
    (hin : ∀ a, off a + S200x128.size a ≤ S200x16384.size a)
    (fo : Buf (Elt F) ((V d (cV L) (jV L)).loc cc0_scratch2)) (g : Buf (Elt F) (oLoc d))
    (hfo : ∀ (j : Fin 200) (y : Fin 128), fo (ix2 (n0 := 200) (n1 := 128) j y)
      = outT m d (ix2 (n0 := 200) (n1 := 16384) j ⟨512 * (widL L).val + 128 * (k.val / 4) + y.val, by have := widL_lt L; have := k_lt k; omega⟩)) :
    (∀ i ∈ (tStr (strOf (widL L) (strIx k))).set,
        (oV.slice (Rect.unit (s := S200x16384) off S200x128.size hin) (fun _ => rfl)).view.writes (Elt F) g
          [⟨Rect.whole (Rect.unit (s := S200x16384) off S200x128.size hin).shape, ReadAs.same.apply (View.read (Elt F) sO.view fo)⟩] i = outT m d i)
    ∧ (∀ i ∉ (tStr (strOf (widL L) (strIx k))).set,
        (oV.slice (Rect.unit (s := S200x16384) off S200x128.size hin) (fun _ => rfl)).view.writes (Elt F) g
          [⟨Rect.whole (Rect.unit (s := S200x16384) off S200x128.size hin).shape, ReadAs.same.apply (View.read (Elt F) sO.view fo)⟩] i = g i) := by
  rw [← winRect_eq L k off hoff hin]
  subst hoff
  constructor
  · intro i hi
    obtain ⟨x, rfl⟩ : ∃ x, (Rect.unit (s := S200x16384) ![0, 1024 * (L 1).val + 512 * (L 0).val + 128 * (k.val / 4)] S200x128.size hin).emb x = i :=
      (Rect.unit (s := S200x16384) ![0, 1024 * (L 1).val + 512 * (L 0).val + 128 * (k.val / 4)] S200x128.size hin).exists_idx_of_mem hi
    obtain ⟨j, y, rfl⟩ : ∃ (j : Fin 200) (y : Fin 128), x = ix2 (n0 := 200) (n1 := 128) j y := ⟨x 0, x 1, eq_ix2 (n0 := 200) (n1 := 128) x⟩
    rw [window_write_emb d]
    show fo (ix2 (n0 := 200) (n1 := 128) j y) = _
    rw [hfo j y]
    refine congrArg (outT m d) ?_
    funext a
    match a with
    | ⟨0, _⟩ => exact Fin.ext (by show j.val = 0 + 1 * j.val; omega)
    | ⟨1, _⟩ => exact Fin.ext (by
        show 512 * (widL L).val + 128 * (k.val / 4) + y.val = 1024 * (L 1).val + 512 * (L 0).val + 128 * (k.val / 4) + 1 * y.val
        rw [widL_val]; omega)
  · intro i hi
    exact window_write_off d _ hin g _ i hi

end Tile

end Cert.Proof.KI

end
-- ==== Proof.Slots.lean ====
/-
  The rows scratch as its two slots, and the tile's four result stripes at one contents function.

  The rows scratch (2 × 32 × 1000) is the disjoint union of slot 0 and slot 1, so holding it whole is holding the two
  slots, and two slots held at any contents are the scratch held at some contents. The tile's four stripes of the
  transposed result, each held at some contents, are the four held at ONE function of the whole array (the stripes are
  disjoint); and four stripes at a function that equals outT on each of them are the four at outT.
-/
import proofs.«207812_g85461259256412_cont_9to1c4b_20_21_alg».proof.Proof.Values

noncomputable section

namespace Cert.Proof.KI

open Cert.KernelIdeal Cert.KernelIdeal.Gen Cert.KernelIdeal.GenP

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable [FloatOps F]

section Tile
variable (d : Dev nD) (L : grid0.Coords)

theorem slot0_inb : ∀ a, (![0, 0, 0] : Fin 3 → Nat) a + S1x32x1000.size a ≤ S2x32x1000.size a := by decide
theorem slot1_inb : ∀ a, (![1, 0, 0] : Fin 3 → Nat) a + S1x32x1000.size a ≤ S2x32x1000.size a := by decide

/-- A slot's elements are its rectangle's: the slice of the whole buffer, re-indexed as 32 rows. -/
theorem set_slot (off : Fin 3 → Nat) (h : ∀ a, off a + S1x32x1000.size a ≤ S2x32x1000.size a) :
    (slotAt off h).view.set = (Rect.unit (s := S2x32x1000) off S1x32x1000.size h).set := by
  show (((View.whole (cc0_scratch0 : Ref sig .scVector)).slice (Rect.unit (s := S2x32x1000) off S1x32x1000.size h)).reshape S32x1000 _).set = _
  rw [View.set_reshape, View.set_slice]; exact Finset.map_refl

/-- Slot 0 is the elements whose first coordinate is 0, slot 1 those whose first coordinate is 1: all of slot 0 lies
    below slot 1 on the first axis, and every element is in one of the two. -/
theorem slots_disjoint :
    Disjoint (Rect.unit (s := S2x32x1000) ![0, 0, 0] S1x32x1000.size slot0_inb).set (Rect.unit (s := S2x32x1000) ![1, 0, 0] S1x32x1000.size slot1_inb).set :=
  Rect.unit_disjoint (0 : Fin 3) (.inl (by decide))

theorem slots_cover :
    (Rect.unit (s := S2x32x1000) ![0, 0, 0] S1x32x1000.size slot0_inb).set ∪ (Rect.unit (s := S2x32x1000) ![1, 0, 0] S1x32x1000.size slot1_inb).set
      = Finset.univ := by
  ext i
  simp only [Finset.mem_union, Rect.mem_set_unit, Finset.mem_univ, iff_true]
  have h0 : (i 0).val < 2 := (i 0).isLt
  have h1 : (i 1).val < 32 := (i 1).isLt
  have h2 : (i 2).val < 1000 := (i 2).isLt
  rcases Nat.lt_or_ge (i 0).val 1 with h | h
  · left; intro a
    match a with
    | 0 => exact ⟨Nat.zero_le _, show (i 0).val < 0 + 1 by omega⟩
    | 1 => exact ⟨Nat.zero_le _, show (i 1).val < 0 + 32 by omega⟩
    | 2 => exact ⟨Nat.zero_le _, show (i 2).val < 0 + 1000 by omega⟩
  · right; intro a
    match a with
    | 0 => exact ⟨h, show (i 0).val < 1 + 1 by omega⟩
    | 1 => exact ⟨Nat.zero_le _, show (i 1).val < 0 + 32 by omega⟩
    | 2 => exact ⟨Nat.zero_le _, show (i 2).val < 0 + 1000 by omega⟩

omit [FloatOps F] in
/-- A buffer held on a set of elements that is all of them is held whole. -/
theorem whole_of_cover {ℓ : Loc nD τ sig} {I : Finset (Idx ℓ)} (hI : I = Finset.univ) (g : Buf (Elt F) ℓ) :
    (ℓ ↦[I]{fullShare} g : sProp 𝕄) = ℓ ↦{fullShare} g := by
  subst hI; rfl

omit [FloatOps F] in
/-- Different stripes of one tile are different stripes of the array. -/
theorem strOf_injective (w : Fin 32) : Function.Injective (strOf w) := by
  intro q q' e
  have e' : 4 * w.val + q.val = 4 * w.val + q'.val := congrArg Fin.val e
  exact Fin.ext (by omega)

omit [FloatOps F] in
theorem strs_disjoint (w : Fin 32) : ∀ q ∈ (Finset.univ : Finset (Fin 4)), ∀ q' ∈ (Finset.univ : Finset (Fin 4)), q ≠ q' →
    Disjoint (tStr (strOf w q)).set (tStr (strOf w q')).set :=
  fun _ _ _ _ h => Rect.part_disjoint hdivT fun e => h (strOf_injective w e)

/-- The rows scratch held whole is its two slots held. -/
theorem sR_split (f : Buf (Elt F) ((V d (cV L) (jV L)).loc cc0_scratch0)) :
    ((V d (cV L) (jV L)).loc cc0_scratch0 ↦{fullShare} f : sProp 𝕄)
      = iprop(((slotAt ![0, 0, 0] slot0_inb).view.loc (V d (cV L) (jV L)) ↦[(slotAt ![0, 0, 0] slot0_inb).view.set]{fullShare} f)
          ∗ ((slotAt ![1, 0, 0] slot1_inb).view.loc (V d (cV L) (jV L)) ↦[(slotAt ![1, 0, 0] slot1_inb).view.set]{fullShare} f)) := by
  rw [set_slot, set_slot]
  exact (whole_of_cover slots_cover f).symm.trans (BI.equiv_iff.mp
    ⟨(pointsTo_union (ℓ := (V d (cV L) (jV L)).loc cc0_scratch0) (q := fullShare) (f := f) slots_disjoint).1,
      (pointsTo_union (ℓ := (V d (cV L) (jV L)).loc cc0_scratch0) (q := fullShare) (f := f) slots_disjoint).2⟩)

/-- Two slots held at any contents are the scratch held at some contents. -/
theorem slots_join (f0 f1 : Buf (Elt F) ((V d (cV L) (jV L)).loc cc0_scratch0)) :
    iprop(((slotAt ![0, 0, 0] slot0_inb).view.loc (V d (cV L) (jV L)) ↦[(slotAt ![0, 0, 0] slot0_inb).view.set]{fullShare} f0)
        ∗ ((slotAt ![1, 0, 0] slot1_inb).view.loc (V d (cV L) (jV L)) ↦[(slotAt ![1, 0, 0] slot1_inb).view.set]{fullShare} f1))
      ⊢ (iprop(∃ f, (V d (cV L) (jV L)).loc cc0_scratch0 ↦{fullShare} f) : sProp 𝕄) := by
  rw [set_slot, set_slot]
  refine (pointsTo_join (ℓ := (V d (cV L) (jV L)).loc cc0_scratch0) (q := fullShare) (f := f0) (g := f1) slots_disjoint).trans ?_
  rw [whole_of_cover slots_cover]
  iintro H; iexists _; iexact H

/-- The tile's four result stripes, each at some contents, are the four at one function. -/
theorem oStr_merge (w : Fin 32) :
    (bigSep Finset.univ fun q : Fin 4 => iprop(∃ f, oStrPts (F := F) d (strOf w q) f))
      ⊢ (iprop(∃ g, bigSep Finset.univ fun q : Fin 4 => oStrPts (F := F) d (strOf w q) g) : sProp 𝕄) := by
  refine (bigSep_exists_pi Finset.univ (fun (q : Fin 4) (f : Buf (Elt F) (oLoc d)) => oStrPts d (strOf w q) f)).trans ?_
  iintro ⟨%fs, H⟩
  -- the four contents agree with one function, each on its own stripe; the union of the stripes is held at it
  ihave H' := (pointsTo_biUnion_join Finset.univ (fun q : Fin 4 => (tStr (strOf w q)).set) fs (fs 0) (strs_disjoint w)) $$ H
  icases H' with ⟨%g, -, Hg⟩
  iexists g
  -- and the union held at one function is each stripe held at it
  ihave Hg' := (Entails.of_eq (pointsTo_biUnion (f := g) Finset.univ (fun q : Fin 4 => (tStr (strOf w q)).set) (strs_disjoint w))) $$ Hg
  iexact Hg'

/-- Four stripes at a function that is outT on each of them are the four at outT. -/
theorem oStr_done (w : Fin 32) (g : Buf (Elt F) (oLoc d))
    (h : ∀ q : Fin 4, ∀ i ∈ (tStr (strOf w q)).set, g i = outT m d i) :
    (bigSep Finset.univ fun q : Fin 4 => oStrPts (F := F) d (strOf w q) g : sProp 𝕄)
      = bigSep Finset.univ fun q : Fin 4 => oStrPts (F := F) d (strOf w q) (outT m d) := by
  exact bigSep_congr fun q _ => pointsTo_congr (h q)

/-- A function that differs from another only on one stripe of the tile is the same on the tile's other stripes. -/
theorem oStr_others (w : Fin 32) (q0 : Fin 4) (g g' : Buf (Elt F) (oLoc d)) (h2 : ∀ i ∉ (tStr (strOf w q0)).set, g' i = g i) :
    (bigSep (Finset.univ.erase q0) fun q : Fin 4 => oStrPts (F := F) d (strOf w q) g : sProp 𝕄)
      = bigSep (Finset.univ.erase q0) fun q : Fin 4 => oStrPts (F := F) d (strOf w q) g' := by
  refine bigSep_congr fun q hq => pointsTo_congr fun i hi => ?_
  -- an element of stripe q, q ≠ q0, is not in stripe q0
  have hd := strs_disjoint w q (Finset.mem_univ _) q0 (Finset.mem_univ _) (Finset.mem_erase.mp hq).1
  exact (h2 i (Finset.disjoint_left.mp hd hi)).symm

/-- Writing the stripe of outer trip `k` at outT, the stripes before it already at outT, leaves the stripes up to and
    including it at outT. -/
theorem done_step (k : Fin k0_t1_loop.trips) (g g' : Buf (Elt F) (oLoc d))
    (hg : ∀ q : Fin 4, q.val < k.val / 4 → ∀ i ∈ (tStr (strOf (widL L) q)).set, g i = outT m d i)
    (h1 : ∀ i ∈ (tStr (strOf (widL L) (strIx k))).set, g' i = outT m d i)
    (h2 : ∀ i ∉ (tStr (strOf (widL L) (strIx k))).set, g' i = g i) :
    ∀ q : Fin 4, q.val < k.val / 4 + 1 → ∀ i ∈ (tStr (strOf (widL L) q)).set, g' i = outT m d i := by
  intro q hq i hi
  by_cases e : q = strIx k
  · -- the stripe just written
    subst e; exact h1 i hi
  · -- an earlier stripe: disjoint from the one just written, so untouched
    have hv : (strIx k).val = k.val / 4 := rfl
    have hne : q.val ≠ (strIx k).val := fun h => e (Fin.ext h)
    have hlt : q.val < k.val / 4 := by omega
    have hd := strs_disjoint (widL L) q (Finset.mem_univ _) (strIx k) (Finset.mem_univ _) e
    rw [h2 i (Finset.disjoint_left.mp hd hi)]
    exact hg q hlt i hi

end Tile

end Cert.Proof.KI

end
-- ==== Proof.Body.lean ====
/-
  One tile's task, at a symbolic tile: from its parts of the three arrays and its own scratch it writes its stripes of
  the transposed result, outT there, and hands everything else back unchanged.

  The outer loop runs 16 trips. Before trip k the block k of the tile's table rows is in flight into slot k % 2, the
  other slot is free, the out scratch holds the transposed result at the columns of the stripe finished so far, and the
  stripes 0 .. k / 4 of the result are written. A trip fetches the index stripe (first trip of a stripe), starts block
  k + 1 into the free slot (all but the last trip), waits for block k, runs the inner loop over it, and writes the out
  scratch to the result's stripe (last trip of a stripe).
-/
import proofs.«207812_g85461259256412_cont_9to1c4b_20_21_alg».proof.Proof.Inner
import proofs.«207812_g85461259256412_cont_9to1c4b_20_21_alg».proof.Proof.Lands
import proofs.«207812_g85461259256412_cont_9to1c4b_20_21_alg».proof.Proof.LandsOut
import proofs.«207812_g85461259256412_cont_9to1c4b_20_21_alg».proof.Proof.Slots

noncomputable section

namespace Cert.Proof.KI

open Cert.KernelIdeal Cert.KernelIdeal.Gen Cert.KernelIdeal.GenP

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable [FloatOps F]

section Tile
variable (d : Dev nD) (L : grid0.Coords)

/-! ## The facts the outer loop carries -/

/-- The out scratch holds the transposed result at the columns of the stripe finished before outer trip k. -/
def PrevOK (k : Fin k0_t1_loop.trips) (fo : Buf (Elt F) ((V d (cV L) (jV L)).loc cc0_scratch2)) : Prop :=
  ∀ (j : Fin 200) (y : Fin 128), y.val < 32 * (k.val % 4) →
    fo (ix2 (n0 := 200) (n1 := 128) j y) = outT m d (ix2 (n0 := 200) (n1 := 16384) j ⟨512 * (widL L).val + 128 * (k.val / 4) + y.val, by have := widL_lt L; have := k_lt k; omega⟩)

/-- The tile's first n stripes of the transposed result are written. -/
def DoneOK (n : Nat) (g : Buf (Elt F) (oLoc d)) : Prop :=
  ∀ q : Fin 4, q.val < n → ∀ i ∈ (tStr (strOf (widL L) q)).set, g i = outT m d i

omit [FloatOps F] in
theorem IdxOK_congr {k k' : Fin k0_t1_loop.trips} (h : k.val / 4 = k'.val / 4) {fi : Buf (Elt F) ((V d (cV L) (jV L)).loc cc0_scratch1)}
    (hfi : IdxOK m d L k fi) : IdxOK m d L k' fi := by
  intro j y
  have := hfi j y
  simp only [h] at this
  exact this

omit [FloatOps F] in
theorem PrevOK_of_zero {k : Fin k0_t1_loop.trips} (h : k.val % 4 = 0) (fo : Buf (Elt F) ((V d (cV L) (jV L)).loc cc0_scratch2)) :
    PrevOK m d L k fo := by
  intro j y hy; rw [h] at hy; omega

theorem PrevOK_next {k k' : Fin k0_t1_loop.trips} (hk : k'.val = k.val + 1) (hr : k.val % 4 < 3)
    {fo : Buf (Elt F) ((V d (cV L) (jV L)).loc cc0_scratch2)} (h : OutOK m d L k 100 fo) : PrevOK m d L k' fo := by
  intro j y hy
  have h4 : k'.val / 4 = k.val / 4 := by omega
  have h5 : k'.val % 4 = k.val % 4 + 1 := by omega
  have := OutOK_hundred m d L k fo h j y (by omega)
  simp only [h4]
  exact this

/-! ## The other slot and its semaphore, spelt by parity -/

theorem oth_inb (k : Fin k0_t1_loop.trips) : ∀ a, (![1 - k.val % 2, 0, 0] : Fin 3 → Nat) a + S1x32x1000.size a ≤ S2x32x1000.size a := by
  intro a
  match a with
  | ⟨0, _⟩ => show 1 - k.val % 2 + 1 ≤ 2; omega
  | ⟨1, _⟩ => show 0 + 32 ≤ 32; omega
  | ⟨2, _⟩ => show 0 + 1000 ≤ 1000; omega
theorem oth1_inb (k : Fin k0_t1_loop.trips) : ∀ a, (![1 - k.val % 2] : Fin 1 → Nat) a + S1.size a ≤ S2.size a := by
  intro a
  match a with
  | ⟨0, _⟩ => show 1 - k.val % 2 + 1 ≤ 2; omega

theorem semVal_respell {off off' : Fin 1 → Nat} (e : off = off') (h : ∀ a, off a + S1.size a ≤ S2.size a) (h' : ∀ a, off' a + S1.size a ≤ S2.size a) :
    (semVal (V d (cV L) (jV L), SemLoc.dma (semAt off h)) 0 : sProp 𝕄) = semVal (V d (cV L) (jV L), SemLoc.dma (semAt off' h')) 0 := by
  subst e; rfl

/-- A block's flight into a slot does not depend on how the three offsets are spelt. -/
theorem flight_respell {o1 o1' : Fin 1 → Nat} (e1 : o1 = o1') (h1 : ∀ a, o1 a + S1.size a ≤ S2.size a) (h1' : ∀ a, o1' a + S1.size a ≤ S2.size a)
    {o3 o3' : Fin 3 → Nat} (e3 : o3 = o3') (h3 : ∀ a, o3 a + S1x32x1000.size a ≤ S2x32x1000.size a) (h3' : ∀ a, o3' a + S1x32x1000.size a ≤ S2x32x1000.size a)
    {o2 o2' : Fin 2 → Nat} (e2 : o2 = o2') (h2 : ∀ a, o2 a + S32x1000.size a ≤ S16384x1000.size a) (h2' : ∀ a, o2' a + S32x1000.size a ≤ S16384x1000.size a)
    (f : Buf (Elt F) ((V d (cV L) (jV L)).loc cc0_scratch0)) (f2 : Buf (Elt F) (aLoc d)) :
    (Transfers.Flight countersEmb (V d (cV L) (jV L)) (SemLoc.dma (semAt o1 h1)) (default : HIx 1) 1024000
        iprop(((slotAt o3 h3).view.loc (V d (cV L) (jV L)) ↦[(slotAt o3 h3).view.set]{fullShare} f)
          ∗ ((blkAt o2 h2).view.loc (V d (cV L) (jV L)) ↦[(blkAt o2 h2).view.set]{fullShare} f2)) : sProp 𝕄)
      = Transfers.Flight countersEmb (V d (cV L) (jV L)) (SemLoc.dma (semAt o1' h1')) (default : HIx 1) 1024000
        iprop(((slotAt o3' h3').view.loc (V d (cV L) (jV L)) ↦[(slotAt o3' h3').view.set]{fullShare} f)
          ∗ ((blkAt o2' h2').view.loc (V d (cV L) (jV L)) ↦[(blkAt o2' h2').view.set]{fullShare} f2)) := by
  subst e1 e3 e2; rfl

/-! ## The outer loop's invariant -/

/-- Before outer trip `k`. -/
def invMid (O : CellTallies nD τ sig (HIx 1)) (W : Waits sig (HIx 1)) (k : Fin k0_t1_loop.trips) : sProp 𝕄 :=
  iprop(Transfers.MayWaits (V d (cV L) (jV L)) (none : HIx 1) O
    ∗ (bigSep (Finset.univ.erase (Fin.cast trips1 k)) fun g : Fin 16 => aBlkPts m d (blkOf (widL L) g))
    ∗ (bigSep Finset.univ fun q : Fin 4 => tStrPts m d (strOf (widL L) q))
    ∗ (∃ g, (bigSep Finset.univ fun q : Fin 4 => oStrPts d (strOf (widL L) q) g) ∗ ⌜DoneOK m d L (k.val / 4) g⌝)
    ∗ (∃ frL, Transfers.Flight countersEmb (V d (cV L) (jV L)) (SemLoc.dma (semAt (k0_off8 k) (k0_off8_inb k))) (default : HIx 1) 1024000
          iprop(((slotAt (k0_off6 k) (k0_off6_inb k)).view.loc (V d (cV L) (jV L)) ↦[(slotAt (k0_off6 k) (k0_off6_inb k)).view.set]{fullShare} frL)
            ∗ ((blkAt (k0_off7 L k) (k0_off7_inb L k)).view.loc (V d (cV L) (jV L)) ↦[(blkAt (k0_off7 L k) (k0_off7_inb L k)).view.set]{fullShare} m (aLoc d)))
        ∗ ⌜SlotOK m d L k frL⌝)
    ∗ (∃ fr, (slotAt ![1 - k.val % 2, 0, 0] (oth_inb k)).view.loc (V d (cV L) (jV L)) ↦[(slotAt ![1 - k.val % 2, 0, 0] (oth_inb k)).view.set]{fullShare} fr)
    ∗ semVal (V d (cV L) (jV L), SemLoc.dma (semAt ![1 - k.val % 2] (oth1_inb k))) 0
    ∗ (∃ fi, (sI.view.loc (V d (cV L) (jV L)) ↦{fullShare} fi) ∗ ⌜k.val % 4 ≠ 0 → IdxOK m d L k fi⌝)
    ∗ (∃ fo, (sO.view.loc (V d (cV L) (jV L)) ↦{fullShare} fo) ∗ ⌜PrevOK m d L k fo⌝)
    ∗ semVal (cellI d L) 0 ∗ semVal (cellO d L) 0
    ∗ ∃ W', ⌜∀ p ∈ W', p ∈ W ∨ p.2 = none⌝ ∗ owes (V d (cV L) (jV L)) O W')

/-- After the last trip. -/
def invEnd (O : CellTallies nD τ sig (HIx 1)) (W : Waits sig (HIx 1)) : sProp 𝕄 :=
  iprop((bigSep Finset.univ fun g : Fin 16 => aBlkPts m d (blkOf (widL L) g))
    ∗ (bigSep Finset.univ fun q : Fin 4 => tStrPts m d (strOf (widL L) q))
    ∗ (∃ g, (bigSep Finset.univ fun q : Fin 4 => oStrPts d (strOf (widL L) q) g) ∗ ⌜DoneOK m d L 4 g⌝)
    ∗ (∃ f0, (slotAt ![0, 0, 0] slot0_inb).view.loc (V d (cV L) (jV L)) ↦[(slotAt ![0, 0, 0] slot0_inb).view.set]{fullShare} f0)
    ∗ (∃ f1, (slotAt ![1, 0, 0] slot1_inb).view.loc (V d (cV L) (jV L)) ↦[(slotAt ![1, 0, 0] slot1_inb).view.set]{fullShare} f1)
    ∗ semVal (cellA d L 0) 0 ∗ semVal (cellA d L 1) 0
    ∗ (∃ fi, sI.view.loc (V d (cV L) (jV L)) ↦{fullShare} fi)
    ∗ (∃ fo, sO.view.loc (V d (cV L) (jV L)) ↦{fullShare} fo)
    ∗ semVal (cellI d L) 0 ∗ semVal (cellO d L) 0
    ∗ ∃ W', ⌜∀ p ∈ W', p ∈ W ∨ p.2 = none⌝ ∗ owes (V d (cV L) (jV L)) O W')

def invOut (O : CellTallies nD τ sig (HIx 1)) (W : Waits sig (HIx 1)) (k : Nat) (_ : Unit) : sProp 𝕄 :=
  if h : k < 16 then invMid m d L O W ⟨k, h.trans_eq trips1.symm⟩ else invEnd m d L O W

theorem invOut_lt (O : CellTallies nD τ sig (HIx 1)) (W : Waits sig (HIx 1)) (k : Nat) (h : k < 16) (u : Unit) :
    invOut m d L O W k u = invMid m d L O W ⟨k, h.trans_eq trips1.symm⟩ := dif_pos h
theorem invOut_end (O : CellTallies nD τ sig (HIx 1)) (W : Waits sig (HIx 1)) (u : Unit) :
    invOut m d L O W 16 u = invEnd m d L O W := dif_neg (by decide)

theorem vec1_congr {a b : Nat} (h : a = b) : (![a] : Fin 1 → Nat) = ![b] := by rw [h]
theorem vec2_congr {a b : Nat} (h : a = b) : (![a, 0] : Fin 2 → Nat) = ![b, 0] := by rw [h]
theorem vec2'_congr {a b : Nat} (h : a = b) : (![0, a] : Fin 2 → Nat) = ![0, b] := by rw [h]
theorem vec3_congr {a b : Nat} (h : a = b) : (![a, 0, 0] : Fin 3 → Nat) = ![b, 0, 0] := by rw [h]

omit [FloatOps F] in
/-- Taking block k' out of "all but block k" and putting block k back leaves "all but block k'". -/
theorem blocks_swap {k k' : Fin 16} (h : k ≠ k') (Φ : Fin 16 → sProp 𝕄) :
    bigSep (Finset.univ.erase k') Φ = iprop(Φ k ∗ bigSep ((Finset.univ.erase k).erase k') Φ) := by
  rw [SparseCore.bigSep_erase' (Finset.mem_erase.mpr ⟨h, Finset.mem_univ k⟩), Finset.erase_right_comm]

theorem W_insert {W W' : Waits sig (HIx 1)} (hW' : ∀ p ∈ W', p ∈ W ∨ p.2 = none) (sm : SemLoc sig) :
    ∀ p ∈ insert (sm, (default : HIx 1)) W', p ∈ W ∨ p.2 = none := by
  intro p hp
  rcases Finset.mem_insert.mp hp with hp | hp
  · exact .inr (hp ▸ rfl)
  · exact hW' p hp

/-- The index scratch after the index stripe of outer trip k has landed in it. -/
abbrev idxLanded (k : Fin k0_t1_loop.trips) (h : k0_cond1 k = 1#1) (fi : Buf (Elt F) ((V d (cV L) (jV L)).loc cc0_scratch1)) :
    Buf (Elt F) ((V d (cV L) (jV L)).loc cc0_scratch1) :=
  View.write (Elt F) sI.view fi (ReadAs.same.apply (View.read (Elt F) (tV.slice (strRectI L k h) (fun _ => rfl)).view (idxT m d))) Finset.univ

/-- The transposed result after the out scratch of outer trip k has landed in its stripe. -/
abbrev outLanded (k : Fin k0_t1_loop.trips) (h : k0_cond3 k = 1#1) (g : Buf (Elt F) (oLoc d)) (fo : Buf (Elt F) ((V d (cV L) (jV L)).loc cc0_scratch2)) :
    Buf (Elt F) (oLoc d) :=
  (oV.slice (strRectO L k h) (fun _ => rfl)).view.writes (Elt F) g [⟨Rect.whole (strRectO L k h).shape, ReadAs.same.apply (View.read (Elt F) sO.view fo)⟩]

set_option maxHeartbeats 8000000 in
/-- The first trip of a stripe: the index stripe is fetched first. -/
theorem outer_step_first (hpre : PreOK m) (O : CellTallies nD τ sig (HIx 1)) (W : Waits sig (HIx 1)) (v2 : BitVec 32)
    (k k' : Fin k0_t1_loop.trips) (hk : k'.val = k.val + 1) (hr : k.val % 4 = 0) (u : Unit) :
    invMid m d L O W k
      ⊢ wp frame (wpE (defs₀ (F := F)) 𝒱₀ (V d (cV L) (jV L)) none) Set.univ
          (k0_t1_body L aV (Memref.isWhole_whole _) tV (Memref.isWhole_whole _) oV (Memref.isWhole_whole _)
            sR (Memref.isWhole_whole _) sI (Memref.isWhole_whole _) sO (Memref.isWhole_whole _) cc0_scratch3 cc0_scoped0 cc0_scoped1 v2 k u)
          (fun _ => invMid m d L O W k') := by
  have hk16 : k'.val < 16 := k_lt k'
  have hc1 : k0_cond1 k = 1#1 := (cond1_iff k).mpr hr
  have hc2 : k0_cond2 k = 1#1 := (cond2_iff k).mpr (by omega)
  have hc3 : ¬ k0_cond3 k = 1#1 := fun h => by have := (cond3_iff k).mp h; omega
  have h4 : k'.val / 4 = k.val / 4 := by omega
  have hne : Fin.cast trips1 k ≠ Fin.cast trips1 k' := fun e => by have := congrArg Fin.val e; simp only [Fin.coe_cast] at this; omega
  have e7 : k0_off7 L k' = k0_off4 L k := by rw [k0_off7_eq, k0_off4_eq, hk]; exact vec2_congr (by omega)
  have e6 : k0_off3 k = k0_off6 k' := by rw [k0_off3_eq, k0_off6_eq, hk]; exact vec3_congr (by omega)
  have e8 : k0_off5 k = k0_off8 k' := by rw [k0_off5_eq, k0_off8_eq, hk]; exact vec1_congr (by omega)
  unfold invMid k0_t1_body
  iintro ⟨#Hmw, Hblks, Ht, ⟨%g, Ho, %hg⟩, ⟨%frL, Hfl, %hfrL⟩, ⟨%fr, Hoth⟩, Hsem, ⟨%fi, Hi, -⟩, ⟨%fo, Hso, %hfo⟩, HsI, HsO, ⟨%W', %hW', HO⟩⟩
  ihave Hb := (Entails.of_eq (SparseCore.bigSep_erase' (Finset.mem_erase.mpr ⟨hne.symm, Finset.mem_univ _⟩))) $$ Hblks
  icases Hb with ⟨Hnext, Hblks⟩
  ihave Hnext := (Entails.of_eq ((pts_blk (F := F) d L k' _).symm.trans (pts_blk_respell (F := F) d L e7 (k0_off7_inb L k') (k0_off4_inb L k hc2) fullShare _))) $$ Hnext
  ihave Hoth := (Entails.of_eq (pts_slot_respell (F := F) d L (k0_off3_eq k).symm (oth_inb k) (k0_off3_inb k hc2) fullShare _)) $$ Hoth
  ihave Hsem := (Entails.of_eq (semVal_respell (F := F) d L (k0_off5_eq k).symm (oth1_inb k) (k0_off5_inb k hc2))) $$ Hsem
  have hfi' : IdxOK m d L k (idxLanded m d L k hc1 fi) := idx_lands m d L k (k0_off2 L k) (k0_off2_eq L k) (k0_off2_inb L k hc1) fi
  ihave Ht' := (Entails.of_eq (SparseCore.bigSep_erase' (Finset.mem_univ (strIx k)))) $$ Ht
  icases Ht' with ⟨Hstr, Ht⟩
  ihave Hstr := (Entails.of_eq (pts_strI (F := F) d L k hc1 _).symm) $$ Hstr
  sl_exec
  ihave Hfl_dst := (Entails.of_eq (pts_slot_respell (F := F) d L ((k0_off6_eq k).trans (k0_off10_eq k).symm) (k0_off6_inb k) (k0_off10_inb k) fullShare _)) $$ Hfl_dst
  sl_for (invIn m d L k frL (idxLanded m d L k hc1 fi)) $$ [Hfl_dst Hi Hso]
  case region =>
    intro t u'
    exact inner_step m d L hpre k _ frL _ hfrL hfi' t u'
  · unfold invIn
    isplitl [Hfl_dst]; · iexact Hfl_dst
    isplitl [Hi]; · iexact Hi
    iexists fo
    isplitl [Hso]; · iexact Hso
    ipureintro; exact OutOK_zero_of_prev m d L k fo hfo
  iintro %u' HI
  unfold invIn
  icases HI with ⟨Hslot, Hi, %fo', Hso, %hfo'⟩
  sl_exec
  rw [wp_ret]; imodintro
  isplitr; · iexact Hmw
  isplitl [Hblks Hfl_src]
  · ihave Hsrc := (Entails.of_eq (pts_blk (F := F) d L k _)) $$ Hfl_src
    iapply (Entails.of_eq (blocks_swap (F := F) hne (fun g : Fin 16 => aBlkPts m d (blkOf (widL L) g))).symm)
    isplitl [Hsrc]; · iexact Hsrc
    iexact Hblks
  isplitl [Ht Hstr]
  · ihave Hstr := (Entails.of_eq (pts_strI (F := F) d L k hc1 _)) $$ Hstr
    iapply (Entails.of_eq (SparseCore.bigSep_erase' (Finset.mem_univ (strIx k))).symm)
    isplitl [Hstr]; · iexact Hstr
    iexact Ht
  isplitl [Ho]
  · iexists g
    isplitl [Ho]; · iexact Ho
    ipureintro; rw [h4]; exact hg
  isplitl [Hsem]
  · iexists _
    isplitl [Hsem]
    · iapply (Entails.of_eq (flight_respell (F := F) d L e8 (k0_off5_inb k hc2) (k0_off8_inb k') e6 (k0_off3_inb k hc2) (k0_off6_inb k') e7.symm (k0_off4_inb L k hc2) (k0_off7_inb L k') _ _))
      iexact Hsem
    · ipureintro
      exact slot_lands m d L k' (k0_off3 k) ((k0_off3_eq k).trans (vec3_congr (by omega))) (k0_off3_inb k hc2)
        (k0_off4 L k) ((k0_off4_eq L k).trans (vec2_congr (by omega))) (k0_off4_inb L k hc2) fr
  isplitl [Hslot]
  · iexists _
    iapply (Entails.of_eq (pts_slot_respell (F := F) d L ((k0_off10_eq k).trans (vec3_congr (by omega))) (k0_off10_inb k) (oth_inb k') fullShare _))
    iexact Hslot
  isplitl [Hfl]
  · iapply (Entails.of_eq (semVal_respell (F := F) d L ((k0_off8_eq k).trans (vec1_congr (by omega))) (k0_off8_inb k) (oth1_inb k')))
    iexact Hfl
  isplitl [Hi]
  · iexists (idxLanded m d L k hc1 fi)
    isplitl [Hi]; · iexact Hi
    ipureintro; intro _; exact IdxOK_congr m d L h4.symm hfi'
  isplitl [Hso]
  · iexists fo'
    isplitl [Hso]; · iexact Hso
    ipureintro; exact PrevOK_next m d L hk (by omega) (trips2 ▸ hfo')
  isplitl [HsI]; · iexact HsI
  isplitl [HsO]; · iexact HsO
  iexists (insert (SemLoc.dma (semAt (k0_off8 k) (k0_off8_inb k)), (default : HIx 1)) (insert (SemLoc.dma cc0_scoped0.sem, (default : HIx 1)) W'))
  isplitr
  · ipureintro; exact W_insert (W_insert hW' _) _
  · iexact HO

set_option maxHeartbeats 8000000 in
/-- A trip in the middle of a stripe: the next block is started, block k is waited for and consumed. -/
theorem outer_step_mid (hpre : PreOK m) (O : CellTallies nD τ sig (HIx 1)) (W : Waits sig (HIx 1)) (v2 : BitVec 32)
    (k k' : Fin k0_t1_loop.trips) (hk : k'.val = k.val + 1) (hr : k.val % 4 = 1 ∨ k.val % 4 = 2) (u : Unit) :
    invMid m d L O W k
      ⊢ wp frame (wpE (defs₀ (F := F)) 𝒱₀ (V d (cV L) (jV L)) none) Set.univ
          (k0_t1_body L aV (Memref.isWhole_whole _) tV (Memref.isWhole_whole _) oV (Memref.isWhole_whole _)
            sR (Memref.isWhole_whole _) sI (Memref.isWhole_whole _) sO (Memref.isWhole_whole _) cc0_scratch3 cc0_scoped0 cc0_scoped1 v2 k u)
          (fun _ => invMid m d L O W k') := by
  have hk16 : k'.val < 16 := k_lt k'
  have hc1 : ¬ k0_cond1 k = 1#1 := fun h => by have := (cond1_iff k).mp h; omega
  have hc2 : k0_cond2 k = 1#1 := (cond2_iff k).mpr (by omega)
  have hc3 : ¬ k0_cond3 k = 1#1 := fun h => by have := (cond3_iff k).mp h; omega
  have h4 : k'.val / 4 = k.val / 4 := by omega
  have hne : Fin.cast trips1 k ≠ Fin.cast trips1 k' := fun e => by have := congrArg Fin.val e; simp only [Fin.coe_cast] at this; omega
  have e7 : k0_off7 L k' = k0_off4 L k := by rw [k0_off7_eq, k0_off4_eq, hk]; exact vec2_congr (by omega)
  have e6 : k0_off3 k = k0_off6 k' := by rw [k0_off3_eq, k0_off6_eq, hk]; exact vec3_congr (by omega)
  have e8 : k0_off5 k = k0_off8 k' := by rw [k0_off5_eq, k0_off8_eq, hk]; exact vec1_congr (by omega)
  unfold invMid k0_t1_body
  iintro ⟨#Hmw, Hblks, Ht, ⟨%g, Ho, %hg⟩, ⟨%frL, Hfl, %hfrL⟩, ⟨%fr, Hoth⟩, Hsem, ⟨%fi, Hi, %hfi⟩, ⟨%fo, Hso, %hfo⟩, HsI, HsO, ⟨%W', %hW', HO⟩⟩
  ihave Hb := (Entails.of_eq (SparseCore.bigSep_erase' (Finset.mem_erase.mpr ⟨hne.symm, Finset.mem_univ _⟩))) $$ Hblks
  icases Hb with ⟨Hnext, Hblks⟩
  ihave Hnext := (Entails.of_eq ((pts_blk (F := F) d L k' _).symm.trans (pts_blk_respell (F := F) d L e7 (k0_off7_inb L k') (k0_off4_inb L k hc2) fullShare _))) $$ Hnext
  ihave Hoth := (Entails.of_eq (pts_slot_respell (F := F) d L (k0_off3_eq k).symm (oth_inb k) (k0_off3_inb k hc2) fullShare _)) $$ Hoth
  ihave Hsem := (Entails.of_eq (semVal_respell (F := F) d L (k0_off5_eq k).symm (oth1_inb k) (k0_off5_inb k hc2))) $$ Hsem
  sl_exec
  ihave Hfl_dst := (Entails.of_eq (pts_slot_respell (F := F) d L ((k0_off6_eq k).trans (k0_off10_eq k).symm) (k0_off6_inb k) (k0_off10_inb k) fullShare _)) $$ Hfl_dst
  sl_for (invIn m d L k frL fi) $$ [Hfl_dst Hi Hso]
  case region =>
    intro t u'
    exact inner_step m d L hpre k _ frL fi hfrL (hfi (by omega)) t u'
  · unfold invIn
    isplitl [Hfl_dst]; · iexact Hfl_dst
    isplitl [Hi]; · iexact Hi
    iexists fo
    isplitl [Hso]; · iexact Hso
    ipureintro; exact OutOK_zero_of_prev m d L k fo hfo
  iintro %u' HI
  unfold invIn
  icases HI with ⟨Hslot, Hi, %fo', Hso, %hfo'⟩
  sl_exec
  rw [wp_ret]; imodintro
  isplitr; · iexact Hmw
  isplitl [Hblks Hfl_src]
  · ihave Hsrc := (Entails.of_eq (pts_blk (F := F) d L k _)) $$ Hfl_src
    iapply (Entails.of_eq (blocks_swap (F := F) hne (fun g : Fin 16 => aBlkPts m d (blkOf (widL L) g))).symm)
    isplitl [Hsrc]; · iexact Hsrc
    iexact Hblks
  isplitl [Ht]; · iexact Ht
  isplitl [Ho]
  · iexists g
    isplitl [Ho]; · iexact Ho
    ipureintro; rw [h4]; exact hg
  isplitl [Hsem]
  · iexists _
    isplitl [Hsem]
    · iapply (Entails.of_eq (flight_respell (F := F) d L e8 (k0_off5_inb k hc2) (k0_off8_inb k') e6 (k0_off3_inb k hc2) (k0_off6_inb k') e7.symm (k0_off4_inb L k hc2) (k0_off7_inb L k') _ _))
      iexact Hsem
    · ipureintro
      exact slot_lands m d L k' (k0_off3 k) ((k0_off3_eq k).trans (vec3_congr (by omega))) (k0_off3_inb k hc2)
        (k0_off4 L k) ((k0_off4_eq L k).trans (vec2_congr (by omega))) (k0_off4_inb L k hc2) fr
  isplitl [Hslot]
  · iexists _
    iapply (Entails.of_eq (pts_slot_respell (F := F) d L ((k0_off10_eq k).trans (vec3_congr (by omega))) (k0_off10_inb k) (oth_inb k') fullShare _))
    iexact Hslot
  isplitl [Hfl]
  · iapply (Entails.of_eq (semVal_respell (F := F) d L ((k0_off8_eq k).trans (vec1_congr (by omega))) (k0_off8_inb k) (oth1_inb k')))
    iexact Hfl
  isplitl [Hi]
  · iexists fi
    isplitl [Hi]; · iexact Hi
    ipureintro; intro _; exact IdxOK_congr m d L h4.symm (hfi (by omega))
  isplitl [Hso]
  · iexists fo'
    isplitl [Hso]; · iexact Hso
    ipureintro; exact PrevOK_next m d L hk (by omega) (trips2 ▸ hfo')
  isplitl [HsI]; · iexact HsI
  isplitl [HsO]; · iexact HsO
  iexists (insert (SemLoc.dma (semAt (k0_off8 k) (k0_off8_inb k)), (default : HIx 1)) W')
  isplitr
  · ipureintro; exact W_insert hW' _
  · iexact HO

set_option maxHeartbeats 8000000 in
/-- The last trip of a stripe (not the last of all): the out scratch, full, is written to the result's stripe. -/
theorem outer_step_last (hpre : PreOK m) (O : CellTallies nD τ sig (HIx 1)) (W : Waits sig (HIx 1)) (v2 : BitVec 32)
    (k k' : Fin k0_t1_loop.trips) (hk : k'.val = k.val + 1) (hr : k.val % 4 = 3) (u : Unit) :
    invMid m d L O W k
      ⊢ wp frame (wpE (defs₀ (F := F)) 𝒱₀ (V d (cV L) (jV L)) none) Set.univ
          (k0_t1_body L aV (Memref.isWhole_whole _) tV (Memref.isWhole_whole _) oV (Memref.isWhole_whole _)
            sR (Memref.isWhole_whole _) sI (Memref.isWhole_whole _) sO (Memref.isWhole_whole _) cc0_scratch3 cc0_scoped0 cc0_scoped1 v2 k u)
          (fun _ => invMid m d L O W k') := by
  have hk16 : k'.val < 16 := k_lt k'
  have hc1 : ¬ k0_cond1 k = 1#1 := fun h => by have := (cond1_iff k).mp h; omega
  have hc2 : k0_cond2 k = 1#1 := (cond2_iff k).mpr (by omega)
  have hc3 : k0_cond3 k = 1#1 := (cond3_iff k).mpr hr
  have h4 : k'.val / 4 = k.val / 4 + 1 := by omega
  have hne : Fin.cast trips1 k ≠ Fin.cast trips1 k' := fun e => by have := congrArg Fin.val e; simp only [Fin.coe_cast] at this; omega
  have e7 : k0_off7 L k' = k0_off4 L k := by rw [k0_off7_eq, k0_off4_eq, hk]; exact vec2_congr (by omega)
  have e6 : k0_off3 k = k0_off6 k' := by rw [k0_off3_eq, k0_off6_eq, hk]; exact vec3_congr (by omega)
  have e8 : k0_off5 k = k0_off8 k' := by rw [k0_off5_eq, k0_off8_eq, hk]; exact vec1_congr (by omega)
  unfold invMid k0_t1_body
  iintro ⟨#Hmw, Hblks, Ht, ⟨%g, Ho, %hg⟩, ⟨%frL, Hfl, %hfrL⟩, ⟨%fr, Hoth⟩, Hsem, ⟨%fi, Hi, %hfi⟩, ⟨%fo, Hso, %hfo⟩, HsI, HsO, ⟨%W', %hW', HO⟩⟩
  ihave Hb := (Entails.of_eq (SparseCore.bigSep_erase' (Finset.mem_erase.mpr ⟨hne.symm, Finset.mem_univ _⟩))) $$ Hblks
  icases Hb with ⟨Hnext, Hblks⟩
  ihave Hnext := (Entails.of_eq ((pts_blk (F := F) d L k' _).symm.trans (pts_blk_respell (F := F) d L e7 (k0_off7_inb L k') (k0_off4_inb L k hc2) fullShare _))) $$ Hnext
  ihave Hoth := (Entails.of_eq (pts_slot_respell (F := F) d L (k0_off3_eq k).symm (oth_inb k) (k0_off3_inb k hc2) fullShare _)) $$ Hoth
  ihave Hsem := (Entails.of_eq (semVal_respell (F := F) d L (k0_off5_eq k).symm (oth1_inb k) (k0_off5_inb k hc2))) $$ Hsem
  sl_exec
  ihave Hfl_dst := (Entails.of_eq (pts_slot_respell (F := F) d L ((k0_off6_eq k).trans (k0_off10_eq k).symm) (k0_off6_inb k) (k0_off10_inb k) fullShare _)) $$ Hfl_dst
  sl_for (invIn m d L k frL fi) $$ [Hfl_dst Hi Hso]
  case region =>
    intro t u'
    exact inner_step m d L hpre k _ frL fi hfrL (hfi (by omega)) t u'
  · unfold invIn
    isplitl [Hfl_dst]; · iexact Hfl_dst
    isplitl [Hi]; · iexact Hi
    iexists fo
    isplitl [Hso]; · iexact Hso
    ipureintro; exact OutOK_zero_of_prev m d L k fo hfo
  iintro %u' HI
  unfold invIn
  icases HI with ⟨Hslot, Hi, %fo', Hso, %hfo'⟩
  have hfull : ∀ (j : Fin 200) (y : Fin 128), fo' (ix2 (n0 := 200) (n1 := 128) j y)
      = outT m d (ix2 (n0 := 200) (n1 := 16384) j ⟨512 * (widL L).val + 128 * (k.val / 4) + y.val, by have := widL_lt L; have := k_lt k; omega⟩) :=
    fun j y => OutOK_hundred m d L k fo' (trips2 ▸ hfo') j y (by have := y.isLt; omega)
  have hl := out_lands m d L k (k0_off15 L k) (k0_off15_eq L k) (k0_off15_inb L k hc3) fo' g hfull
  ihave Ho' := (Entails.of_eq (SparseCore.bigSep_erase' (Finset.mem_univ (strIx k)))) $$ Ho
  icases Ho' with ⟨Hstr, Ho⟩
  ihave Hstr := (Entails.of_eq (pts_strO (F := F) d L k hc3 _).symm) $$ Hstr
  sl_exec
  rw [wp_ret]; imodintro
  isplitr; · iexact Hmw
  isplitl [Hblks Hfl_src]
  · ihave Hsrc := (Entails.of_eq (pts_blk (F := F) d L k _)) $$ Hfl_src
    iapply (Entails.of_eq (blocks_swap (F := F) hne (fun g : Fin 16 => aBlkPts m d (blkOf (widL L) g))).symm)
    isplitl [Hsrc]; · iexact Hsrc
    iexact Hblks
  isplitl [Ht]; · iexact Ht
  isplitl [Ho Hstr]
  · iexists (outLanded d L k hc3 g fo')
    isplitl [Ho Hstr]
    · ihave Hstr := (Entails.of_eq (pts_strO (F := F) d L k hc3 _)) $$ Hstr
      iapply (Entails.of_eq (SparseCore.bigSep_erase' (Finset.mem_univ (strIx k))).symm)
      isplitl [Hstr]; · iexact Hstr
      iapply (Entails.of_eq (oStr_others (F := F) d (widL L) (strIx k) g _ hl.2))
      iexact Ho
    · ipureintro; rw [h4]; exact done_step m d L k g _ hg hl.1 hl.2
  isplitl [Hsem]
  · iexists _
    isplitl [Hsem]
    · iapply (Entails.of_eq (flight_respell (F := F) d L e8 (k0_off5_inb k hc2) (k0_off8_inb k') e6 (k0_off3_inb k hc2) (k0_off6_inb k') e7.symm (k0_off4_inb L k hc2) (k0_off7_inb L k') _ _))
      iexact Hsem
    · ipureintro
      exact slot_lands m d L k' (k0_off3 k) ((k0_off3_eq k).trans (vec3_congr (by omega))) (k0_off3_inb k hc2)
        (k0_off4 L k) ((k0_off4_eq L k).trans (vec2_congr (by omega))) (k0_off4_inb L k hc2) fr
  isplitl [Hslot]
  · iexists _
    iapply (Entails.of_eq (pts_slot_respell (F := F) d L ((k0_off10_eq k).trans (vec3_congr (by omega))) (k0_off10_inb k) (oth_inb k') fullShare _))
    iexact Hslot
  isplitl [Hfl]
  · iapply (Entails.of_eq (semVal_respell (F := F) d L ((k0_off8_eq k).trans (vec1_congr (by omega))) (k0_off8_inb k) (oth1_inb k')))
    iexact Hfl
  isplitl [Hi]
  · iexists fi
    isplitl [Hi]; · iexact Hi
    ipureintro; intro h0; omega
  isplitl [Hso]
  · iexists fo'
    isplitl [Hso]; · iexact Hso
    ipureintro; exact PrevOK_of_zero m d L (by omega) fo'
  isplitl [HsI]; · iexact HsI
  isplitl [HsO]; · iexact HsO
  iexists (insert (SemLoc.dma cc0_scoped1.sem, (default : HIx 1)) (insert (SemLoc.dma (semAt (k0_off8 k) (k0_off8_inb k)), (default : HIx 1)) W'))
  isplitr
  · ipureintro; exact W_insert (W_insert hW' _) _
  · iexact HO

theorem one_inb : ∀ a, (![1] : Fin 1 → Nat) a + S1.size a ≤ S2.size a := by decide
/-- The two slot semaphores are the DMA pool's first two. -/
theorem semAt_zero : semAt ![0] inb_S2_S1_0 = dsem 0 := by decide
theorem semAt_one : semAt ![1] one_inb = dsem 1 := by decide

set_option maxHeartbeats 8000000 in
/-- The last trip of all: no block is started; afterwards nothing is in flight. -/
theorem outer_step_end (hpre : PreOK m) (O : CellTallies nD τ sig (HIx 1)) (W : Waits sig (HIx 1)) (v2 : BitVec 32)
    (k : Fin k0_t1_loop.trips) (hk : k.val = 15) (u : Unit) :
    invMid m d L O W k
      ⊢ wp frame (wpE (defs₀ (F := F)) 𝒱₀ (V d (cV L) (jV L)) none) Set.univ
          (k0_t1_body L aV (Memref.isWhole_whole _) tV (Memref.isWhole_whole _) oV (Memref.isWhole_whole _)
            sR (Memref.isWhole_whole _) sI (Memref.isWhole_whole _) sO (Memref.isWhole_whole _) cc0_scratch3 cc0_scoped0 cc0_scoped1 v2 k u)
          (fun _ => invEnd m d L O W) := by
  have hc1 : ¬ k0_cond1 k = 1#1 := fun h => by have := (cond1_iff k).mp h; omega
  have hc2 : ¬ k0_cond2 k = 1#1 := fun h => by have := (cond2_iff k).mp h; omega
  have hc3 : k0_cond3 k = 1#1 := (cond3_iff k).mpr (by omega)
  have h4 : k.val / 4 + 1 = 4 := by omega
  unfold invMid invEnd k0_t1_body
  iintro ⟨#Hmw, Hblks, Ht, ⟨%g, Ho, %hg⟩, ⟨%frL, Hfl, %hfrL⟩, ⟨%fr, Hoth⟩, Hsem, ⟨%fi, Hi, %hfi⟩, ⟨%fo, Hso, %hfo⟩, HsI, HsO, ⟨%W', %hW', HO⟩⟩
  sl_exec
  ihave Hfl_dst := (Entails.of_eq (pts_slot_respell (F := F) d L ((k0_off6_eq k).trans (k0_off10_eq k).symm) (k0_off6_inb k) (k0_off10_inb k) fullShare _)) $$ Hfl_dst
  sl_for (invIn m d L k frL fi) $$ [Hfl_dst Hi Hso]
  case region =>
    intro t u'
    exact inner_step m d L hpre k _ frL fi hfrL (hfi (by omega)) t u'
  · unfold invIn
    isplitl [Hfl_dst]; · iexact Hfl_dst
    isplitl [Hi]; · iexact Hi
    iexists fo
    isplitl [Hso]; · iexact Hso
    ipureintro; exact OutOK_zero_of_prev m d L k fo hfo
  iintro %u' HI
  unfold invIn
  icases HI with ⟨Hslot, Hi, %fo', Hso, %hfo'⟩
  have hfull : ∀ (j : Fin 200) (y : Fin 128), fo' (ix2 (n0 := 200) (n1 := 128) j y)
      = outT m d (ix2 (n0 := 200) (n1 := 16384) j ⟨512 * (widL L).val + 128 * (k.val / 4) + y.val, by have := widL_lt L; have := k_lt k; omega⟩) :=
    fun j y => OutOK_hundred m d L k fo' (trips2 ▸ hfo') j y (by have := y.isLt; omega)
  have hl := out_lands m d L k (k0_off15 L k) (k0_off15_eq L k) (k0_off15_inb L k hc3) fo' g hfull
  ihave Ho' := (Entails.of_eq (SparseCore.bigSep_erase' (Finset.mem_univ (strIx k)))) $$ Ho
  icases Ho' with ⟨Hstr, Ho⟩
  ihave Hstr := (Entails.of_eq (pts_strO (F := F) d L k hc3 _).symm) $$ Hstr
  sl_exec
  rw [wp_ret]; imodintro
  isplitl [Hblks Hfl_src]
  · ihave Hsrc := (Entails.of_eq (pts_blk (F := F) d L k _)) $$ Hfl_src
    iapply (Entails.of_eq (SparseCore.bigSep_erase' (Finset.mem_univ (Fin.cast trips1 k))).symm)
    isplitl [Hsrc]; · iexact Hsrc
    iexact Hblks
  isplitl [Ht]; · iexact Ht
  isplitl [Ho Hstr]
  · iexists (outLanded d L k hc3 g fo')
    isplitl [Ho Hstr]
    · ihave Hstr := (Entails.of_eq (pts_strO (F := F) d L k hc3 _)) $$ Hstr
      iapply (Entails.of_eq (SparseCore.bigSep_erase' (Finset.mem_univ (strIx k))).symm)
      isplitl [Hstr]; · iexact Hstr
      iapply (Entails.of_eq (oStr_others (F := F) d (widL L) (strIx k) g _ hl.2))
      iexact Ho
    · ipureintro; rw [← h4]; exact done_step m d L k g _ hg hl.1 hl.2
  isplitl [Hoth]
  · iexists fr
    iapply (Entails.of_eq (pts_slot_respell (F := F) d L (vec3_congr (by omega : 1 - k.val % 2 = 0)) (oth_inb k) slot0_inb fullShare _))
    iexact Hoth
  isplitl [Hslot]
  · iexists frL
    iapply (Entails.of_eq (pts_slot_respell (F := F) d L ((k0_off10_eq k).trans (vec3_congr (by omega : k.val % 2 = 1))) (k0_off10_inb k) slot1_inb fullShare _))
    iexact Hslot
  isplitl [Hsem]
  · iapply (Entails.of_eq ((semVal_respell (F := F) d L (vec1_congr (by omega : 1 - k.val % 2 = 0)) (oth1_inb k) inb_S2_S1_0).trans
      (congrArg (fun s => (semVal (V d (cV L) (jV L), SemLoc.dma s) 0 : sProp 𝕄)) semAt_zero)))
    iexact Hsem
  isplitl [Hfl]
  · iapply (Entails.of_eq ((semVal_respell (F := F) d L ((k0_off8_eq k).trans (vec1_congr (by omega : k.val % 2 = 1))) (k0_off8_inb k) one_inb).trans
      (congrArg (fun s => (semVal (V d (cV L) (jV L), SemLoc.dma s) 0 : sProp 𝕄)) semAt_one)))
    iexact Hfl
  isplitl [Hi]; · iexists fi; iexact Hi
  isplitl [Hso]; · iexists fo'; iexact Hso
  isplitl [HsI]; · iexact HsI
  isplitl [HsO]; · iexact HsO
  iexists (insert (SemLoc.dma cc0_scoped1.sem, (default : HIx 1)) (insert (SemLoc.dma (semAt (k0_off8 k) (k0_off8_inb k)), (default : HIx 1)) W'))
  isplitr
  · ipureintro; exact W_insert (W_insert hW' _) _
  · iexact HO

set_option maxHeartbeats 4000000 in
/-- One outer trip, whichever it is. -/
theorem outer_step (hpre : PreOK m) (O : CellTallies nD τ sig (HIx 1)) (W : Waits sig (HIx 1)) (v2 : BitVec 32)
    (k : Fin k0_t1_loop.trips) (u : Unit) :
    invOut m d L O W k.val u
      ⊢ wp frame (wpE (defs₀ (F := F)) 𝒱₀ (V d (cV L) (jV L)) none) Set.univ
          (k0_t1_body L aV (Memref.isWhole_whole _) tV (Memref.isWhole_whole _) oV (Memref.isWhole_whole _)
            sR (Memref.isWhole_whole _) sI (Memref.isWhole_whole _) sO (Memref.isWhole_whole _) cc0_scratch3 cc0_scoped0 cc0_scoped1 v2 k u)
          (invOut m d L O W (k.val + 1)) := by
  have hk := k_lt k
  rw [invOut_lt m d L O W k.val hk u]
  by_cases h15 : k.val = 15
  · have e : invOut m d L O W (k.val + 1) = fun _ => invEnd m d L O W := by
      funext u'; rw [h15]; exact invOut_end m d L O W u'
    rw [e]
    exact outer_step_end m d L hpre O W v2 k h15 u
  · have hk' : k.val + 1 < 16 := by omega
    have e : invOut m d L O W (k.val + 1) = fun _ => invMid m d L O W ⟨k.val + 1, hk'.trans_eq trips1.symm⟩ := by
      funext u'; exact invOut_lt m d L O W (k.val + 1) hk' u'
    rw [e]
    rcases (by omega : k.val % 4 = 0 ∨ (k.val % 4 = 1 ∨ k.val % 4 = 2) ∨ k.val % 4 = 3) with h | h | h
    · exact outer_step_first m d L hpre O W v2 k ⟨k.val + 1, hk'.trans_eq trips1.symm⟩ rfl h u
    · exact outer_step_mid m d L hpre O W v2 k ⟨k.val + 1, hk'.trans_eq trips1.symm⟩ rfl h u
    · exact outer_step_last m d L hpre O W v2 k ⟨k.val + 1, hk'.trans_eq trips1.symm⟩ rfl h u

/-- Outer trip 0. -/
def trip0 : Fin k0_t1_loop.trips := ⟨0, by rw [trips1]; decide⟩

set_option maxHeartbeats 8000000 in
/-- The task of the tile at `L` on device `d`. -/
theorem tile_body (hF : (K (F := F)).Facts) (hpre : PreOK m)
    (O : CellTallies nD τ sig (HIx 1)) (W : Waits sig (HIx 1)) (hO : ∀ g, O g none = 0) :
    iprop(levAts (K (F := F)).L (K (F := F)).lev ∗ emp ∗ goPts m d (widL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L aV (Memref.isWhole_whole _) tV (Memref.isWhole_whole _) oV (Memref.isWhole_whole _)
            sR (Memref.isWhole_whole _) sI (Memref.isWhole_whole _) sO (Memref.isWhole_whole _) cc0_scratch3 cc0_scoped0 cc0_scoped1)
          fun _ => iprop(tdPts m d (widL L) ∗ scopedBufs (V d (cV L) (jV L)) ∗ scopedSems0 (V d (cV L) (jV L))
            ∗ ∃ W', ⌜∀ p ∈ W', p ∈ W ∨ p.2 = none⌝ ∗ owes (V d (cV L) (jV L)) O W') := by
  have e8 : (![0] : Fin 1 → Nat) = k0_off8 trip0 := (k0_off8_eq trip0).symm
  have e6 : (![0, 0, 0] : Fin 3 → Nat) = k0_off6 trip0 := (k0_off6_eq trip0).symm
  have e7 : k0_off1 L = k0_off7 L trip0 := (k0_off1_eq L).trans ((k0_off7_eq L trip0).trans (vec2_congr (show 1024 * (L 1).val + 512 * (L 0).val + 32 * 0 = 1024 * (L 1).val + 512 * (L 0).val by omega))).symm
  simp only [cc0_k_eq_skeleton]; unfold cc0_k_skel
  rw [(K (F := F)).scopedBufs_V hF d (cV L) (jV L), SparseCore.Cfg.scopedSems0_V (Val := Elt F) d (cV L) (jV L), ownSems0_V, ownBufs_V]
  iintro ⟨#Hlv, -, ⟨Ha, Ht, Ho⟩, ⟨⟨%fr, Hr⟩, ⟨%fi, Hi⟩, ⟨%fo, Hso⟩, Hbufs⟩, ⟨Hs0, Hs1, HsI, HsO, Hsems⟩, HO⟩
  ihave Hmw := ((K (F := F)).mayWaits_none (thr := V d (cV L) (jV L)) hO) $$ Hlv
  ihave Hr' := (Entails.of_eq (sR_split (F := F) d L fr)) $$ Hr
  icases Hr' with ⟨Hr0, Hr1⟩
  ihave Hi := (Entails.of_eq (pts_sI (F := F) d L _).symm) $$ Hi
  ihave Hso := (Entails.of_eq (pts_sO (F := F) d L _).symm) $$ Hso
  ihave Ho' := (oStr_merge (F := F) d (widL L)) $$ Ho
  icases Ho' with ⟨%g, Ho⟩
  ihave Ha' := (Entails.of_eq (SparseCore.bigSep_erase' (Finset.mem_univ (0 : Fin 16)))) $$ Ha
  icases Ha' with ⟨Ha0, Hblks⟩
  ihave Ha0 := (Entails.of_eq (pts_blk0 (F := F) d L _).symm) $$ Ha0
  sl_exec
  sl_for (invOut m d L O W) $$ [Hblks Ht Ho Hs0 Hr1 Hs1 Hi Hso HsI HsO HO]
  case region =>
    intro k u
    exact outer_step m d L hpre O W _ k u
  · rw [invOut_lt m d L O W 0 (by decide)]
    unfold invMid
    isplitr; · iexact Hmw
    isplitl [Hblks]; · iexact Hblks
    isplitl [Ht]; · iexact Ht
    isplitl [Ho]
    · iexists g
      isplitl [Ho]; · iexact Ho
      ipureintro; intro q hq; exact absurd hq (Nat.not_lt_zero _)
    isplitl [Hs0]
    · iexists _
      isplitl [Hs0]
      · iapply (Entails.of_eq (flight_respell (F := F) d L e8 inb_S2_S1_0 (k0_off8_inb trip0) e6 inb_S2x32x1000_S1x32x1000_0_0_0 (k0_off6_inb trip0) e7 (k0_off1_inb L) (k0_off7_inb L trip0) _ _))
        iexact Hs0
      · ipureintro
        exact slot_lands m d L trip0 ![0, 0, 0] rfl inb_S2x32x1000_S1x32x1000_0_0_0 (k0_off1 L)
          ((k0_off1_eq L).trans (vec2_congr (show 1024 * (L 1).val + 512 * (L 0).val = 1024 * (L 1).val + 512 * (L 0).val + 32 * 0 by omega))) (k0_off1_inb L) fr
    isplitl [Hr1]; · iexists fr; iexact Hr1
    isplitl [Hs1]
    · iapply (Entails.of_eq (congrArg (fun s => (semVal (V d (cV L) (jV L), SemLoc.dma s) 0 : sProp 𝕄)) semAt_one.symm))
      iexact Hs1
    isplitl [Hi]
    · iexists fi
      isplitl [Hi]; · iexact Hi
      ipureintro; intro h; exact absurd rfl h
    isplitl [Hso]
    · iexists fo
      isplitl [Hso]; · iexact Hso
      ipureintro; exact PrevOK_of_zero m d L rfl fo
    isplitl [HsI]; · iexact HsI
    isplitl [HsO]; · iexact HsO
    iexists W
    isplitr
    · ipureintro; exact fun p hp => .inl hp
    · iexact HO
  iintro %u HI
  ihave HI := (Entails.of_eq (show invOut m d L O W k0_t1_loop.trips u = invEnd m d L O W from by rw [trips1]; exact invOut_end m d L O W u)) $$ HI
  unfold invEnd
  icases HI with ⟨Hblks, Ht, ⟨%g', Ho, %hg'⟩, ⟨%f0, Hr0⟩, ⟨%f1, Hr1⟩, Hs0, Hs1, ⟨%fi', Hi⟩, ⟨%fo', Hso⟩, HsI, HsO, ⟨%W', %hW', HO⟩⟩
  sl_step
  isplitl [Hblks Ht Ho]
  · isplitl [Hblks]; · iexact Hblks
    isplitl [Ht]; · iexact Ht
    iapply (Entails.of_eq (oStr_done (F := F) m d (widL L) g' (fun q => hg' q q.isLt)))
    iexact Ho
  isplitl [Hr0 Hr1 Hi Hso Hbufs]
  · isplitl [Hr0 Hr1]
    · iapply (slots_join (F := F) d L f0 f1)
      isplitl [Hr0]; · iexact Hr0
      iexact Hr1
    isplitl [Hi]
    · iexists fi'
      iapply (Entails.of_eq (pts_sI (F := F) d L _))
      iexact Hi
    isplitl [Hso]
    · iexists fo'
      iapply (Entails.of_eq (pts_sO (F := F) d L _))
      iexact Hso
    iexact Hbufs
  isplitl [Hs0 Hs1 HsI HsO Hsems]
  · isplitl [Hs0]; · iexact Hs0
    isplitl [Hs1]; · iexact Hs1
    isplitl [HsI]; · iexact HsI
    isplitl [HsO]; · iexact HsO
    iexact Hsems
  iexists W'
  isplitr
  · ipureintro; exact hW'
  · iexact HO

end Tile

end Cert.Proof.KI

end
-- ==== Proof.Launch.lean ====
/-
  The launch: the tile's task as the launch theorem's obligation, how a SparseCore's operands split among its sixteen
  tiles, @main on the TensorCore (a transpose of the index array, the call, a transpose of what the call left), and
  the run of the whole program with its result named.
-/
import proofs.«207812_g85461259256412_cont_9to1c4b_20_21_alg».proof.Proof.Body

noncomputable section

namespace Cert.Proof.KI

open Cert.KernelIdeal Cert.KernelIdeal.Gen Cert.KernelIdeal.GenP

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## Numbering the blocks and the stripes by tile

  Block b of the table's 512 is block g = b mod 16 of tile w = b div 16, and tile w = 2 s + c is vector subcore
  s = w div 2 of SparseCore c = w mod 2: (c, s, g) ↦ 16 (2 s + c) + g is a bijection onto the 512 blocks. Likewise
  (c, s, q) ↦ 4 (2 s + c) + q onto the 128 stripes. -/

def tileBlk (p : (Fin 2 × Fin 16) × Fin 16) : Fin 512 := blkOf (wid p.1.1 p.1.2) p.2
def tileStr (p : (Fin 2 × Fin 16) × Fin 4) : Fin 128 := strOf (wid p.1.1 p.1.2) p.2

theorem tileBlk_injective : Function.Injective tileBlk := by
  rintro ⟨⟨c, s⟩, g⟩ ⟨⟨c', s'⟩, g'⟩ h
  have h' : 16 * (2 * s.val + c.val) + g.val = 16 * (2 * s'.val + c'.val) + g'.val := congrArg Fin.val h
  have hc : c = c' := Fin.ext (by omega)
  have hs : s = s' := Fin.ext (by omega)
  have hg : g = g' := Fin.ext (by omega)
  rw [hc, hs, hg]

theorem tileStr_injective : Function.Injective tileStr := by
  rintro ⟨⟨c, s⟩, q⟩ ⟨⟨c', s'⟩, q'⟩ h
  have h' : 4 * (2 * s.val + c.val) + q.val = 4 * (2 * s'.val + c'.val) + q'.val := congrArg Fin.val h
  have hc : c = c' := Fin.ext (by omega)
  have hs : s = s' := Fin.ext (by omega)
  have hq : q = q' := Fin.ext (by omega)
  rw [hc, hs, hq]

/-- An injection between two sets of 512 elements reaches every one. -/
theorem tileBlk_image : Finset.univ.image tileBlk = Finset.univ :=
  Finset.eq_univ_of_card _ (by
    rw [Finset.card_image_of_injective _ tileBlk_injective, Finset.card_univ, Fintype.card_prod, Fintype.card_prod,
      Fintype.card_fin, Fintype.card_fin, Fintype.card_fin])

theorem tileStr_image : Finset.univ.image tileStr = Finset.univ :=
  Finset.eq_univ_of_card _ (by
    rw [Finset.card_image_of_injective _ tileStr_injective, Finset.card_univ, Fintype.card_prod, Fintype.card_prod,
      Fintype.card_fin, Fintype.card_fin, Fintype.card_fin, Fintype.card_fin])

section Reindex

variable {M : Type} [URA M]

/-- A product over the 512 blocks, tile by tile. -/
theorem bigSep_blocks (Φ : Fin 512 → sProp M) :
    bigSep Finset.univ Φ = bigSep Finset.univ fun c : Fin 2 => bigSep Finset.univ fun s : Fin 16 =>
      bigSep Finset.univ fun g : Fin 16 => Φ (blkOf (wid c s) g) := by
  rw [← tileBlk_image, SparseCore.bigSep_image_of_injOn tileBlk_injective.injOn, ← Finset.univ_product_univ,
    SparseCore.bigSep_product, ← Finset.univ_product_univ, SparseCore.bigSep_product]
  rfl

/-- A product over the 128 stripes, tile by tile. -/
theorem bigSep_stripes (Φ : Fin 128 → sProp M) :
    bigSep Finset.univ Φ = bigSep Finset.univ fun c : Fin 2 => bigSep Finset.univ fun s : Fin 16 =>
      bigSep Finset.univ fun q : Fin 4 => Φ (strOf (wid c s) q) := by
  rw [← tileStr_image, SparseCore.bigSep_image_of_injOn tileStr_injective.injOn, ← Finset.univ_product_univ,
    SparseCore.bigSep_product, ← Finset.univ_product_univ, SparseCore.bigSep_product]
  rfl

end Reindex

/-! ## An array whole is its parts -/

theorem aBlk_disjoint : ∀ i ∈ (Finset.univ : Finset (Fin 512)), ∀ j ∈ (Finset.univ : Finset (Fin 512)), i ≠ j →
    Disjoint (aBlk i).set (aBlk j).set :=
  fun _ _ _ _ h => Rect.part_disjoint hdivA h
theorem tStr_disjoint : ∀ i ∈ (Finset.univ : Finset (Fin 128)), ∀ j ∈ (Finset.univ : Finset (Fin 128)), i ≠ j →
    Disjoint (tStr i).set (tStr j).set :=
  fun _ _ _ _ h => Rect.part_disjoint hdivT h
theorem aBlk_cover : (Finset.univ : Finset (Fin 512)).biUnion (fun b => (aBlk b).set) = Finset.univ := Rect.biUnion_part hdivA
theorem tStr_cover : (Finset.univ : Finset (Fin 128)).biUnion (fun q => (tStr q).set) = Finset.univ := Rect.biUnion_part hdivT

/-- The table whole is its 512 blocks. -/
theorem aPts_blocks (d : Dev nD) (f : Buf (Elt F) (aLoc d)) :
    (aLoc d ↦{fullShare} f : sProp 𝕄) = bigSep Finset.univ fun b : Fin 512 => aLoc d ↦[(aBlk b).set]{fullShare} f := by
  rw [← pointsTo_biUnion Finset.univ (ℓ := aLoc d) (fun b : Fin 512 => (aBlk b).set) aBlk_disjoint, aBlk_cover]
/-- The transposed index array whole is its 128 stripes. -/
theorem tPts_stripes (d : Dev nD) (f : Buf (Elt F) (tLoc d)) :
    (tLoc d ↦{fullShare} f : sProp 𝕄) = bigSep Finset.univ fun q : Fin 128 => tLoc d ↦[(tStr q).set]{fullShare} f := by
  rw [← pointsTo_biUnion Finset.univ (ℓ := tLoc d) (fun q : Fin 128 => (tStr q).set) tStr_disjoint, tStr_cover]
/-- The transposed result whole is its 128 stripes. -/
theorem oPts_stripes (d : Dev nD) (f : Buf (Elt F) (oLoc d)) :
    (oLoc d ↦{fullShare} f : sProp 𝕄) = bigSep Finset.univ fun q : Fin 128 => oLoc d ↦[(tStr q).set]{fullShare} f := by
  rw [← pointsTo_biUnion Finset.univ (ℓ := oLoc d) (fun q : Fin 128 => (tStr q).set) tStr_disjoint, tStr_cover]

/-! ## What the call takes for the two SparseCores, and what it hands back -/

/-- The launch theorem numbers call 0's SparseCores and tiles by types that are `Fin 2` and `Fin 16`. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

variable [FloatOps F]

theorem P_st (d : Dev nD) (c : Fin ((K (F := F)).nCore 0)) :
    (P m).st 0 d c = bigSep Finset.univ fun s : Fin 16 => goPts m d (wid (Fin.cast nCore_zero c) s) := rfl
theorem P_dn (d : Dev nD) (c : Fin ((K (F := F)).nCore 0)) :
    (P m).dn 0 d c = bigSep Finset.univ fun s : Fin 16 => tdPts m d (wid (Fin.cast nCore_zero c) s) := rfl
theorem P_go (d : Dev nD) (c : Fin ((K (F := F)).nCore 0)) (i : Fin ((K (F := F)).nSub 0)) :
    (P m).go 0 d c i = goPts m d (wid (Fin.cast nCore_zero c) (Fin.cast nSub_zero i)) := rfl
theorem P_td (d : Dev nD) (c : Fin ((K (F := F)).nCore 0)) (i : Fin ((K (F := F)).nSub 0)) :
    (P m).td 0 d c i = tdPts m d (wid (Fin.cast nCore_zero c) (Fin.cast nSub_zero i)) := rfl

/-- All the tiles' parts together, whatever the tiles hold of the transposed result's stripes: the table and the
    transposed index array whole, beside the 128 stripes of the transposed result. -/
theorem parts_all (d : Dev nD) (Ψ : Fin 128 → sProp 𝕄) :
    (bigSep Finset.univ fun c : Fin 2 => bigSep Finset.univ fun s : Fin 16 =>
        iprop((bigSep Finset.univ fun g : Fin 16 => aBlkPts m d (blkOf (wid c s) g))
          ∗ (bigSep Finset.univ fun q : Fin 4 => tStrPts m d (strOf (wid c s) q))
          ∗ bigSep Finset.univ fun q : Fin 4 => Ψ (strOf (wid c s) q)))
      = iprop(aPts m d ∗ tPts m d ∗ bigSep Finset.univ Ψ) := by
  unfold aPts tPts
  rw [aPts_blocks, tPts_stripes, bigSep_blocks, bigSep_stripes, bigSep_stripes Ψ]
  simp only [bigSep_sep']

/-- All the tiles' results together: the three arrays whole, the transposed result at `outT`. -/
theorem td_all (d : Dev nD) :
    (bigSep Finset.univ fun c : Fin 2 => bigSep Finset.univ fun s : Fin 16 => tdPts m d (wid c s))
      = iprop(aPts m d ∗ tPts m d ∗ oPts d (outT m d)) :=
  (parts_all m d fun q => oStrPts d q (outT m d)).trans (by unfold oPts; rw [oPts_stripes])

/-- All the tiles' operands together, from the three arrays whole. -/
theorem go_all (d : Dev nD) (f : Buf (Elt F) (oLoc d)) :
    iprop(aPts m d ∗ tPts m d ∗ oPts d f)
      ⊢ bigSep Finset.univ fun c : Fin 2 => bigSep Finset.univ fun s : Fin 16 => goPts m d (wid c s) := by
  rw [show (bigSep Finset.univ fun c : Fin 2 => bigSep Finset.univ fun s : Fin 16 => goPts m d (wid c s))
      = iprop(aPts m d ∗ tPts m d ∗ bigSep Finset.univ fun q : Fin 128 => iprop(∃ f, oStrPts d q f))
    from parts_all m d fun q => iprop(∃ f, oStrPts d q f)]
  refine sep_mono_right (sep_mono_right ?_)
  unfold oPts; rw [oPts_stripes]
  refine bigSep_mono fun q _ => ?_
  show (oLoc d ↦[(tStr q).set]{fullShare} f : sProp 𝕄) ⊢ iprop(∃ f', oStrPts d q f')
  iintro H; iexists f; iexact H

theorem st0_of (d : Dev nD) (f : Buf (Elt F) (oLoc d)) :
    iprop(aPts m d ∗ tPts m d ∗ oPts d f) ⊢ bigSep Finset.univ fun c : Fin ((K (F := F)).nCore 0) => (P m).st 0 d c := by
  simp only [P_st]
  rw [bigSep_cores (F := F) (fun c => bigSep Finset.univ fun s : Fin 16 => goPts m d (wid c s))]
  exact go_all m d f
theorem dn0_eq (d : Dev nD) :
    (bigSep Finset.univ fun c : Fin ((K (F := F)).nCore 0) => (P m).dn 0 d c) = iprop(aPts m d ∗ tPts m d ∗ oPts d (outT m d)) := by
  simp only [P_dn]
  rw [bigSep_cores (F := F) (fun c => bigSep Finset.univ fun s : Fin 16 => tdPts m d (wid c s))]
  exact td_all m d

/-! ## The launch theorem's obligations -/

/-- The grid coordinates of the tile of SparseCore `c`, vector subcore `s`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s)
          aV (Memref.isWhole_whole _) tV (Memref.isWhole_whole _) oV (Memref.isWhole_whole _)
          sR (Memref.isWhole_whole _) sI (Memref.isWhole_whole _) sO (Memref.isWhole_whole _) cc0_scratch3 cc0_scoped0 cc0_scoped1) ⟨⟩ c s := rfl

omit [FloatOps F] in
/-- A wait the task leaves recorded, if not one it found, is below every handshake: it is then also "below or of call `q`". -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The tile's task is the launch theorem's obligation at call 0. -/
theorem tileObl (hF : (K (F := F)).Facts) (hpre : PreOK m) : (K (F := F)).TileObl (D (F := F)) 𝒱 (P m) v₀ 0 := by
  intro d c i O W hO _ _
  -- the kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  -- the tile's number, as the call counts it and as the grid does
  have hw : wid (Fin.cast nCore_zero c) (Fin.cast nSub_zero i)
      = widL (coordsV ⟨((K (F := F)).core 0 c).val, hc.1⟩ ⟨((K (F := F)).sub 0 i).val, hc.2⟩) := by
    unfold widL wid; exact Fin.ext rfl
  rw [P_go, P_td, hw]
  exact (tile_body m d (coordsV ⟨_, hc.1⟩ ⟨_, hc.2⟩) hF hpre O W hO).trans (wp_mono frame _ _ fun _ => obl_post)

/-- A SparseCore's operands are its sixteen tiles' parts, and the results gather back. -/
theorem vecSplit : (K (F := F)).VecSplit' (P m) 0 := by
  intro d c
  show (bigSep Finset.univ fun s : Fin 16 => goPts m d (wid (Fin.cast nCore_zero c) s)) ⊢ |={Set.univ}=> iprop(
      (bigSep Finset.univ fun i : Fin ((K (F := F)).nSub 0) => goPts m d (wid (Fin.cast nCore_zero c) (Fin.cast nSub_zero i)))
      ∗ ((bigSep Finset.univ fun i : Fin ((K (F := F)).nSub 0) => tdPts m d (wid (Fin.cast nCore_zero c) (Fin.cast nSub_zero i)))
          -∗ bigSep Finset.univ fun s : Fin 16 => tdPts m d (wid (Fin.cast nCore_zero c) s)))
  rw [bigSep_tasks (F := F) (fun s => goPts m d (wid (Fin.cast nCore_zero c) s)),
    bigSep_tasks (F := F) (fun s => tdPts m d (wid (Fin.cast nCore_zero c) s))]
  iintro H; imodintro
  isplitl [H]; · iexact H
  iintro H; iexact H

/-! ## The launch element -/

/-- The certificate's launch element: the handshakes' rounds; nothing of the kernel's own. -/
def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev a' : DevRef τ sig := Proc.devRef .tc (main_arg0 : Ref sig .tc)
abbrev b' : DevRef τ sig := Proc.devRef .tc (main_arg1 : Ref sig .tc)
abbrev t' : DevRef τ sig := Proc.devRef .tc (main_v0 : Ref sig .tc)
abbrev o' : DevRef τ sig := Proc.devRef .tc (main_v1 : Ref sig .tc)
abbrev r' : DevRef τ sig := Proc.devRef .tc (main_v2 : Ref sig .tc)

/-- The TensorCore's arrays, all unscoped: the table, the index array, its transpose, the transposed result, the result. -/
abbrev S5 : Finset (DevRef τ sig) := {a', b', t', o', r'}

/-- @main's two host operations: the transpose of the index array and the transpose of what the call left. -/
abbrev opT : HloOp τ sig (Elt F) :=
  StableHlo.unary main_arg1 main_v0 ((transpose S200x16384 [1, 0] · transposes_S16384x200_S200x16384_1_0) : (⟨S16384x200, .i32⟩ : BufTy).Contents (Elt F) → (⟨S200x16384, .i32⟩ : BufTy).Contents (Elt F))
abbrev opR : HloOp τ sig (Elt F) :=
  StableHlo.unary main_v1 main_v2 ((transpose S16384x200 [1, 0] · transposes_S200x16384_S16384x200_1_0) : (⟨S200x16384, .f32⟩ : BufTy).Contents (Elt F) → (⟨S16384x200, .f32⟩ : BufTy).Contents (Elt F))

omit [FloatOps F] in
theorem held_S5 (d : Dev nD) (W : Valuation τ sig (Elt F)) :
    (held (T d) S5 W : sProp 𝕄) = iprop((aLoc d ↦{fullShare} W a') ∗ (bLoc d ↦{fullShare} W b') ∗ (tLoc d ↦{fullShare} W t')
      ∗ (oLoc d ↦{fullShare} W o') ∗ rLoc d ↦{fullShare} W r') := by
  unfold held S5
  rw [SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (bLoc d ↦{fullShare} W main_arg1) ∗ (tLoc d ↦{fullShare} W main_v0)
      ∗ (oLoc d ↦{fullShare} W main_v1) ∗ rLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The launch valuation; and the one the call leaves: the index array transposed, the transposed result written. -/
def V0 (d : Dev nD) : Valuation τ sig (Elt F) := fun b => m (d, b)
def V2 (d : Dev nD) : Valuation τ sig (Elt F) := Function.update (Function.update (V0 m d) t' (idxT m d)) o' (outT m d)

omit [FloatOps F] in
theorem unscoped_held (d : Dev nD) : (unscopedBufs d (fun b => m ((SparseCore.T d).loc b)) : sProp 𝕄) = held (T d) S5 (V0 m d) := by
  rw [unscopedBufs_eq, held_S5]; rfl

theorem hT : (opT (F := F)).bufs ⊆ S5 := show ({b', t'} : Finset (DevRef τ sig)) ⊆ S5 by decide
theorem hR : (opR (F := F)).bufs ⊆ S5 := show ({o', r'} : Finset (DevRef τ sig)) ⊆ S5 by decide

/-- After the first transpose: the transposed index array at `idxT`, every other array as launched. -/
theorem opT_a (d : Dev nD) : (opT (F := F)).result (V0 m d) a' = m (aLoc d) := StableHlo.unary_result_ne _ _ _ _ _ _ (by decide)
theorem opT_b (d : Dev nD) : (opT (F := F)).result (V0 m d) b' = m (bLoc d) := StableHlo.unary_result_ne _ _ _ _ _ _ (by decide)
theorem opT_t (d : Dev nD) : (opT (F := F)).result (V0 m d) t' = idxT m d := StableHlo.unary_result _ _ _ _ _ _
theorem opT_o (d : Dev nD) : (opT (F := F)).result (V0 m d) o' = m (oLoc d) := StableHlo.unary_result_ne _ _ _ _ _ _ (by decide)
theorem opT_r (d : Dev nD) : (opT (F := F)).result (V0 m d) r' = m (rLoc d) := StableHlo.unary_result_ne _ _ _ _ _ _ (by decide)

theorem V2_a (d : Dev nD) : V2 m d a' = m (aLoc d) :=
  (Function.update_of_ne (show a' ≠ o' by decide) _ _).trans (Function.update_of_ne (show a' ≠ t' by decide) _ _)
theorem V2_b (d : Dev nD) : V2 m d b' = m (bLoc d) :=
  (Function.update_of_ne (show b' ≠ o' by decide) _ _).trans (Function.update_of_ne (show b' ≠ t' by decide) _ _)
theorem V2_t (d : Dev nD) : V2 m d t' = idxT m d :=
  (Function.update_of_ne (show t' ≠ o' by decide) _ _).trans (Function.update_self _ _ _)
theorem V2_o (d : Dev nD) : V2 m d o' = outT m d := Function.update_self _ _ _
theorem V2_r (d : Dev nD) : V2 m d r' = m (rLoc d) :=
  (Function.update_of_ne (show r' ≠ o' by decide) _ _).trans (Function.update_of_ne (show r' ≠ t' by decide) _ _)

/-- After the second transpose: the result at the row-wise pick, the table and the index array as launched. -/
theorem opR_a (d : Dev nD) : (opR (F := F)).result (V2 m d) a' = m (aLoc d) :=
  (StableHlo.unary_result_ne _ _ _ _ _ _ (by decide)).trans (V2_a m d)
theorem opR_b (d : Dev nD) : (opR (F := F)).result (V2 m d) b' = m (bLoc d) :=
  (StableHlo.unary_result_ne _ _ _ _ _ _ (by decide)).trans (V2_b m d)
theorem opR_r (d : Dev nD) : (opR (F := F)).result (V2 m d) r' = outR m d :=
  (StableHlo.unary_result _ _ _ _ _ _).trans ((congrArg (fun x => transpose S16384x200 [1, 0] x transposes_S200x16384_S16384x200_1_0) (V2_o m d)).trans (outR_eq m d))

/-- What @main leaves the claim: the two arguments at their launch contents and the result at the row-wise pick. -/
abbrev FIN (d : Dev nD) : sProp 𝕄 := iprop(aPts m d ∗ (bLoc d ↦{fullShare} m (bLoc d)) ∗ (rLoc d ↦{fullShare} outR m d))

/-- @main on device `d`'s TensorCore: the index array transposed; the call, from the table, the transposed index array
    and the transposed result dealt to the 32 tiles, back with the transposed result written; that transposed. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the index array transposed
  iapply (wp_hlo_within 𝒱 (SparseCore.T d) none Set.univ (op := opT) (S := S5) hT (V := V0 m d)) $$ [Hb Hheld]
  · isplitl [Hb]; · iexact Hb
    iexact Hheld
  iintro ⟨Hb, Hheld⟩
  ihave Hh := (Entails.of_eq (held_S5 (F := F) d _)) $$ Hheld
  rw [opT_a, opT_b, opT_t, opT_o, opT_r]
  icases Hh with ⟨Ha, Hi, Ht, Ho, Hr⟩
  rw [wp_ret]; imodintro
  -- the call: every tile its blocks of the table and its stripes of the two transposed arrays
  iapply ((K (F := F)).wp_run (D (F := F)) 𝒱 (EH := EH) (P := P m) κ d 0) $$ [Hst Ha Hi Ht Ho Hr Hb]
  isplitr; · iexact Hctx
  isplitl [Hst]; · iexact Hst
  isplitl [Ha Ht Ho]
  · iapply (st0_of m d (m (oLoc d)))
    isplitl [Ha]; · iexact Ha
    isplitl [Ht]; · iexact Ht
    iexact Ho
  iintro ⟨Hst, Hdn⟩
  ihave Hdn' := (Entails.of_eq (dn0_eq m d)) $$ Hdn
  icases Hdn' with ⟨Ha, Ht, Ho⟩
  -- what the call left, transposed
  iapply (wp_hlo_within 𝒱 (SparseCore.T d) none Set.univ (op := opR) (S := S5) hR (V := V2 m d)) $$ [Hb Ha Hi Ht Ho Hr]
  · isplitl [Hb]; · iexact Hb
    rw [held_S5, V2_a, V2_b, V2_t, V2_o, V2_r]
    isplitl [Ha]; · iexact Ha
    isplitl [Hi]; · iexact Hi
    isplitl [Ht]; · iexact Ht
    isplitl [Ho]; · iexact Ho
    iexact Hr
  iintro ⟨Hb, Hheld⟩
  ihave Hh := (Entails.of_eq (held_S5 (F := F) d _)) $$ Hheld
  rw [opR_a, opR_b, opR_r]
  icases Hh with ⟨Ha, Hi, -, -, Hr⟩
  rw [wp_ret]; imodintro; imodintro
  isplitl [Hst]; · iexact Hst
  isplitl [Ha]; · iexact Ha
  isplitl [Hi]; · iexact Hi
  iexact Hr

/-! ## The final memory -/

def fq (d : Dev nD) (s' : Phys nD τ sig (Elt F)) : Prop :=
  s'.mem.mem (rLoc d) = outR m d ∧ s'.mem.mem (aLoc d) = m (aLoc d) ∧ s'.mem.mem (bLoc d) = m (bLoc d)

theorem hfin (d : Dev nD) (s' : Phys nD τ sig (Elt F)) : iprop(FIN m d ∗ SI s') ⊢ (⌜fq m d s'⌝ : sProp 𝕄) := by
  iintro ⟨⟨Ha, Hb, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := bLoc d) (I := Finset.univ) (q := fullShare) (f := m (bLoc d)))) $$ [HSI Hb]
  · isplitl [HSI] <;> iassumption
  icases H with ⟨%h2, HSI, -⟩
  ihave H := (SI_pointsTo_agree (st := s') (ℓ := rLoc d) (I := Finset.univ) (q := fullShare) (f := outR m d)) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-- The run's post: on every device the result is the pick of the arguments, and the arguments are unchanged. -/
def QC : PUnit × MemSt nD τ sig (Elt F) → Prop := fun r => ∀ c : Dev nD,
  r.2.mem (rLoc c) = outR m c ∧ r.2.mem (aLoc c) = m (aLoc c) ∧ r.2.mem (bLoc c) = m (bLoc c)

/-- Every weakly fair execution of the program's threads terminates, nothing faulting, with the result named. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KI

end
-- ==== Proof.SetupB.lean ====
/-
  The program as the launch theorem sees it, the resources, and how the arrays are dealt to the 32 tiles.

  Tile (c, s) (SparseCore c, vector subcore s) has number w = 2 s + c and works on the 512 table rows
  [512 w, 512 w + 512), sixteen blocks of 32 rows, one block at a time: block number 16 w + g of the table's 512
  blocks. It reads columns [512 w, 512 w + 512) of the transposed index array (200 rows) and writes the same columns
  of the transposed result, four stripes of 128 columns: stripe number 4 w + q of the 128 stripes. Blocks, and
  stripes, are the parts of an axis: pairwise disjoint and covering the array, so each tile holds its parts outright.
-/
import proofs.«207812_g85461259256412_cont_9to1c4b_20_21_alg».proof.Defs
import proofs.«207812_g85461259256412_cont_9to1c4b_20_21_alg».proof.Proof.Gen.Kernel
import proofs.«207812_g85461259256412_cont_9to1c4b_20_21_alg».proof.Proof.SkelKernel
import proofs.«207812_g85461259256412_cont_9to1c4b_20_21_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.Proof.KB

open Cert.Kernel Cert.Kernel.Gen Cert.Kernel.GenP

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

/-- The table, the index array, its transpose, the transposed result and the result, as locations of device `d`. -/
abbrev aLoc (d : Dev nD) : Loc nD τ sig := (SparseCore.T d).loc main_arg0
abbrev bLoc (d : Dev nD) : Loc nD τ sig := (SparseCore.T d).loc main_arg1
abbrev tLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

/-- The transposed index array, as @main's first operation leaves it. -/
def idxT (d : Dev nD) : Buf (Elt F) (tLoc d) :=
  transpose S200x16384 [1, 0] (m (bLoc d)) transposes_S16384x200_S200x16384_1_0
/-- What the kernel leaves in the transposed result: entry (j, r) is row r of the table at the column word (j, r) names. -/
def outT (d : Dev nD) : Buf (Elt F) (oLoc d) := Cert.Spec.pickT (m (aLoc d)) (idxT m d)
/-- What @main's last operation leaves in the result. -/
def outR (d : Dev nD) : Buf (Elt F) (rLoc d) := Cert.Spec.pick (m (aLoc d)) (m (bLoc d))

theorem outR_eq (d : Dev nD) :
    transpose S16384x200 [1, 0] (outT m d) transposes_S200x16384_S16384x200_1_0 = outR m d :=
  Cert.Spec.transpose_pickT (m (aLoc d)) (m (bLoc d)) transposes_S16384x200_S200x16384_1_0 transposes_S200x16384_S16384x200_1_0

/-- What the proof asks of the launch memory: every index word is below 1000. -/
def PreOK : Prop := ∀ (d : Dev nD) i, (m (bLoc d) i).toNat < 1000

/-! ## The tiles' parts -/

theorem hdivA : 512 ∣ S16384x1000.size 0 := ⟨32, rfl⟩
theorem hdivT : 128 ∣ S200x16384.size 1 := ⟨128, rfl⟩
/-- The table in 512 blocks of 32 rows; the transposed arrays in 128 stripes of 128 columns. -/
abbrev aBlk (b : Fin 512) : Rect S16384x1000 := Rect.part (s := S16384x1000) (a₀ := 0) hdivA b
abbrev tStr (q : Fin 128) : Rect S200x16384 := Rect.part (s := S200x16384) (a₀ := 1) hdivT q

/-- Tile (c, s)'s number; tile `w`'s `g`-th block of the table and `q`-th stripe of the transposed arrays. -/
def wid (c : Fin 2) (s : Fin 16) : Fin 32 := ⟨2 * s.val + c.val, by omega⟩
def blkOf (w : Fin 32) (g : Fin 16) : Fin 512 := ⟨16 * w.val + g.val, by omega⟩
def strOf (w : Fin 32) (q : Fin 4) : Fin 128 := ⟨4 * w.val + q.val, by omega⟩

variable [FloatOps F]

abbrev aPts (d : Dev nD) : sProp 𝕄 := aLoc d ↦{fullShare} m (aLoc d)
abbrev tPts (d : Dev nD) : sProp 𝕄 := tLoc d ↦{fullShare} idxT m d
abbrev oPts (d : Dev nD) (f : Buf (Elt F) (oLoc d)) : sProp 𝕄 := oLoc d ↦{fullShare} f
/-- One block of the table at its launch contents; one stripe of the transposed index array; one stripe of the
    transposed result at `f`. -/
abbrev aBlkPts (d : Dev nD) (b : Fin 512) : sProp 𝕄 := aLoc d ↦[(aBlk b).set]{fullShare} m (aLoc d)
abbrev tStrPts (d : Dev nD) (q : Fin 128) : sProp 𝕄 := tLoc d ↦[(tStr q).set]{fullShare} idxT m d
abbrev oStrPts (d : Dev nD) (q : Fin 128) (f : Buf (Elt F) (oLoc d)) : sProp 𝕄 := oLoc d ↦[(tStr q).set]{fullShare} f

/-- What tile number `w` is handed: its sixteen blocks of the table, its four stripes of the transposed index array,
    and its four stripes of the transposed result at whatever they hold. -/
abbrev goPts (d : Dev nD) (w : Fin 32) : sProp 𝕄 :=
  iprop((bigSep Finset.univ fun g : Fin 16 => aBlkPts m d (blkOf w g)) ∗ (bigSep Finset.univ fun q : Fin 4 => tStrPts m d (strOf w q))
    ∗ bigSep Finset.univ fun q : Fin 4 => iprop(∃ f, oStrPts d (strOf w q) f))
/-- What it hands back: the same, the result's stripes at `outT`. -/
abbrev tdPts (d : Dev nD) (w : Fin 32) : sProp 𝕄 :=
  iprop((bigSep Finset.univ fun g : Fin 16 => aBlkPts m d (blkOf w g)) ∗ (bigSep Finset.univ fun q : Fin 4 => tStrPts m d (strOf w q))
    ∗ bigSep Finset.univ fun q : Fin 4 => oStrPts d (strOf w q) (outT m d))

/-- The one call: SparseCore `c` takes its sixteen tiles' parts and brings them back, the result's stripes written. -/
def P : (K (F := F)).Pay (nD := nD) (Val := Elt F) (Name := ℕ) (U := UU) where
  st := fun q d c => match q with
    | 0 => bigSep Finset.univ fun s : Fin 16 => goPts m d (wid (Fin.cast nCore_zero c) s)
  dn := fun q d c => match q with
    | 0 => bigSep Finset.univ fun s : Fin 16 => tdPts m d (wid (Fin.cast nCore_zero c) s)
  go := fun q d c i => match q with
    | 0 => goPts m d (wid (Fin.cast nCore_zero c) (Fin.cast nSub_zero i))
  td := fun q d c i => match q with
    | 0 => tdPts m d (wid (Fin.cast nCore_zero c) (Fin.cast nSub_zero i))
  x := fun _ _ => iprop(emp)

instance P_storable : (P (F := F) m).IsStorable where
  st q d c := match q with
    | 0 => (inferInstance : BI.Storable (upEmb : UEmb _ 𝕄) (bigSep Finset.univ fun s : Fin 16 => goPts m d (wid (Fin.cast nCore_zero c) s)))
  dn q d c := match q with
    | 0 => (inferInstance : BI.Storable (upEmb : UEmb _ 𝕄) (bigSep Finset.univ fun s : Fin 16 => tdPts m d (wid (Fin.cast nCore_zero c) s)))
  go q d c i := match q with
    | 0 => (inferInstance : BI.Storable (upEmb : UEmb _ 𝕄) (goPts m d (wid (Fin.cast nCore_zero c) (Fin.cast nSub_zero i))))
  td q d c i := match q with
    | 0 => (inferInstance : BI.Storable (upEmb : UEmb _ 𝕄) (tdPts m d (wid (Fin.cast nCore_zero c) (Fin.cast nSub_zero i))))

end Cert.Proof.KB

end
-- ==== Proof.TileB.lean ====
/-
  One tile's own storage: its three scratch buffers and its four DMA cells (the two table slots' semaphores and the
  two whole-buffer copies' own) taken out of what the subcore owns, and the kernel's HBM windows identified with the
  tile's blocks and stripes: the block copied at outer trip g is block 16 w + g of the table, the stripe copied at
  trips 4 t .. 4 t + 3 is stripe 4 w + t of the transposed arrays.
-/
import proofs.«207812_g85461259256412_cont_9to1c4b_20_21_alg».proof.Proof.SetupB

noncomputable section

namespace Cert.Proof.KB

open Cert.Kernel Cert.Kernel.Gen Cert.Kernel.GenP

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-- The thread of the tile at grid coordinates `L`, and its number. -/
abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev widL (L : grid0.Coords) : Fin 32 := wid (Fin.cast bound_zero (L 0)) (Fin.cast bound_one (L 1))

/-- The kernel's operands as the body table passes them. -/
abbrev aV : Memref sig .scVector .hbm S16384x1000 .f32 := Memref.whole main_arg0_scv
abbrev tV : Memref sig .scVector .hbm S200x16384 .i32 := Memref.whole main_v0_scv
abbrev oV : Memref sig .scVector .hbm S200x16384 .f32 := Memref.whole main_v1_scv
abbrev sR : Memref sig .scVector .vmem S2x32x1000 .f32 := Memref.whole cc0_scratch0
abbrev sI : Memref sig .scVector .vmem S200x128 .i32 := Memref.whole cc0_scratch1
abbrev sO : Memref sig .scVector .vmem S200x128 .f32 := Memref.whole cc0_scratch2

section Tile
variable (d : Dev nD) (L : grid0.Coords)

/-- The tile's four DMA cells: the two slots' semaphores and the two whole-buffer copies' own. -/
abbrev dsem (b : Fin 2) : DmaSem sig := ⟨b.val, by have := b.isLt; show b.val < 4; omega⟩
abbrev cellA (b : Fin 2) : GSem nD τ sig := (V d (cV L) (jV L), .dma (dsem b))
abbrev cellI : GSem nD τ sig := (V d (cV L) (jV L), .dma cc0_scoped0.sem)
abbrev cellO : GSem nD τ sig := (V d (cV L) (jV L), .dma cc0_scoped1.sem)

theorem ownSems0_V :
    (ownSems0 (V d (cV L) (jV L)) : sProp 𝕄)
      = iprop(semVal (cellA d L 0) 0 ∗ semVal (cellA d L 1) 0 ∗ semVal (cellI d L) 0 ∗ semVal (cellO d L) 0
          ∗ bigSep (((((ownCells (V d (cV L) (jV L))).erase (cellA d L 0)).erase (cellA d L 1)).erase (cellI d L)).erase (cellO d L))
              fun g => semVal g 0) := by
  unfold SparseCore.Cfg.ownSems0
  rw [SparseCore.bigSep_erase' ((mem_ownCells (g := cellA d L 0)).mpr ⟨rfl, by
      show (SemLoc.dma (dsem 0) : SemLoc sig).isScoped .scVector = true; decide⟩),
    SparseCore.bigSep_erase' (Finset.mem_erase.mpr ⟨fun e => absurd (Prod.mk.inj e).2 (by decide), (mem_ownCells (g := cellA d L 1)).mpr ⟨rfl, by
      show (SemLoc.dma (dsem 1) : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide),
      (mem_ownCells (g := cellI d L)).mpr ⟨rfl, by show (SemLoc.dma cc0_scoped0.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide),
      Finset.mem_erase.mpr ⟨fun e => absurd (Prod.mk.inj e).2 (by decide),
      (mem_ownCells (g := cellO d L)).mpr ⟨rfl, by show (SemLoc.dma cc0_scoped1.sem : SemLoc sig).isScoped .scVector = true; decide⟩⟩⟩⟩)]

/-- The three scratch buffers are among the subcore's own. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

/-! ## The kernel's HBM windows are the tile's blocks and stripes -/

/-- The table window of outer trip `g`, as the wait of that trip slices it. -/
abbrev blkRect (g : Fin k0_t1_loop.trips) : Rect S16384x1000 := Rect.unit (s := S16384x1000) (k0_off7 L g) S32x1000.size (k0_off7_inb L g)
/-- The table window the prologue slices (block 0). -/
abbrev blkRect0 : Rect S16384x1000 := Rect.unit (s := S16384x1000) (k0_off1 L) S32x1000.size (k0_off1_inb L)

theorem trips1 : k0_t1_loop.trips = 16 := by decide
theorem trips2 : k0_t2_loop.trips = 100 := by decide

theorem blkOf_val (g : Fin k0_t1_loop.trips) :
    (blkOf (widL L) (Fin.cast trips1 g)).val * 32 = 1024 * (L 1).val + 512 * (L 0).val + 32 * g.val := by
  show (16 * (2 * (L 1).val + (L 0).val) + g.val) * 32 = _
  omega

theorem blkOf_val0 : (blkOf (widL L) 0).val * 32 = 1024 * (L 1).val + 512 * (L 0).val := by
  show (16 * (2 * (L 1).val + (L 0).val) + 0) * 32 = _
  omega

theorem blkRect_eq (g : Fin k0_t1_loop.trips) : blkRect L g = aBlk (blkOf (widL L) (Fin.cast trips1 g)) := by
  unfold blkRect aBlk Rect.part Rect.block
  congr 1 <;> funext a
  · rw [k0_off7_eq]
    match a with
    | 0 => exact (blkOf_val L g).symm
    | 1 => simp [Shape.partIx, Shape.partSize]
  · match a with
    | 0 => simp [Shape.partSize]
    | 1 => simp [Shape.partSize]

theorem blkRect0_eq : blkRect0 L = aBlk (blkOf (widL L) 0) := by
  unfold blkRect0 aBlk Rect.part Rect.block
  congr 1 <;> funext a
  · rw [k0_off1_eq]
    match a with
    | 0 => exact (blkOf_val0 L).symm
    | 1 => simp [Shape.partIx, Shape.partSize]
  · match a with
    | 0 => simp [Shape.partSize]
    | 1 => simp [Shape.partSize]

/-- The elements of a window of the table are the rectangle's. -/
theorem set_aSlice (r : Rect S16384x1000) (h : ∀ a, r.stride a = 1) : (aV.slice r h).view.set = r.set := by
  show ((View.whole (main_arg0_scv : Ref sig .scVector)).slice r).set = _
  rw [View.set_slice]; exact Finset.map_refl

theorem pts_blk0 (f : Buf (Elt F) (aLoc d)) :
    ((aV.slice (blkRect0 L) (fun _ => rfl)).view.loc (V d (cV L) (jV L)) ↦[(aV.slice (blkRect0 L) (fun _ => rfl)).view.set]{fullShare} f : sProp 𝕄)
      = aLoc d ↦[(aBlk (blkOf (widL L) 0)).set]{fullShare} f := by
  rw [set_aSlice]
  exact congrArg (fun s => (aLoc d ↦[s]{fullShare} f : sProp 𝕄)) (congrArg (fun r : Rect S16384x1000 => r.set) (blkRect0_eq L))

theorem pts_blk (g : Fin k0_t1_loop.trips) (f : Buf (Elt F) (aLoc d)) :
    ((aV.slice (blkRect L g) (fun _ => rfl)).view.loc (V d (cV L) (jV L)) ↦[(aV.slice (blkRect L g) (fun _ => rfl)).view.set]{fullShare} f : sProp 𝕄)
      = aLoc d ↦[(aBlk (blkOf (widL L) (Fin.cast trips1 g))).set]{fullShare} f := by
  rw [set_aSlice]
  exact congrArg (fun s => (aLoc d ↦[s]{fullShare} f : sProp 𝕄)) (congrArg (fun r : Rect S16384x1000 => r.set) (blkRect_eq L g))

/-- The scratch buffers as the kernel's memrefs address them. -/
theorem pts_sR (f : Buf (Elt F) ((V d (cV L) (jV L)).loc cc0_scratch0)) :
    (sR.view.loc (V d (cV L) (jV L)) ↦{fullShare} f : sProp 𝕄) = (V d (cV L) (jV L)).loc cc0_scratch0 ↦{fullShare} f := rfl
theorem pts_sI (f : Buf (Elt F) ((V d (cV L) (jV L)).loc cc0_scratch1)) :
    (sI.view.loc (V d (cV L) (jV L)) ↦{fullShare} f : sProp 𝕄) = (V d (cV L) (jV L)).loc cc0_scratch1 ↦{fullShare} f := rfl
theorem pts_sO (f : Buf (Elt F) ((V d (cV L) (jV L)).loc cc0_scratch2)) :
    (sO.view.loc (V d (cV L) (jV L)) ↦{fullShare} f : sProp 𝕄) = (V d (cV L) (jV L)).loc cc0_scratch2 ↦{fullShare} f := rfl

/-- A slot of the rows scratch at offsets `off`, as a memref of 32 rows. -/
abbrev slotAt (off : Fin 3 → Nat) (h : ∀ a, off a + S1x32x1000.size a ≤ S2x32x1000.size a) : Memref sig .scVector .vmem S32x1000 .f32 :=
  (sR.slice (Rect.unit (s := S2x32x1000) off S1x32x1000.size h) (fun _ => rfl)).squeeze S32x1000 squeezes_S1x32x1000_S32x1000

/-- What a slot's elements hold does not depend on how its offsets are spelt. -/
theorem pts_slot_respell {off off' : Fin 3 → Nat} (e : off = off') (h : ∀ a, off a + S1x32x1000.size a ≤ S2x32x1000.size a)
    (h' : ∀ a, off' a + S1x32x1000.size a ≤ S2x32x1000.size a) (q : PosShare TreeShare) (f : Buf (Elt F) ((V d (cV L) (jV L)).loc cc0_scratch0)) :
    ((slotAt off h).view.loc (V d (cV L) (jV L)) ↦[(slotAt off h).view.set]{q} f : sProp 𝕄)
      = (slotAt off' h').view.loc (V d (cV L) (jV L)) ↦[(slotAt off' h').view.set]{q} f := by
  subst e; rfl

/-! ## The stripe windows, the conditions, the lane vectors -/

set_option maxHeartbeats 4000000 in
theorem k0_off2_eq : ∀ (L : grid0.Coords) (k : Fin k0_t1_loop.trips), k0_off2 L k = ![0, 1024 * (L 1).val + 512 * (L 0).val + 128 * (k.val / 4)] := by decide +kernel
set_option maxHeartbeats 4000000 in
theorem k0_off15_eq : ∀ (L : grid0.Coords) (k : Fin k0_t1_loop.trips), k0_off15 L k = ![0, 1024 * (L 1).val + 512 * (L 0).val + 128 * (k.val / 4)] := by decide +kernel
/-- The index copy runs at the first trip of a stripe, the result copy at the last, the next block is fetched at all but the last trip. -/
theorem cond1_iff : ∀ k : Fin k0_t1_loop.trips, (k0_cond1 k = 1#1) ↔ k.val % 4 = 0 := by decide +kernel
theorem cond2_iff : ∀ k : Fin k0_t1_loop.trips, (k0_cond2 k = 1#1) ↔ k.val + 1 < 16 := by decide +kernel
theorem cond3_iff : ∀ k : Fin k0_t1_loop.trips, (k0_cond3 k = 1#1) ↔ k.val % 4 = 3 := by decide +kernel
/-- The two lane vectors: lanes 0 .. 16 and 16 .. 32. -/
theorem pay1_val : ∀ x : S16.Idx, (k0_pay1 x).toNat = (x 0).val := by decide +kernel
theorem pay2_val : ∀ x : S16.Idx, (k0_pay2 x).toNat = (x 0).val + 16 := by decide +kernel
theorem pay1_lt : ∀ x : S16.Idx, (k0_pay1 x).toNat < 32 := by decide +kernel
theorem pay2_lt : ∀ x : S16.Idx, (k0_pay2 x).toNat < 32 := by decide +kernel

/-- Every lane of a gather names a row of the slot and a column of the table. -/
theorem chk_gen (pay v : IVec S16 32) (hpay : ∀ x, (pay x).toNat < 32) (hv : ∀ x, (v x).toNat < 1000) :
    ∀ a x, ((![pay, v] : Fin 2 → IVec S16 32) a x).toNat < S32x1000.size a := by
  intro a x
  match a with
  | ⟨0, _⟩ => exact hpay x
  | ⟨1, _⟩ => exact hv x

/-- The slot semaphore at offsets `off`. -/
abbrev semAt (off : Fin 1 → Nat) (h : ∀ a, off a + S1.size a ≤ S2.size a) : DmaSem sig :=
  ((cc0_scratch3.slice (Rect.unit (s := S2) off S1.size h)).squeeze S_ squeezes_S1_S_).sem

theorem semAt_congr {off off' : Fin 1 → Nat} (e : off = off') (h : ∀ a, off a + S1.size a ≤ S2.size a) (h' : ∀ a, off' a + S1.size a ≤ S2.size a) :
    semAt off h = semAt off' h' := by subst e; rfl

/-- A table window at offsets `off`. -/
abbrev blkAt (off : Fin 2 → Nat) (h : ∀ a, off a + S32x1000.size a ≤ S16384x1000.size a) : Memref sig .scVector .hbm S32x1000 .f32 :=
  aV.slice (Rect.unit (s := S16384x1000) off S32x1000.size h) (fun _ => rfl)

/-- The index-array window and the result window of outer trip `k` (their stripe is number k / 4 of the tile's four). -/
abbrev strRectI (k : Fin k0_t1_loop.trips) (h : k0_cond1 k = 1#1) : Rect S200x16384 := Rect.unit (s := S200x16384) (k0_off2 L k) S200x128.size (k0_off2_inb L k h)
abbrev strRectO (k : Fin k0_t1_loop.trips) (h : k0_cond3 k = 1#1) : Rect S200x16384 := Rect.unit (s := S200x16384) (k0_off15 L k) S200x128.size (k0_off15_inb L k h)

/-- The stripe of outer trip `k`, as one of the tile's four. -/
def strIx (k : Fin k0_t1_loop.trips) : Fin 4 := ⟨k.val / 4, by have := k.isLt.trans_eq trips1; omega⟩

theorem strOf_val (k : Fin k0_t1_loop.trips) :
    (strOf (widL L) (strIx k)).val * 128 = 1024 * (L 1).val + 512 * (L 0).val + 128 * (k.val / 4) := by
  show (4 * (2 * (L 1).val + (L 0).val) + k.val / 4) * 128 = _
  omega

theorem strRectI_eq (k : Fin k0_t1_loop.trips) (h : k0_cond1 k = 1#1) : strRectI L k h = tStr (strOf (widL L) (strIx k)) := by
  unfold strRectI tStr Rect.part Rect.block
  congr 1 <;> funext a
  · rw [k0_off2_eq]
    match a with
    | 0 => simp [Shape.partIx, Shape.partSize]
    | 1 => exact (strOf_val L k).symm
  · match a with
    | 0 => simp [Shape.partSize]
    | 1 => simp [Shape.partSize]

theorem strRectO_eq (k : Fin k0_t1_loop.trips) (h : k0_cond3 k = 1#1) : strRectO L k h = tStr (strOf (widL L) (strIx k)) := by
  unfold strRectO tStr Rect.part Rect.block
  congr 1 <;> funext a
  · rw [k0_off15_eq]
    match a with
    | 0 => simp [Shape.partIx, Shape.partSize]
    | 1 => exact (strOf_val L k).symm
  · match a with
    | 0 => simp [Shape.partSize]
    | 1 => simp [Shape.partSize]

theorem set_tSlice (r : Rect S200x16384) (h : ∀ a, r.stride a = 1) : (tV.slice r h).view.set = r.set := by
  show ((View.whole (main_v0_scv : Ref sig .scVector)).slice r).set = _
  rw [View.set_slice]; exact Finset.map_refl
theorem set_oSlice (r : Rect S200x16384) (h : ∀ a, r.stride a = 1) : (oV.slice r h).view.set = r.set := by
  show ((View.whole (main_v1_scv : Ref sig .scVector)).slice r).set = _
  rw [View.set_slice]; exact Finset.map_refl

theorem pts_strI (k : Fin k0_t1_loop.trips) (h : k0_cond1 k = 1#1) (f : Buf (Elt F) (tLoc d)) :
    ((tV.slice (strRectI L k h) (fun _ => rfl)).view.loc (V d (cV L) (jV L)) ↦[(tV.slice (strRectI L k h) (fun _ => rfl)).view.set]{fullShare} f : sProp 𝕄)
      = tLoc d ↦[(tStr (strOf (widL L) (strIx k))).set]{fullShare} f := by
  rw [set_tSlice]
  exact congrArg (fun s => (tLoc d ↦[s]{fullShare} f : sProp 𝕄)) (congrArg (fun r : Rect S200x16384 => r.set) (strRectI_eq L k h))

theorem pts_strO (k : Fin k0_t1_loop.trips) (h : k0_cond3 k = 1#1) (f : Buf (Elt F) (oLoc d)) :
    ((oV.slice (strRectO L k h) (fun _ => rfl)).view.loc (V d (cV L) (jV L)) ↦[(oV.slice (strRectO L k h) (fun _ => rfl)).view.set]{fullShare} f : sProp 𝕄)
      = oLoc d ↦[(tStr (strOf (widL L) (strIx k))).set]{fullShare} f := by
  rw [set_oSlice]
  exact congrArg (fun s => (oLoc d ↦[s]{fullShare} f : sProp 𝕄)) (congrArg (fun r : Rect S200x16384 => r.set) (strRectO_eq L k h))

/-- A table window's elements at offsets spelt two ways. -/
theorem pts_blk_respell {off off' : Fin 2 → Nat} (e : off = off') (h : ∀ a, off a + S32x1000.size a ≤ S16384x1000.size a)
    (h' : ∀ a, off' a + S32x1000.size a ≤ S16384x1000.size a) (q : PosShare TreeShare) (f : Buf (Elt F) (aLoc d)) :
    ((blkAt off h).view.loc (V d (cV L) (jV L)) ↦[(blkAt off h).view.set]{q} f : sProp 𝕄)
      = (blkAt off' h').view.loc (V d (cV L) (jV L)) ↦[(blkAt off' h').view.set]{q} f := by
  subst e; rfl

end Tile

end Cert.Proof.KB

end
-- ==== Proof.ValuesB.lean ====
/-
  What the scratch buffers hold, as facts about their contents, and the two computations of an inner trip.

  At outer trip k of the tile numbered w (table rows 512 w + 32 k .. + 32, columns 32 (k % 4) .. + 32 of stripe k / 4):
  the slot k % 2 of the rows scratch holds those 32 table rows (SlotOK); the index scratch holds the 128 columns
  512 w + 128 (k / 4) .. of the transposed index array (IdxOK); the out scratch holds the transposed result's entries
  at the columns already finished, and after inner trip t also rows 0 .. 2 t of the 32 columns in hand (OutOK).
  One gathered vector is sixteen entries of the transposed result (piece_val): lane l reads table row
  512 w + 32 k + 16 r₂ + l at the column its index word names, and that word is below 1000. Four such vectors stored
  at rows 2 t, 2 t + 1 and columns 32 (k % 4) + 16 r₂ .. + 16 take OutOK from t to t + 1 (out_step).
-/
import proofs.«207812_g85461259256412_cont_9to1c4b_20_21_alg».proof.Proof.TileB
import Idealize.ShloMosaic.Lib.Writes
import Idealize.ShloMosaic.Lib.ValueIdx
import Idealize.ShloMosaic.Lib.Pipeline.Value

noncomputable section

namespace Cert.Proof.KB

open Cert.Kernel Cert.Kernel.Gen Cert.Kernel.GenP

open Idealize.ShloMosaic Idealize.ShloMosaic.ValueIdx
open Idealize.ShloMosaic.SparseCore (S V T)

variable {F : FTy → Type}

variable (m : (ℓ : Loc nD τ sig) → Buf (Elt F) ℓ)

section Tile
variable (d : Dev nD) (L : grid0.Coords)

theorem widL_lt : (widL L).val < 32 := (widL L).isLt
theorem k_lt (k : Fin k0_t1_loop.trips) : k.val < 16 := k.isLt.trans_eq trips1
theorem t_lt (t : Fin k0_t2_loop.trips) : t.val < 100 := t.isLt.trans_eq trips2

/-- Slot k % 2 of the rows scratch holds table rows 512 w + 32 k .. + 32. -/
def SlotOK (k : Fin k0_t1_loop.trips) (fr : Buf (Elt F) ((V d (cV L) (jV L)).loc cc0_scratch0)) : Prop :=
  ∀ (x : Fin 32) (c : Fin 1000),
    fr (ix3 (n0 := 2) (n1 := 32) (n2 := 1000) ⟨k.val % 2, Nat.mod_lt _ (by decide)⟩ x c)
      = m (aLoc d) (ix2 (n0 := 16384) (n1 := 1000) ⟨512 * (widL L).val + 32 * k.val + x.val, by have := widL_lt L; have := k_lt k; omega⟩ c)

/-- The index scratch holds columns 512 w + 128 (k / 4) .. + 128 of the transposed index array. -/
def IdxOK (k : Fin k0_t1_loop.trips) (fi : Buf (Elt F) ((V d (cV L) (jV L)).loc cc0_scratch1)) : Prop :=
  ∀ (j : Fin 200) (y : Fin 128),
    fi (ix2 (n0 := 200) (n1 := 128) j y)
      = idxT m d (ix2 (n0 := 200) (n1 := 16384) j ⟨512 * (widL L).val + 128 * (k.val / 4) + y.val, by have := widL_lt L; have := k_lt k; omega⟩)

/-- The out scratch holds the transposed result at the columns finished before outer trip k of its stripe, and at
    rows below 2 t of the 32 columns in hand. -/
def OutOK (k : Fin k0_t1_loop.trips) (t : Nat) (fo : Buf (Elt F) ((V d (cV L) (jV L)).loc cc0_scratch2)) : Prop :=
  ∀ (j : Fin 200) (y : Fin 128), (y.val < 32 * (k.val % 4) ∨ (y.val < 32 * (k.val % 4) + 32 ∧ j.val < 2 * t)) →
    fo (ix2 (n0 := 200) (n1 := 128) j y)
      = outT m d (ix2 (n0 := 200) (n1 := 16384) j ⟨512 * (widL L).val + 128 * (k.val / 4) + y.val, by have := widL_lt L; have := k_lt k; omega⟩)

variable [FloatOps F]

/-- Every word the index scratch holds is below 1000. -/
theorem idx_lt_of_IdxOK (hpre : PreOK m) (k : Fin k0_t1_loop.trips) (fi : Buf (Elt F) ((V d (cV L) (jV L)).loc cc0_scratch1))
    (hfi : IdxOK m d L k fi) : ∀ i, (fi i).toNat < 1000 := by
  intro i
  obtain ⟨j, y, rfl⟩ : ∃ (j : Fin 200) (y : Fin 128), i = ix2 j y := ⟨i 0, i 1, eq_ix2 i⟩
  rw [hfi j y]
  exact hpre d _

/-- A slot of the rows scratch read whole at (x, c) is the buffer at (b, x, c). -/
theorem slot_read (b : Fin 2) (off : Fin 3 → Nat) (hoff : off = ![b.val, 0, 0]) (hin : ∀ a, off a + S1x32x1000.size a ≤ S2x32x1000.size a)
    (fr : Buf (Elt F) ((V d (cV L) (jV L)).loc cc0_scratch0)) (x : Fin 32) (c : Fin 1000) :
    View.readAt (Elt F) (slotAt off hin).view (LoadRect.whole S32x1000) fr (ix2 (n0 := 32) (n1 := 1000) x c)
      = fr (ix3 (n0 := 2) (n1 := 32) (n2 := 1000) b x c) := by
  subst hoff
  rw [View.readAt_apply, View.read_apply]
  have e : (slotAt ![b.val, 0, 0] hin).view.emb ((LoadRect.whole S32x1000).idx (ix2 (n0 := 32) (n1 := 1000) x c))
      = ix3 (n0 := 2) (n1 := 32) (n2 := 1000) b x c := by
    show (Rect.unit (s := S2x32x1000) ![b.val, 0, 0] S1x32x1000.size hin).emb (Shape.reshapeEquiv _ ((LoadRect.whole S32x1000).idx (ix2 (n0 := 32) (n1 := 1000) x c))) = _
    rw [Shape.reshapeEquiv_eq_of_rowMajor _ (y := ix3 (n0 := 1) (n1 := 32) (n2 := 1000) 0 x c) (by
      rw [Shape.rowMajor_val_three, Shape.rowMajor_val_two]
      show (0 * 32 + x.val) * 1000 + c.val = (0 + 1 * x.val) * 1000 + (0 + 1 * c.val)
      omega)]
    funext a
    match a with
    | ⟨0, _⟩ => exact Fin.ext (by show b.val + 1 * 0 = b.val; omega)
    | ⟨1, _⟩ => exact Fin.ext (by show 0 + 1 * x.val = x.val; omega)
    | ⟨2, _⟩ => exact Fin.ext (by show 0 + 1 * c.val = c.val; omega)
  rw [e]
  rfl

/-- The sixteen index words loaded at row 2 t + r₁, columns 32 (k % 4) + 16 r₂ .. + 16 of the index scratch: lane l is
    the transposed index array at row 2 t + r₁, column 512 w + 32 k + 16 r₂ + l. -/
theorem idx_word (k : Fin k0_t1_loop.trips) (t : Fin k0_t2_loop.trips) (r₁ r₂ : Fin 2)
    (fi : Buf (Elt F) ((V d (cV L) (jV L)).loc cc0_scratch1)) (hfi : IdxOK m d L k fi) (l : Fin 16) :
    shapeCast S16 (View.readAt (Elt F) sI.view
        (Rect.unit (s := S200x128) (k0_off9 k t (BitVec.ofNat 32 r₁.val) (BitVec.ofNat 32 (16 * r₂.val))) S1x16.size (k0_off9_inb k t r₁ r₂)).toLoadRect fi)
        shapeCasts_S1x16_S16 (ix1 (n := 16) l)
      = idxT m d (ix2 (n0 := 200) (n1 := 16384) ⟨2 * t.val + r₁.val, by have := t_lt t; have := r₁.isLt; omega⟩
          ⟨512 * (widL L).val + 32 * k.val + 16 * r₂.val + l.val, by have := widL_lt L; have := k_lt k; have := r₂.isLt; omega⟩) := by
  have h9 := k0_off9_eq k t r₁ r₂
  have h90 : k0_off9 k t (BitVec.ofNat 32 r₁.val) (BitVec.ofNat 32 (16 * r₂.val)) 0 = 2 * t.val + r₁.val := by rw [h9]; rfl
  have h91 : k0_off9 k t (BitVec.ofNat 32 r₁.val) (BitVec.ofNat 32 (16 * r₂.val)) 1 = 32 * (k.val % 4) + 16 * r₂.val := by rw [h9]; rfl
  rw [shapeCast_apply _ _ (ix1 (n := 16) l) (ix2 (n0 := 1) (n1 := 16) 0 l) (by
    rw [Shape.rowMajor_val_two, Shape.rowMajor_val_one]; show 0 * 16 + l.val = l.val; omega)]
  rw [View.readAt_apply]
  have e : (Rect.unit (s := S200x128) (k0_off9 k t (BitVec.ofNat 32 r₁.val) (BitVec.ofNat 32 (16 * r₂.val))) S1x16.size (k0_off9_inb k t r₁ r₂)).toLoadRect.idx
        (ix2 (n0 := 1) (n1 := 16) 0 l)
      = ix2 (n0 := 200) (n1 := 128) ⟨2 * t.val + r₁.val, by have := t_lt t; have := r₁.isLt; omega⟩
          ⟨32 * (k.val % 4) + 16 * r₂.val + l.val, by have := r₂.isLt; omega⟩ := by
    funext a
    match a with
    | ⟨0, _⟩ => exact Fin.ext (by
        show k0_off9 k t (BitVec.ofNat 32 r₁.val) (BitVec.ofNat 32 (16 * r₂.val)) 0 + 1 * 0 = 2 * t.val + r₁.val
        rw [h90]; omega)
    | ⟨1, _⟩ => exact Fin.ext (by
        show k0_off9 k t (BitVec.ofNat 32 r₁.val) (BitVec.ofNat 32 (16 * r₂.val)) 1 + 1 * l.val = 32 * (k.val % 4) + 16 * r₂.val + l.val
        rw [h91]; omega)
  rw [e]
  show fi (ix2 (n0 := 200) (n1 := 128) ⟨2 * t.val + r₁.val, _⟩ ⟨32 * (k.val % 4) + 16 * r₂.val + l.val, _⟩) = _
  rw [hfi]
  exact congrArg (idxT m d) (congrArg (ix2 (n0 := 200) (n1 := 16384) _) (Fin.ext (by
    show 512 * (widL L).val + 128 * (k.val / 4) + (32 * (k.val % 4) + 16 * r₂.val + l.val) = 512 * (widL L).val + 32 * k.val + 16 * r₂.val + l.val
    omega)))

/-- One gathered lane, the index words abstracted: if lane l's word is the transposed index array's at
    (2 t + r₁, 512 w + 32 k + 16 r₂ + l), the lane is the transposed result there. -/
theorem piece_val_aux (hpre : PreOK m) (k : Fin k0_t1_loop.trips) (t : Fin k0_t2_loop.trips) (r₁ r₂ : Fin 2)
    (off : Fin 3 → Nat) (hoff : off = ![k.val % 2, 0, 0]) (hin : ∀ a, off a + S1x32x1000.size a ≤ S2x32x1000.size a)
    (pay : IVec S16 32) (hpay : ∀ x : S16.Idx, (pay x).toNat = (x 0).val + 16 * r₂.val) (vv : IVec S16 32)
    (fr : Buf (Elt F) ((V d (cV L) (jV L)).loc cc0_scratch0)) (hfr : SlotOK m d L k fr)
    (hchk : ∀ a x, ((![pay, vv] : Fin 2 → IVec S16 32) a x).toNat < S32x1000.size a) (l : Fin 16)
    (hv : vv (ix1 (n := 16) l) = idxT m d (ix2 (n0 := 200) (n1 := 16384) ⟨2 * t.val + r₁.val, by have := t_lt t; have := r₁.isLt; omega⟩
          ⟨512 * (widL L).val + 32 * k.val + 16 * r₂.val + l.val, by have := widL_lt L; have := k_lt k; have := r₂.isLt; omega⟩)) :
    loadIdx (View.readAt (Elt F) (slotAt off hin).view (LoadRect.whole S32x1000) fr) ![pay, vv] hchk (ix1 (n := 16) l)
      = outT m d (ix2 (n0 := 200) (n1 := 16384) ⟨2 * t.val + r₁.val, by have := t_lt t; have := r₁.isLt; omega⟩
          ⟨512 * (widL L).val + 32 * k.val + 16 * r₂.val + l.val, by have := widL_lt L; have := k_lt k; have := r₂.isLt; omega⟩) := by
  have hx : (pay (ix1 (n := 16) l)).toNat = l.val + 16 * r₂.val := hpay (ix1 (n := 16) l)
  have hlt : (vv (ix1 (n := 16) l)).toNat < 1000 := by rw [hv]; exact hpre d _
  show View.readAt (Elt F) (slotAt off hin).view (LoadRect.whole S32x1000) fr (idxAt ![pay, vv] hchk (ix1 (n := 16) l)) = _
  have ei : idxAt ![pay, vv] hchk (ix1 (n := 16) l)
      = ix2 (n0 := 32) (n1 := 1000) ⟨(pay (ix1 (n := 16) l)).toNat, hchk 0 (ix1 (n := 16) l)⟩ ⟨(vv (ix1 (n := 16) l)).toNat, hchk 1 (ix1 (n := 16) l)⟩ := by
    funext a
    match a with
    | ⟨0, _⟩ => rfl
    | ⟨1, _⟩ => rfl
  rw [ei, slot_read d L ⟨k.val % 2, Nat.mod_lt _ (by decide)⟩ off hoff hin fr, hfr]
  unfold outT Cert.Spec.pickT
  refine congrArg (m (aLoc d)) ?_
  funext a
  match a with
  | ⟨0, _⟩ => exact Fin.ext (by
      show 512 * (widL L).val + 32 * k.val + (pay (ix1 (n := 16) l)).toNat = 512 * (widL L).val + 32 * k.val + 16 * r₂.val + l.val
      omega)
  | ⟨1, _⟩ => exact Fin.ext (by
      show (vv (ix1 (n := 16) l)).toNat = (Cert.Spec.col (idxT m d _)).val
      rw [← hv, Cert.Spec.col_val_of_lt hlt])

/-- One gathered vector: lane l is the transposed result at row 2 t + r₁, column 512 w + 32 k + 16 r₂ + l. -/
theorem piece_val (hpre : PreOK m) (k : Fin k0_t1_loop.trips) (t : Fin k0_t2_loop.trips) (r₁ r₂ : Fin 2)
    (off : Fin 3 → Nat) (hoff : off = ![k.val % 2, 0, 0]) (hin : ∀ a, off a + S1x32x1000.size a ≤ S2x32x1000.size a)
    (pay : IVec S16 32) (hpay : ∀ x : S16.Idx, (pay x).toNat = (x 0).val + 16 * r₂.val)
    (fr : Buf (Elt F) ((V d (cV L) (jV L)).loc cc0_scratch0)) (fi : Buf (Elt F) ((V d (cV L) (jV L)).loc cc0_scratch1))
    (hfr : SlotOK m d L k fr) (hfi : IdxOK m d L k fi)
    (hchk : ∀ a x, ((![pay, shapeCast S16 (View.readAt (Elt F) sI.view
        (Rect.unit (s := S200x128) (k0_off9 k t (BitVec.ofNat 32 r₁.val) (BitVec.ofNat 32 (16 * r₂.val))) S1x16.size (k0_off9_inb k t r₁ r₂)).toLoadRect fi)
        shapeCasts_S1x16_S16] : Fin 2 → IVec S16 32) a x).toNat < S32x1000.size a)
    (l : Fin 16) :
    loadIdx (View.readAt (Elt F) (slotAt off hin).view (LoadRect.whole S32x1000) fr)
        ![pay, shapeCast S16 (View.readAt (Elt F) sI.view
          (Rect.unit (s := S200x128) (k0_off9 k t (BitVec.ofNat 32 r₁.val) (BitVec.ofNat 32 (16 * r₂.val))) S1x16.size (k0_off9_inb k t r₁ r₂)).toLoadRect fi)
          shapeCasts_S1x16_S16] hchk (ix1 (n := 16) l)
      = outT m d (ix2 (n0 := 200) (n1 := 16384) ⟨2 * t.val + r₁.val, by have := t_lt t; have := r₁.isLt; omega⟩
          ⟨512 * (widL L).val + 32 * k.val + 16 * r₂.val + l.val, by have := widL_lt L; have := k_lt k; have := r₂.isLt; omega⟩) := by
  exact piece_val_aux m d L hpre k t r₁ r₂ off hoff hin pay hpay _ fr hfr hchk l (idx_word m d L k t r₁ r₂ fi hfi l)

/-- The rectangle of the store at row 2 t + r₁, columns 32 (k % 4) + 16 r₂ .. + 16 of the out scratch. -/
abbrev oRect (k : Fin k0_t1_loop.trips) (t : Fin k0_t2_loop.trips) (r₁ r₂ : Fin 2) : Rect S200x128 :=
  Rect.unit (s := S200x128) (k0_off14 k t (BitVec.ofNat 32 r₁.val) (BitVec.ofNat 32 (16 * r₂.val))) S1x16.size (k0_off14_inb k t r₁ r₂)

theorem off14_zero (k : Fin k0_t1_loop.trips) (t : Fin k0_t2_loop.trips) (r₁ r₂ : Fin 2) :
    k0_off14 k t (BitVec.ofNat 32 r₁.val) (BitVec.ofNat 32 (16 * r₂.val)) 0 = 2 * t.val + r₁.val := by
  rw [k0_off14_eq k t r₁ r₂]; rfl
theorem off14_one (k : Fin k0_t1_loop.trips) (t : Fin k0_t2_loop.trips) (r₁ r₂ : Fin 2) :
    k0_off14 k t (BitVec.ofNat 32 r₁.val) (BitVec.ofNat 32 (16 * r₂.val)) 1 = 32 * (k.val % 4) + 16 * r₂.val := by
  rw [k0_off14_eq k t r₁ r₂]; rfl

/-- (j, y) lies under that rectangle iff j = 2 t + r₁ and y is one of its sixteen columns. -/
theorem mem_oRect (k : Fin k0_t1_loop.trips) (t : Fin k0_t2_loop.trips) (r₁ r₂ : Fin 2) (a b : Nat) (ha : r₁.val = a) (hb : r₂.val = b)
    (j : Fin 200) (y : Fin 128) :
    ix2 (n0 := 200) (n1 := 128) j y ∈ (oRect k t r₁ r₂).set
      ↔ j.val = 2 * t.val + a ∧ 32 * (k.val % 4) + 16 * b ≤ y.val ∧ y.val < 32 * (k.val % 4) + 16 * b + 16 := by
  subst ha hb
  rw [Rect.mem_set_unit]
  constructor
  · intro h
    have h0 : k0_off14 k t (BitVec.ofNat 32 r₁.val) (BitVec.ofNat 32 (16 * r₂.val)) 0 ≤ j.val
        ∧ j.val < k0_off14 k t (BitVec.ofNat 32 r₁.val) (BitVec.ofNat 32 (16 * r₂.val)) 0 + 1 := h 0
    have h1 : k0_off14 k t (BitVec.ofNat 32 r₁.val) (BitVec.ofNat 32 (16 * r₂.val)) 1 ≤ y.val
        ∧ y.val < k0_off14 k t (BitVec.ofNat 32 r₁.val) (BitVec.ofNat 32 (16 * r₂.val)) 1 + 16 := h 1
    rw [off14_zero] at h0
    rw [off14_one] at h1
    omega
  · intro h a
    match a with
    | ⟨0, _⟩ =>
      show k0_off14 k t (BitVec.ofNat 32 r₁.val) (BitVec.ofNat 32 (16 * r₂.val)) 0 ≤ j.val
        ∧ j.val < k0_off14 k t (BitVec.ofNat 32 r₁.val) (BitVec.ofNat 32 (16 * r₂.val)) 0 + 1
      rw [off14_zero]; omega
    | ⟨1, _⟩ =>
      show k0_off14 k t (BitVec.ofNat 32 r₁.val) (BitVec.ofNat 32 (16 * r₂.val)) 1 ≤ y.val
        ∧ y.val < k0_off14 k t (BitVec.ofNat 32 r₁.val) (BitVec.ofNat 32 (16 * r₂.val)) 1 + 16
      rw [off14_one]; omega

/-- What the out scratch is to hold at (j, y) during outer trip k: the transposed result at column 512 w + 128 (k / 4) + y. -/
def outG (k : Fin k0_t1_loop.trips) : S200x128.Idx → Elt F .f32 :=
  fun i => outT m d (ix2 (n0 := 200) (n1 := 16384) ⟨(i 0).val, idx2_lt0 i⟩
    ⟨512 * (widL L).val + 128 * (k.val / 4) + (i 1).val, by have := widL_lt L; have := k_lt k; have := idx2_lt1 i; omega⟩)

/-- A stored vector whose lanes are the transposed result's entries agrees with outG under its rectangle. -/
theorem piece_outG (k : Fin k0_t1_loop.trips) (t : Fin k0_t2_loop.trips) (r₁ r₂ : Fin 2) (p : Vec F S16 .f32)
    (hp : ∀ l : Fin 16, p (ix1 (n := 16) l)
      = outT m d (ix2 (n0 := 200) (n1 := 16384) ⟨2 * t.val + r₁.val, by have := t_lt t; have := r₁.isLt; omega⟩
          ⟨512 * (widL L).val + 32 * k.val + 16 * r₂.val + l.val, by have := widL_lt L; have := k_lt k; have := r₂.isLt; omega⟩))
    (x : (oRect k t r₁ r₂).shape.Idx) :
    shapeCast S1x16 p shapeCasts_S16_S1x16 x = outG m d L k ((oRect k t r₁ r₂).emb x) := by
  obtain ⟨x0, l, rfl⟩ : ∃ (x0 : Fin 1) (l : Fin 16), x = ix2 (n0 := 1) (n1 := 16) x0 l := ⟨x 0, x 1, eq_ix2 (n0 := 1) (n1 := 16) x⟩
  rw [shapeCast_apply p shapeCasts_S16_S1x16 (ix2 (n0 := 1) (n1 := 16) x0 l) (ix1 (n := 16) l) (by
    rw [Shape.rowMajor_val_one, Shape.rowMajor_val_two]; show l.val = x0.val * 16 + l.val; omega)]
  rw [hp l]
  unfold outG
  refine congrArg (outT m d) ?_
  funext a
  match a with
  | ⟨0, _⟩ => exact Fin.ext (by
      show 2 * t.val + r₁.val = k0_off14 k t (BitVec.ofNat 32 r₁.val) (BitVec.ofNat 32 (16 * r₂.val)) 0 + 1 * x0.val
      rw [off14_zero]; omega)
  | ⟨1, _⟩ => exact Fin.ext (by
      show 512 * (widL L).val + 32 * k.val + 16 * r₂.val + l.val
        = 512 * (widL L).val + 128 * (k.val / 4) + (k0_off14 k t (BitVec.ofNat 32 r₁.val) (BitVec.ofNat 32 (16 * r₂.val)) 1 + 1 * l.val)
      rw [off14_one]; omega)

/-- Four gathered vectors stored at rows 2 t, 2 t + 1 and columns 32 (k % 4) + 16 r₂ .. + 16 take OutOK from t to t + 1. -/
theorem out_step (k : Fin k0_t1_loop.trips) (t : Fin k0_t2_loop.trips)
    (fo : Buf (Elt F) ((V d (cV L) (jV L)).loc cc0_scratch2)) (p00 p01 p10 p11 : Vec F S16 .f32)
    (hfo : OutOK m d L k t.val fo)
    (h : ∀ (r₁ r₂ : Fin 2) (l : Fin 16),
      (match r₁, r₂ with | 0, 0 => p00 | 0, 1 => p01 | 1, 0 => p10 | 1, 1 => p11) (ix1 (n := 16) l)
        = outT m d (ix2 (n0 := 200) (n1 := 16384) ⟨2 * t.val + r₁.val, by have := t_lt t; have := r₁.isLt; omega⟩
            ⟨512 * (widL L).val + 32 * k.val + 16 * r₂.val + l.val, by have := widL_lt L; have := k_lt k; have := r₂.isLt; omega⟩)) :
    OutOK m d L k (t.val + 1) (sO.view.writes (Elt F) fo
      [⟨Rect.unit (s := S200x128) (k0_off14 k t 1#32 16#32) S1x16.size (k0_off14_inb k t 1 1), shapeCast S1x16 p11 shapeCasts_S16_S1x16⟩,
       ⟨Rect.unit (s := S200x128) (k0_off14 k t 1#32 0#32) S1x16.size (k0_off14_inb k t 1 0), shapeCast S1x16 p10 shapeCasts_S16_S1x16⟩,
       ⟨Rect.unit (s := S200x128) (k0_off14 k t 0#32 16#32) S1x16.size (k0_off14_inb k t 0 1), shapeCast S1x16 p01 shapeCasts_S16_S1x16⟩,
       ⟨Rect.unit (s := S200x128) (k0_off14 k t 0#32 0#32) S1x16.size (k0_off14_inb k t 0 0), shapeCast S1x16 p00 shapeCasts_S16_S1x16⟩]) := by
  intro j y hy
  show sO.view.read (Elt F) (sO.view.writes (Elt F) fo
      [⟨oRect k t 1 1, shapeCast S1x16 p11 shapeCasts_S16_S1x16⟩, ⟨oRect k t 1 0, shapeCast S1x16 p10 shapeCasts_S16_S1x16⟩,
       ⟨oRect k t 0 1, shapeCast S1x16 p01 shapeCasts_S16_S1x16⟩, ⟨oRect k t 0 0, shapeCast S1x16 p00 shapeCasts_S16_S1x16⟩])
      (ix2 (n0 := 200) (n1 := 128) j y) = _
  by_cases hc : (j.val = 2 * t.val ∨ j.val = 2 * t.val + 1) ∧ 32 * (k.val % 4) ≤ y.val ∧ y.val < 32 * (k.val % 4) + 32
  · -- under one of the four rectangles: the piece's lane, the transposed result there
    have hG : ∀ p ∈ ([⟨oRect k t 1 1, shapeCast S1x16 p11 shapeCasts_S16_S1x16⟩, ⟨oRect k t 1 0, shapeCast S1x16 p10 shapeCasts_S16_S1x16⟩,
        ⟨oRect k t 0 1, shapeCast S1x16 p01 shapeCasts_S16_S1x16⟩, ⟨oRect k t 0 0, shapeCast S1x16 p00 shapeCasts_S16_S1x16⟩] : List (View.Piece (Elt F) S200x128 .f32)),
        ∀ x : p.1.shape.Idx, p.2 x = outG m d L k (p.1.emb x) := by
      intro p hp
      simp only [List.mem_cons, List.not_mem_nil, or_false] at hp
      rcases hp with rfl | rfl | rfl | rfl
      · exact piece_outG m d L k t 1 1 p11 (h 1 1)
      · exact piece_outG m d L k t 1 0 p10 (h 1 0)
      · exact piece_outG m d L k t 0 1 p01 (h 0 1)
      · exact piece_outG m d L k t 0 0 p00 (h 0 0)
    have hcov : ∃ p ∈ ([⟨oRect k t 1 1, shapeCast S1x16 p11 shapeCasts_S16_S1x16⟩, ⟨oRect k t 1 0, shapeCast S1x16 p10 shapeCasts_S16_S1x16⟩,
        ⟨oRect k t 0 1, shapeCast S1x16 p01 shapeCasts_S16_S1x16⟩, ⟨oRect k t 0 0, shapeCast S1x16 p00 shapeCasts_S16_S1x16⟩] : List (View.Piece (Elt F) S200x128 .f32)),
        ix2 (n0 := 200) (n1 := 128) j y ∈ p.1.set := by
      obtain ⟨hj, hy1, hy2⟩ := hc
      rcases hj with hj | hj <;> by_cases hlo : y.val < 32 * (k.val % 4) + 16
      · exact ⟨_, List.mem_cons_of_mem _ (List.mem_cons_of_mem _ (List.mem_cons_of_mem _ List.mem_cons_self)),
          (mem_oRect k t 0 0 0 0 rfl rfl j y).mpr (by omega)⟩
      · exact ⟨_, List.mem_cons_of_mem _ (List.mem_cons_of_mem _ List.mem_cons_self),
          (mem_oRect k t 0 1 0 1 rfl rfl j y).mpr (by omega)⟩
      · exact ⟨_, List.mem_cons_of_mem _ List.mem_cons_self,
          (mem_oRect k t 1 0 1 0 rfl rfl j y).mpr (by omega)⟩
      · exact ⟨_, List.mem_cons_self,
          (mem_oRect k t 1 1 1 1 rfl rfl j y).mpr (by omega)⟩
    rw [View.read_writes_apply_of_pieces sO.view fo (outG m d L k) _ hG (ix2 (n0 := 200) (n1 := 128) j y) hcov]
    rfl
  · -- under none: the scratch keeps what it held, and that was already right
    have hnot : ∀ p ∈ ([⟨oRect k t 1 1, shapeCast S1x16 p11 shapeCasts_S16_S1x16⟩, ⟨oRect k t 1 0, shapeCast S1x16 p10 shapeCasts_S16_S1x16⟩,
        ⟨oRect k t 0 1, shapeCast S1x16 p01 shapeCasts_S16_S1x16⟩, ⟨oRect k t 0 0, shapeCast S1x16 p00 shapeCasts_S16_S1x16⟩] : List (View.Piece (Elt F) S200x128 .f32)),
        ix2 (n0 := 200) (n1 := 128) j y ∉ p.1.set := by
      have one : ∀ r₁ r₂ : Fin 2, ix2 (n0 := 200) (n1 := 128) j y ∉ (oRect k t r₁ r₂).set := by
        intro r₁ r₂ hm
        have := (mem_oRect k t r₁ r₂ r₁.val r₂.val rfl rfl j y).mp hm
        have := r₁.isLt
        have := r₂.isLt
        omega
      intro p hp
      simp only [List.mem_cons, List.not_mem_nil, or_false] at hp
      rcases hp with rfl | rfl | rfl | rfl
      · exact one 1 1
      · exact one 1 0
      · exact one 0 1
      · exact one 0 0
    rw [View.read_writes_apply_of_forall_not_mem sO.view fo (ix2 (n0 := 200) (n1 := 128) j y) _ hnot]
    exact hfo j y (by omega)

/-- Before the first inner trip nothing of the 32 columns in hand is asked; after the last all 200 rows are there. -/
theorem OutOK_zero_of_prev (k : Fin k0_t1_loop.trips) (fo : Buf (Elt F) ((V d (cV L) (jV L)).loc cc0_scratch2))
    (h : ∀ (j : Fin 200) (y : Fin 128), y.val < 32 * (k.val % 4) →
      fo (ix2 (n0 := 200) (n1 := 128) j y) = outT m d (ix2 (n0 := 200) (n1 := 16384) j ⟨512 * (widL L).val + 128 * (k.val / 4) + y.val, by have := widL_lt L; have := k_lt k; omega⟩)) :
    OutOK m d L k 0 fo := by
  intro j y hy
  rcases hy with hy | ⟨_, hj⟩
  · exact h j y hy
  · omega

theorem OutOK_hundred (k : Fin k0_t1_loop.trips) (fo : Buf (Elt F) ((V d (cV L) (jV L)).loc cc0_scratch2))
    (h : OutOK m d L k 100 fo) : ∀ (j : Fin 200) (y : Fin 128), y.val < 32 * (k.val % 4) + 32 →
      fo (ix2 (n0 := 200) (n1 := 128) j y) = outT m d (ix2 (n0 := 200) (n1 := 16384) j ⟨512 * (widL L).val + 128 * (k.val / 4) + y.val, by have := widL_lt L; have := k_lt k; omega⟩) := by
  intro j y hy
  exact h j y (Or.inr ⟨hy, by have := j.isLt; omega⟩)

end Tile

end Cert.Proof.KB

end
-- ==== Proof.InnerB.lean ====
/-
  The inner loop of one outer trip: 100 trips, each gathering four vectors of sixteen lanes from the slot in hand at
  the columns the index scratch names and storing them in the out scratch at rows 2 t, 2 t + 1. The slot and the index
  scratch are only read; the out scratch gains two rows of the 32 columns in hand per trip (OutOK at t to OutOK at t + 1).
-/
import proofs.«207812_g85461259256412_cont_9to1c4b_20_21_alg».proof.Proof.ValuesB

noncomputable section

namespace Cert.Proof.KB

open Cert.Kernel Cert.Kernel.Gen Cert.Kernel.GenP

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable [FloatOps F]

section Tile
variable (d : Dev nD) (L : grid0.Coords)

/-- Before inner trip `t` of outer trip `k`: the slot in hand at `fr`, the index scratch at `fi`, the out scratch at
    contents with rows below 2 t of the columns in hand done. -/
def invIn (k : Fin k0_t1_loop.trips) (fr : Buf (Elt F) ((V d (cV L) (jV L)).loc cc0_scratch0))
    (fi : Buf (Elt F) ((V d (cV L) (jV L)).loc cc0_scratch1)) (t : Nat) (_ : Unit) : sProp 𝕄 :=
  iprop(((slotAt (k0_off10 k) (k0_off10_inb k)).view.loc (V d (cV L) (jV L)) ↦[(slotAt (k0_off10 k) (k0_off10_inb k)).view.set]{fullShare} fr)
    ∗ (sI.view.loc (V d (cV L) (jV L)) ↦{fullShare} fi)
    ∗ ∃ fo, (sO.view.loc (V d (cV L) (jV L)) ↦{fullShare} fo) ∗ ⌜OutOK m d L k t fo⌝)

set_option maxHeartbeats 4000000 in
/-- One inner trip. -/
theorem inner_step (hpre : PreOK m) (k : Fin k0_t1_loop.trips) (v22 : BitVec 32)
    (fr : Buf (Elt F) ((V d (cV L) (jV L)).loc cc0_scratch0)) (fi : Buf (Elt F) ((V d (cV L) (jV L)).loc cc0_scratch1))
    (hfr : SlotOK m d L k fr) (hfi : IdxOK m d L k fi) (t : Fin k0_t2_loop.trips) (u : Unit) :
    invIn m d L k fr fi t.val u
      ⊢ wp frame (wpE (defs₀ (F := F)) 𝒱₀ (V d (cV L) (jV L)) none) Set.univ
          (k0_t2_body L aV (Memref.isWhole_whole _) tV (Memref.isWhole_whole _) oV (Memref.isWhole_whole _)
            sR (Memref.isWhole_whole _) sI (Memref.isWhole_whole _) sO (Memref.isWhole_whole _) cc0_scratch3 cc0_scoped0 cc0_scoped1 k v22 t u)
          (invIn m d L k fr fi (t.val + 1)) := by
  have hlt : ∀ i, (fi i).toNat < 1000 := idx_lt_of_IdxOK m d L hpre k fi hfi
  unfold invIn k0_t2_body
  iintro ⟨Hr, Hi, %fo, Hso, %hfo⟩
  sl_exec (disch := first | exact chk_gen _ _ pay1_lt (fun x => hlt _) | exact chk_gen _ _ pay2_lt (fun x => hlt _))
  rw [SparseCore.vectorLoadIdx_bind (V d (cV L) (jV L))]
  sl_exec
  ihave Hr := (Entails.of_eq (pts_slot_respell (F := F) d L ((k0_off10_eq k).trans (k0_off11_eq k).symm) (k0_off10_inb k) (k0_off11_inb k) fullShare _)) $$ Hr
  rw [SparseCore.vectorLoadIdx_bind (V d (cV L) (jV L))]
  sl_exec
  ihave Hr := (Entails.of_eq (pts_slot_respell (F := F) d L ((k0_off11_eq k).trans (k0_off12_eq k).symm) (k0_off11_inb k) (k0_off12_inb k) fullShare _)) $$ Hr
  rw [SparseCore.vectorLoadIdx_bind (V d (cV L) (jV L))]
  sl_exec
  ihave Hr := (Entails.of_eq (pts_slot_respell (F := F) d L ((k0_off12_eq k).trans (k0_off13_eq k).symm) (k0_off12_inb k) (k0_off13_inb k) fullShare _)) $$ Hr
  rw [SparseCore.vectorLoadIdx_bind (V d (cV L) (jV L))]
  sl_exec
  ihave Hr := (Entails.of_eq (pts_slot_respell (F := F) d L ((k0_off13_eq k).trans (k0_off10_eq k).symm) (k0_off13_inb k) (k0_off10_inb k) fullShare _)) $$ Hr
  rw [wp_ret]; imodintro
  isplitl [Hr]; · iexact Hr
  isplitl [Hi]; · iexact Hi
  iexists _
  isplitl [Hso]; · iexact Hso
  ipureintro
  refine out_step m d L k t fo _ _ _ _ hfo (fun r₁ r₂ l => ?_)
  match r₁, r₂ with
  | 0, 0 => exact piece_val m d L hpre k t 0 0 _ (k0_off10_eq k) _ _ (fun x => pay1_val x) fr fi hfr hfi _ l
  | 0, 1 => exact piece_val m d L hpre k t 0 1 _ (k0_off11_eq k) _ _ (fun x => pay2_val x) fr fi hfr hfi _ l
  | 1, 0 => exact piece_val m d L hpre k t 1 0 _ (k0_off12_eq k) _ _ (fun x => pay1_val x) fr fi hfr hfi _ l
  | 1, 1 => exact piece_val m d L hpre k t 1 1 _ (k0_off13_eq k) _ _ (fun x => pay2_val x) fr fi hfr hfi _ l

end Tile

end Cert.Proof.KB

end
-- ==== Proof.LandsB.lean ====
/-
  What a landed copy leaves, read at an index.

  A block of the table landed in a slot makes the slot hold those 32 rows (SlotOK); a stripe of the transposed index
  array landed in the index scratch makes it hold those 128 columns (IdxOK); the out scratch, full, landed in a stripe
  of the transposed result makes the result equal outT on that stripe and leaves it unchanged elsewhere.
-/
import proofs.«207812_g85461259256412_cont_9to1c4b_20_21_alg».proof.Proof.ValuesB

noncomputable section

namespace Cert.Proof.KB

open Cert.Kernel Cert.Kernel.Gen Cert.Kernel.GenP

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable [FloatOps F]

section Tile
variable (d : Dev nD) (L : grid0.Coords)

/-- Block k of the tile's table rows, landed in slot k % 2. -/
theorem slot_lands (k : Fin k0_t1_loop.trips) (off : Fin 3 → Nat) (hoff : off = ![k.val % 2, 0, 0])
    (hin : ∀ a, off a + S1x32x1000.size a ≤ S2x32x1000.size a)
    (off2 : Fin 2 → Nat) (hoff2 : off2 = ![1024 * (L 1).val + 512 * (L 0).val + 32 * k.val, 0])
    (hin2 : ∀ a, off2 a + S32x1000.size a ≤ S16384x1000.size a)
    (fr : Buf (Elt F) ((V d (cV L) (jV L)).loc cc0_scratch0)) :
    SlotOK m d L k ((slotAt off hin).view.writes (Elt F) fr
      [⟨Rect.whole S32x1000, ReadAs.same.apply (View.read (Elt F) (blkAt off2 hin2).view (m (aLoc d)))⟩]) := by
  subst hoff hoff2
  unfold SlotOK
  intro x c
  have hw : (widL L).val = 2 * (L 1).val + (L 0).val := rfl
  -- the buffer at (k % 2, x, c) is the slot's view read at (x, c)
  refine (slot_read d L ⟨k.val % 2, Nat.mod_lt _ (by decide)⟩ ![k.val % 2, 0, 0] rfl hin _ x c).symm.trans ?_
  rw [View.readAt_apply, LoadRect.idx_whole]
  -- the one write covers the whole slot: the read is the payload at (x, c)
  have hr := View.read_writes_cons_emb (slotAt ![k.val % 2, 0, 0] hin).view fr (Rect.whole S32x1000)
    (ReadAs.same.apply (View.read (Elt F) (blkAt ![1024 * (L 1).val + 512 * (L 0).val + 32 * k.val, 0] hin2).view (m (aLoc d))))
    [] (ix2 (n0 := 32) (n1 := 1000) x c)
  rw [Rect.emb_whole_apply] at hr
  refine hr.trans ?_
  -- the payload is the table read through the window: row offset + x, column c
  show View.read (Elt F) (blkAt ![1024 * (L 1).val + 512 * (L 0).val + 32 * k.val, 0] hin2).view (m (aLoc d))
    (ix2 (n0 := 32) (n1 := 1000) x c) = _
  rw [View.read_apply]
  have e : (blkAt ![1024 * (L 1).val + 512 * (L 0).val + 32 * k.val, 0] hin2).view.emb (ix2 (n0 := 32) (n1 := 1000) x c)
      = ix2 (n0 := 16384) (n1 := 1000) ⟨512 * (widL L).val + 32 * k.val + x.val, by have := widL_lt L; have := k_lt k; omega⟩ c := by
    show (Rect.unit (s := S16384x1000) ![1024 * (L 1).val + 512 * (L 0).val + 32 * k.val, 0] S32x1000.size hin2).emb
      (ix2 (n0 := 32) (n1 := 1000) x c) = _
    funext a
    match a with
    | ⟨0, _⟩ => exact Fin.ext (by
        show 1024 * (L 1).val + 512 * (L 0).val + 32 * k.val + 1 * x.val = 512 * (widL L).val + 32 * k.val + x.val
        rw [hw]; omega)
    | ⟨1, _⟩ => exact Fin.ext (by show 0 + 1 * c.val = c.val; omega)
  rw [e]
  rfl

/-- Stripe k / 4 of the tile's columns of the transposed index array, landed in the index scratch. -/
theorem idx_lands (k : Fin k0_t1_loop.trips) (off : Fin 2 → Nat) (hoff : off = ![0, 1024 * (L 1).val + 512 * (L 0).val + 128 * (k.val / 4)])
    (hin : ∀ a, off a + S200x128.size a ≤ S200x16384.size a)
    (fi : Buf (Elt F) ((V d (cV L) (jV L)).loc cc0_scratch1)) :
    IdxOK m d L k (View.write (Elt F) sI.view fi
      (ReadAs.same.apply (View.read (Elt F) (tV.slice (Rect.unit (s := S200x16384) off S200x128.size hin) (fun _ => rfl)).view (idxT m d))) Finset.univ) := by
  subst hoff
  unfold IdxOK
  intro j y
  have hw : (widL L).val = 2 * (L 1).val + (L 0).val := rfl
  -- an unmasked write through the whole buffer replaces its contents by the payload
  have hwr : View.write (Elt F) sI.view fi
      (ReadAs.same.apply (View.read (Elt F) (tV.slice (Rect.unit (s := S200x16384) ![0, 1024 * (L 1).val + 512 * (L 0).val + 128 * (k.val / 4)] S200x128.size hin) (fun _ => rfl)).view (idxT m d)))
      Finset.univ
      = ReadAs.same.apply (View.read (Elt F) (tV.slice (Rect.unit (s := S200x16384) ![0, 1024 * (L 1).val + 512 * (L 0).val + 128 * (k.val / 4)] S200x128.size hin) (fun _ => rfl)).view (idxT m d)) :=
    View.write_whole_univ _ _ _
  refine (congrFun hwr (ix2 (n0 := 200) (n1 := 128) j y)).trans ?_
  -- the payload is the transposed index array read through the window: row j, column offset + y
  show View.read (Elt F) (tV.slice (Rect.unit (s := S200x16384) ![0, 1024 * (L 1).val + 512 * (L 0).val + 128 * (k.val / 4)] S200x128.size hin) (fun _ => rfl)).view (idxT m d)
    (ix2 (n0 := 200) (n1 := 128) j y) = _
  rw [View.read_apply]
  have e : (tV.slice (Rect.unit (s := S200x16384) ![0, 1024 * (L 1).val + 512 * (L 0).val + 128 * (k.val / 4)] S200x128.size hin) (fun _ => rfl)).view.emb
        (ix2 (n0 := 200) (n1 := 128) j y)
      = ix2 (n0 := 200) (n1 := 16384) j ⟨512 * (widL L).val + 128 * (k.val / 4) + y.val, by have := widL_lt L; have := k_lt k; omega⟩ := by
    show (Rect.unit (s := S200x16384) ![0, 1024 * (L 1).val + 512 * (L 0).val + 128 * (k.val / 4)] S200x128.size hin).emb
      (ix2 (n0 := 200) (n1 := 128) j y) = _
    funext a
    match a with
    | ⟨0, _⟩ => exact Fin.ext (by show 0 + 1 * j.val = j.val; omega)
    | ⟨1, _⟩ => exact Fin.ext (by
        show 1024 * (L 1).val + 512 * (L 0).val + 128 * (k.val / 4) + 1 * y.val = 512 * (widL L).val + 128 * (k.val / 4) + y.val
        rw [hw]; omega)
  rw [e]
  rfl

end Tile

end Cert.Proof.KB

end
-- ==== Proof.LandsOutB.lean ====
/-
  What the result copy leaves, read at an index: the out scratch, full, landed in a stripe of the transposed result
  makes the result equal outT on that stripe and leaves it unchanged elsewhere.
-/
import proofs.«207812_g85461259256412_cont_9to1c4b_20_21_alg».proof.Proof.ValuesB

noncomputable section

namespace Cert.Proof.KB

open Cert.Kernel Cert.Kernel.Gen Cert.Kernel.GenP

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable [FloatOps F]

section Tile
variable (d : Dev nD) (L : grid0.Coords)

/-- The tile's number from its grid coordinates. -/
theorem widL_val : (widL L).val = 2 * (L 1).val + (L 0).val := rfl

/-- The window of 200 rows and 128 columns at column 512 w + 128 (k / 4) is stripe k / 4 of the tile's four. -/
theorem winRect_eq (k : Fin k0_t1_loop.trips) (off : Fin 2 → Nat) (hoff : off = ![0, 1024 * (L 1).val + 512 * (L 0).val + 128 * (k.val / 4)])
    (hin : ∀ a, off a + S200x128.size a ≤ S200x16384.size a) :
    Rect.unit (s := S200x16384) off S200x128.size hin = tStr (strOf (widL L) (strIx k)) := by
  subst hoff
  unfold tStr Rect.part Rect.block
  congr 1 <;> funext a
  · match a with
    | 0 => simp [Shape.partIx, Shape.partSize]
    | 1 => exact (strOf_val L k).symm
  · match a with
    | 0 => simp [Shape.partSize]
    | 1 => simp [Shape.partSize]

/-- A whole write through a window of the transposed result, read under the window: the payload. -/
theorem window_write_emb (off : Fin 2 → Nat) (hin : ∀ a, off a + S200x128.size a ≤ S200x16384.size a) (g : Buf (Elt F) (oLoc d))
    (w : (Rect.whole (Rect.unit (s := S200x16384) off S200x128.size hin).shape).shape.Idx → Elt F .f32)
    (x : (Rect.unit (s := S200x16384) off S200x128.size hin).shape.Idx) :
    (oV.slice (Rect.unit (s := S200x16384) off S200x128.size hin) (fun _ => rfl)).view.writes (Elt F) g
        [⟨Rect.whole (Rect.unit (s := S200x16384) off S200x128.size hin).shape, w⟩]
        ((Rect.unit (s := S200x16384) off S200x128.size hin).emb x) = w x := by
  have hw := View.read_writes_cons_emb (oV.slice (Rect.unit (s := S200x16384) off S200x128.size hin) (fun _ => rfl)).view g
    (Rect.whole (Rect.unit (s := S200x16384) off S200x128.size hin).shape) w [] x
  rw [Rect.emb_whole_apply, View.read_apply] at hw
  exact hw

/-- Off the window the write changes nothing. -/
theorem window_write_off (off : Fin 2 → Nat) (hin : ∀ a, off a + S200x128.size a ≤ S200x16384.size a) (g : Buf (Elt F) (oLoc d))
    (w : (Rect.whole (Rect.unit (s := S200x16384) off S200x128.size hin).shape).shape.Idx → Elt F .f32)
    (i : S200x16384.Idx) (hi : i ∉ (Rect.unit (s := S200x16384) off S200x128.size hin).set) :
    (oV.slice (Rect.unit (s := S200x16384) off S200x128.size hin) (fun _ => rfl)).view.writes (Elt F) g
        [⟨Rect.whole (Rect.unit (s := S200x16384) off S200x128.size hin).shape, w⟩] i = g i := by
  show (((oV.slice (Rect.unit (s := S200x16384) off S200x128.size hin) (fun _ => rfl)).view.slice
    (Rect.whole (Rect.unit (s := S200x16384) off S200x128.size hin).shape)).write (Elt F) g w Finset.univ) i = g i
  refine View.write_of_not_mem _ _ _ ?_
  rw [View.setOn_univ, View.set_slice, Rect.set_whole]
  show i ∉ (oV.slice (Rect.unit (s := S200x16384) off S200x128.size hin) (fun _ => rfl)).view.set
  rw [set_oSlice]
  exact hi

/-- The out scratch holding the transposed result at all 128 columns of stripe k / 4, landed in that stripe: the
    result is outT on the stripe, unchanged off it. -/
theorem out_lands (k : Fin k0_t1_loop.trips) (off : Fin 2 → Nat) (hoff : off = ![0, 1024 * (L 1).val + 512 * (L 0).val + 128 * (k.val / 4)])
    (hin : ∀ a, off a + S200x128.size a ≤ S200x16384.size a)
    (fo : Buf (Elt F) ((V d (cV L) (jV L)).loc cc0_scratch2)) (g : Buf (Elt F) (oLoc d))
    (hfo : ∀ (j : Fin 200) (y : Fin 128), fo (ix2 (n0 := 200) (n1 := 128) j y)
      = outT m d (ix2 (n0 := 200) (n1 := 16384) j ⟨512 * (widL L).val + 128 * (k.val / 4) + y.val, by have := widL_lt L; have := k_lt k; omega⟩)) :
    (∀ i ∈ (tStr (strOf (widL L) (strIx k))).set,
        (oV.slice (Rect.unit (s := S200x16384) off S200x128.size hin) (fun _ => rfl)).view.writes (Elt F) g
          [⟨Rect.whole (Rect.unit (s := S200x16384) off S200x128.size hin).shape, ReadAs.same.apply (View.read (Elt F) sO.view fo)⟩] i = outT m d i)
    ∧ (∀ i ∉ (tStr (strOf (widL L) (strIx k))).set,
        (oV.slice (Rect.unit (s := S200x16384) off S200x128.size hin) (fun _ => rfl)).view.writes (Elt F) g
          [⟨Rect.whole (Rect.unit (s := S200x16384) off S200x128.size hin).shape, ReadAs.same.apply (View.read (Elt F) sO.view fo)⟩] i = g i) := by
  rw [← winRect_eq L k off hoff hin]
  subst hoff
  constructor
  · intro i hi
    obtain ⟨x, rfl⟩ : ∃ x, (Rect.unit (s := S200x16384) ![0, 1024 * (L 1).val + 512 * (L 0).val + 128 * (k.val / 4)] S200x128.size hin).emb x = i :=
      (Rect.unit (s := S200x16384) ![0, 1024 * (L 1).val + 512 * (L 0).val + 128 * (k.val / 4)] S200x128.size hin).exists_idx_of_mem hi
    obtain ⟨j, y, rfl⟩ : ∃ (j : Fin 200) (y : Fin 128), x = ix2 (n0 := 200) (n1 := 128) j y := ⟨x 0, x 1, eq_ix2 (n0 := 200) (n1 := 128) x⟩
    rw [window_write_emb d]
    show fo (ix2 (n0 := 200) (n1 := 128) j y) = _
    rw [hfo j y]
    refine congrArg (outT m d) ?_
    funext a
    match a with
    | ⟨0, _⟩ => exact Fin.ext (by show j.val = 0 + 1 * j.val; omega)
    | ⟨1, _⟩ => exact Fin.ext (by
        show 512 * (widL L).val + 128 * (k.val / 4) + y.val = 1024 * (L 1).val + 512 * (L 0).val + 128 * (k.val / 4) + 1 * y.val
        rw [widL_val]; omega)
  · intro i hi
    exact window_write_off d _ hin g _ i hi

end Tile

end Cert.Proof.KB

end
-- ==== Proof.SlotsB.lean ====
/-
  The rows scratch as its two slots, and the tile's four result stripes at one contents function.

  The rows scratch (2 × 32 × 1000) is the disjoint union of slot 0 and slot 1, so holding it whole is holding the two
  slots, and two slots held at any contents are the scratch held at some contents. The tile's four stripes of the
  transposed result, each held at some contents, are the four held at ONE function of the whole array (the stripes are
  disjoint); and four stripes at a function that equals outT on each of them are the four at outT.
-/
import proofs.«207812_g85461259256412_cont_9to1c4b_20_21_alg».proof.Proof.ValuesB

noncomputable section

namespace Cert.Proof.KB

open Cert.Kernel Cert.Kernel.Gen Cert.Kernel.GenP

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable [FloatOps F]

section Tile
variable (d : Dev nD) (L : grid0.Coords)

theorem slot0_inb : ∀ a, (![0, 0, 0] : Fin 3 → Nat) a + S1x32x1000.size a ≤ S2x32x1000.size a := by decide
theorem slot1_inb : ∀ a, (![1, 0, 0] : Fin 3 → Nat) a + S1x32x1000.size a ≤ S2x32x1000.size a := by decide

/-- A slot's elements are its rectangle's: the slice of the whole buffer, re-indexed as 32 rows. -/
theorem set_slot (off : Fin 3 → Nat) (h : ∀ a, off a + S1x32x1000.size a ≤ S2x32x1000.size a) :
    (slotAt off h).view.set = (Rect.unit (s := S2x32x1000) off S1x32x1000.size h).set := by
  show (((View.whole (cc0_scratch0 : Ref sig .scVector)).slice (Rect.unit (s := S2x32x1000) off S1x32x1000.size h)).reshape S32x1000 _).set = _
  rw [View.set_reshape, View.set_slice]; exact Finset.map_refl

/-- Slot 0 is the elements whose first coordinate is 0, slot 1 those whose first coordinate is 1: all of slot 0 lies
    below slot 1 on the first axis, and every element is in one of the two. -/
theorem slots_disjoint :
    Disjoint (Rect.unit (s := S2x32x1000) ![0, 0, 0] S1x32x1000.size slot0_inb).set (Rect.unit (s := S2x32x1000) ![1, 0, 0] S1x32x1000.size slot1_inb).set :=
  Rect.unit_disjoint (0 : Fin 3) (.inl (by decide))

theorem slots_cover :
    (Rect.unit (s := S2x32x1000) ![0, 0, 0] S1x32x1000.size slot0_inb).set ∪ (Rect.unit (s := S2x32x1000) ![1, 0, 0] S1x32x1000.size slot1_inb).set
      = Finset.univ := by
  ext i
  simp only [Finset.mem_union, Rect.mem_set_unit, Finset.mem_univ, iff_true]
  have h0 : (i 0).val < 2 := (i 0).isLt
  have h1 : (i 1).val < 32 := (i 1).isLt
  have h2 : (i 2).val < 1000 := (i 2).isLt
  rcases Nat.lt_or_ge (i 0).val 1 with h | h
  · left; intro a
    match a with
    | 0 => exact ⟨Nat.zero_le _, show (i 0).val < 0 + 1 by omega⟩
    | 1 => exact ⟨Nat.zero_le _, show (i 1).val < 0 + 32 by omega⟩
    | 2 => exact ⟨Nat.zero_le _, show (i 2).val < 0 + 1000 by omega⟩
  · right; intro a
    match a with
    | 0 => exact ⟨h, show (i 0).val < 1 + 1 by omega⟩
    | 1 => exact ⟨Nat.zero_le _, show (i 1).val < 0 + 32 by omega⟩
    | 2 => exact ⟨Nat.zero_le _, show (i 2).val < 0 + 1000 by omega⟩

omit [FloatOps F] in
/-- A buffer held on a set of elements that is all of them is held whole. -/
theorem whole_of_cover {ℓ : Loc nD τ sig} {I : Finset (Idx ℓ)} (hI : I = Finset.univ) (g : Buf (Elt F) ℓ) :
    (ℓ ↦[I]{fullShare} g : sProp 𝕄) = ℓ ↦{fullShare} g := by
  subst hI; rfl

omit [FloatOps F] in
/-- Different stripes of one tile are different stripes of the array. -/
theorem strOf_injective (w : Fin 32) : Function.Injective (strOf w) := by
  intro q q' e
  have e' : 4 * w.val + q.val = 4 * w.val + q'.val := congrArg Fin.val e
  exact Fin.ext (by omega)

omit [FloatOps F] in
theorem strs_disjoint (w : Fin 32) : ∀ q ∈ (Finset.univ : Finset (Fin 4)), ∀ q' ∈ (Finset.univ : Finset (Fin 4)), q ≠ q' →
    Disjoint (tStr (strOf w q)).set (tStr (strOf w q')).set :=
  fun _ _ _ _ h => Rect.part_disjoint hdivT fun e => h (strOf_injective w e)

/-- The rows scratch held whole is its two slots held. -/
theorem sR_split (f : Buf (Elt F) ((V d (cV L) (jV L)).loc cc0_scratch0)) :
    ((V d (cV L) (jV L)).loc cc0_scratch0 ↦{fullShare} f : sProp 𝕄)
      = iprop(((slotAt ![0, 0, 0] slot0_inb).view.loc (V d (cV L) (jV L)) ↦[(slotAt ![0, 0, 0] slot0_inb).view.set]{fullShare} f)
          ∗ ((slotAt ![1, 0, 0] slot1_inb).view.loc (V d (cV L) (jV L)) ↦[(slotAt ![1, 0, 0] slot1_inb).view.set]{fullShare} f)) := by
  rw [set_slot, set_slot]
  exact (whole_of_cover slots_cover f).symm.trans (BI.equiv_iff.mp
    ⟨(pointsTo_union (ℓ := (V d (cV L) (jV L)).loc cc0_scratch0) (q := fullShare) (f := f) slots_disjoint).1,
      (pointsTo_union (ℓ := (V d (cV L) (jV L)).loc cc0_scratch0) (q := fullShare) (f := f) slots_disjoint).2⟩)

/-- Two slots held at any contents are the scratch held at some contents. -/
theorem slots_join (f0 f1 : Buf (Elt F) ((V d (cV L) (jV L)).loc cc0_scratch0)) :
    iprop(((slotAt ![0, 0, 0] slot0_inb).view.loc (V d (cV L) (jV L)) ↦[(slotAt ![0, 0, 0] slot0_inb).view.set]{fullShare} f0)
        ∗ ((slotAt ![1, 0, 0] slot1_inb).view.loc (V d (cV L) (jV L)) ↦[(slotAt ![1, 0, 0] slot1_inb).view.set]{fullShare} f1))
      ⊢ (iprop(∃ f, (V d (cV L) (jV L)).loc cc0_scratch0 ↦{fullShare} f) : sProp 𝕄) := by
  rw [set_slot, set_slot]
  refine (pointsTo_join (ℓ := (V d (cV L) (jV L)).loc cc0_scratch0) (q := fullShare) (f := f0) (g := f1) slots_disjoint).trans ?_
  rw [whole_of_cover slots_cover]
  iintro H; iexists _; iexact H

/-- The tile's four result stripes, each at some contents, are the four at one function. -/
theorem oStr_merge (w : Fin 32) :
    (bigSep Finset.univ fun q : Fin 4 => iprop(∃ f, oStrPts (F := F) d (strOf w q) f))
      ⊢ (iprop(∃ g, bigSep Finset.univ fun q : Fin 4 => oStrPts (F := F) d (strOf w q) g) : sProp 𝕄) := by
  refine (bigSep_exists_pi Finset.univ (fun (q : Fin 4) (f : Buf (Elt F) (oLoc d)) => oStrPts d (strOf w q) f)).trans ?_
  iintro ⟨%fs, H⟩
  -- the four contents agree with one function, each on its own stripe; the union of the stripes is held at it
  ihave H' := (pointsTo_biUnion_join Finset.univ (fun q : Fin 4 => (tStr (strOf w q)).set) fs (fs 0) (strs_disjoint w)) $$ H
  icases H' with ⟨%g, -, Hg⟩
  iexists g
  -- and the union held at one function is each stripe held at it
  ihave Hg' := (Entails.of_eq (pointsTo_biUnion (f := g) Finset.univ (fun q : Fin 4 => (tStr (strOf w q)).set) (strs_disjoint w))) $$ Hg
  iexact Hg'

/-- Four stripes at a function that is outT on each of them are the four at outT. -/
theorem oStr_done (w : Fin 32) (g : Buf (Elt F) (oLoc d))
    (h : ∀ q : Fin 4, ∀ i ∈ (tStr (strOf w q)).set, g i = outT m d i) :
    (bigSep Finset.univ fun q : Fin 4 => oStrPts (F := F) d (strOf w q) g : sProp 𝕄)
      = bigSep Finset.univ fun q : Fin 4 => oStrPts (F := F) d (strOf w q) (outT m d) := by
  exact bigSep_congr fun q _ => pointsTo_congr (h q)

/-- A function that differs from another only on one stripe of the tile is the same on the tile's other stripes. -/
theorem oStr_others (w : Fin 32) (q0 : Fin 4) (g g' : Buf (Elt F) (oLoc d)) (h2 : ∀ i ∉ (tStr (strOf w q0)).set, g' i = g i) :
    (bigSep (Finset.univ.erase q0) fun q : Fin 4 => oStrPts (F := F) d (strOf w q) g : sProp 𝕄)
      = bigSep (Finset.univ.erase q0) fun q : Fin 4 => oStrPts (F := F) d (strOf w q) g' := by
  refine bigSep_congr fun q hq => pointsTo_congr fun i hi => ?_
  -- an element of stripe q, q ≠ q0, is not in stripe q0
  have hd := strs_disjoint w q (Finset.mem_univ _) q0 (Finset.mem_univ _) (Finset.mem_erase.mp hq).1
  exact (h2 i (Finset.disjoint_left.mp hd hi)).symm

/-- Writing the stripe of outer trip `k` at outT, the stripes before it already at outT, leaves the stripes up to and
    including it at outT. -/
theorem done_step (k : Fin k0_t1_loop.trips) (g g' : Buf (Elt F) (oLoc d))
    (hg : ∀ q : Fin 4, q.val < k.val / 4 → ∀ i ∈ (tStr (strOf (widL L) q)).set, g i = outT m d i)
    (h1 : ∀ i ∈ (tStr (strOf (widL L) (strIx k))).set, g' i = outT m d i)
    (h2 : ∀ i ∉ (tStr (strOf (widL L) (strIx k))).set, g' i = g i) :
    ∀ q : Fin 4, q.val < k.val / 4 + 1 → ∀ i ∈ (tStr (strOf (widL L) q)).set, g' i = outT m d i := by
  intro q hq i hi
  by_cases e : q = strIx k
  · -- the stripe just written
    subst e; exact h1 i hi
  · -- an earlier stripe: disjoint from the one just written, so untouched
    have hv : (strIx k).val = k.val / 4 := rfl
    have hne : q.val ≠ (strIx k).val := fun h => e (Fin.ext h)
    have hlt : q.val < k.val / 4 := by omega
    have hd := strs_disjoint (widL L) q (Finset.mem_univ _) (strIx k) (Finset.mem_univ _) e
    rw [h2 i (Finset.disjoint_left.mp hd hi)]
    exact hg q hlt i hi

end Tile

end Cert.Proof.KB

end
-- ==== Proof.BodyB.lean ====
/-
  One tile's task, at a symbolic tile: from its parts of the three arrays and its own scratch it writes its stripes of
  the transposed result, outT there, and hands everything else back unchanged.

  The outer loop runs 16 trips. Before trip k the block k of the tile's table rows is in flight into slot k % 2, the
  other slot is free, the out scratch holds the transposed result at the columns of the stripe finished so far, and the
  stripes 0 .. k / 4 of the result are written. A trip fetches the index stripe (first trip of a stripe), starts block
  k + 1 into the free slot (all but the last trip), waits for block k, runs the inner loop over it, and writes the out
  scratch to the result's stripe (last trip of a stripe).
-/
import proofs.«207812_g85461259256412_cont_9to1c4b_20_21_alg».proof.Proof.InnerB
import proofs.«207812_g85461259256412_cont_9to1c4b_20_21_alg».proof.Proof.LandsB
import proofs.«207812_g85461259256412_cont_9to1c4b_20_21_alg».proof.Proof.LandsOutB
import proofs.«207812_g85461259256412_cont_9to1c4b_20_21_alg».proof.Proof.SlotsB

noncomputable section

namespace Cert.Proof.KB

open Cert.Kernel Cert.Kernel.Gen Cert.Kernel.GenP

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable [FloatOps F]

section Tile
variable (d : Dev nD) (L : grid0.Coords)

/-! ## The facts the outer loop carries -/

/-- The out scratch holds the transposed result at the columns of the stripe finished before outer trip k. -/
def PrevOK (k : Fin k0_t1_loop.trips) (fo : Buf (Elt F) ((V d (cV L) (jV L)).loc cc0_scratch2)) : Prop :=
  ∀ (j : Fin 200) (y : Fin 128), y.val < 32 * (k.val % 4) →
    fo (ix2 (n0 := 200) (n1 := 128) j y) = outT m d (ix2 (n0 := 200) (n1 := 16384) j ⟨512 * (widL L).val + 128 * (k.val / 4) + y.val, by have := widL_lt L; have := k_lt k; omega⟩)

/-- The tile's first n stripes of the transposed result are written. -/
def DoneOK (n : Nat) (g : Buf (Elt F) (oLoc d)) : Prop :=
  ∀ q : Fin 4, q.val < n → ∀ i ∈ (tStr (strOf (widL L) q)).set, g i = outT m d i

omit [FloatOps F] in
theorem IdxOK_congr {k k' : Fin k0_t1_loop.trips} (h : k.val / 4 = k'.val / 4) {fi : Buf (Elt F) ((V d (cV L) (jV L)).loc cc0_scratch1)}
    (hfi : IdxOK m d L k fi) : IdxOK m d L k' fi := by
  intro j y
  have := hfi j y
  simp only [h] at this
  exact this

omit [FloatOps F] in
theorem PrevOK_of_zero {k : Fin k0_t1_loop.trips} (h : k.val % 4 = 0) (fo : Buf (Elt F) ((V d (cV L) (jV L)).loc cc0_scratch2)) :
    PrevOK m d L k fo := by
  intro j y hy; rw [h] at hy; omega

theorem PrevOK_next {k k' : Fin k0_t1_loop.trips} (hk : k'.val = k.val + 1) (hr : k.val % 4 < 3)
    {fo : Buf (Elt F) ((V d (cV L) (jV L)).loc cc0_scratch2)} (h : OutOK m d L k 100 fo) : PrevOK m d L k' fo := by
  intro j y hy
  have h4 : k'.val / 4 = k.val / 4 := by omega
  have h5 : k'.val % 4 = k.val % 4 + 1 := by omega
  have := OutOK_hundred m d L k fo h j y (by omega)
  simp only [h4]
  exact this

/-! ## The other slot and its semaphore, spelt by parity -/

theorem oth_inb (k : Fin k0_t1_loop.trips) : ∀ a, (![1 - k.val % 2, 0, 0] : Fin 3 → Nat) a + S1x32x1000.size a ≤ S2x32x1000.size a := by
  intro a
  match a with
  | ⟨0, _⟩ => show 1 - k.val % 2 + 1 ≤ 2; omega
  | ⟨1, _⟩ => show 0 + 32 ≤ 32; omega
  | ⟨2, _⟩ => show 0 + 1000 ≤ 1000; omega
theorem oth1_inb (k : Fin k0_t1_loop.trips) : ∀ a, (![1 - k.val % 2] : Fin 1 → Nat) a + S1.size a ≤ S2.size a := by
  intro a
  match a with
  | ⟨0, _⟩ => show 1 - k.val % 2 + 1 ≤ 2; omega

theorem semVal_respell {off off' : Fin 1 → Nat} (e : off = off') (h : ∀ a, off a + S1.size a ≤ S2.size a) (h' : ∀ a, off' a + S1.size a ≤ S2.size a) :
    (semVal (V d (cV L) (jV L), SemLoc.dma (semAt off h)) 0 : sProp 𝕄) = semVal (V d (cV L) (jV L), SemLoc.dma (semAt off' h')) 0 := by
  subst e; rfl

/-- A block's flight into a slot does not depend on how the three offsets are spelt. -/
theorem flight_respell {o1 o1' : Fin 1 → Nat} (e1 : o1 = o1') (h1 : ∀ a, o1 a + S1.size a ≤ S2.size a) (h1' : ∀ a, o1' a + S1.size a ≤ S2.size a)
    {o3 o3' : Fin 3 → Nat} (e3 : o3 = o3') (h3 : ∀ a, o3 a + S1x32x1000.size a ≤ S2x32x1000.size a) (h3' : ∀ a, o3' a + S1x32x1000.size a ≤ S2x32x1000.size a)
    {o2 o2' : Fin 2 → Nat} (e2 : o2 = o2') (h2 : ∀ a, o2 a + S32x1000.size a ≤ S16384x1000.size a) (h2' : ∀ a, o2' a + S32x1000.size a ≤ S16384x1000.size a)
    (f : Buf (Elt F) ((V d (cV L) (jV L)).loc cc0_scratch0)) (f2 : Buf (Elt F) (aLoc d)) :
    (Transfers.Flight countersEmb (V d (cV L) (jV L)) (SemLoc.dma (semAt o1 h1)) (default : HIx 1) 1024000
        iprop(((slotAt o3 h3).view.loc (V d (cV L) (jV L)) ↦[(slotAt o3 h3).view.set]{fullShare} f)
          ∗ ((blkAt o2 h2).view.loc (V d (cV L) (jV L)) ↦[(blkAt o2 h2).view.set]{fullShare} f2)) : sProp 𝕄)
      = Transfers.Flight countersEmb (V d (cV L) (jV L)) (SemLoc.dma (semAt o1' h1')) (default : HIx 1) 1024000
        iprop(((slotAt o3' h3').view.loc (V d (cV L) (jV L)) ↦[(slotAt o3' h3').view.set]{fullShare} f)
          ∗ ((blkAt o2' h2').view.loc (V d (cV L) (jV L)) ↦[(blkAt o2' h2').view.set]{fullShare} f2)) := by
  subst e1 e3 e2; rfl

/-! ## The outer loop's invariant -/

/-- Before outer trip `k`. -/
def invMid (O : CellTallies nD τ sig (HIx 1)) (W : Waits sig (HIx 1)) (k : Fin k0_t1_loop.trips) : sProp 𝕄 :=
  iprop(Transfers.MayWaits (V d (cV L) (jV L)) (none : HIx 1) O
    ∗ (bigSep (Finset.univ.erase (Fin.cast trips1 k)) fun g : Fin 16 => aBlkPts m d (blkOf (widL L) g))
    ∗ (bigSep Finset.univ fun q : Fin 4 => tStrPts m d (strOf (widL L) q))
    ∗ (∃ g, (bigSep Finset.univ fun q : Fin 4 => oStrPts d (strOf (widL L) q) g) ∗ ⌜DoneOK m d L (k.val / 4) g⌝)
    ∗ (∃ frL, Transfers.Flight countersEmb (V d (cV L) (jV L)) (SemLoc.dma (semAt (k0_off8 k) (k0_off8_inb k))) (default : HIx 1) 1024000
          iprop(((slotAt (k0_off6 k) (k0_off6_inb k)).view.loc (V d (cV L) (jV L)) ↦[(slotAt (k0_off6 k) (k0_off6_inb k)).view.set]{fullShare} frL)
            ∗ ((blkAt (k0_off7 L k) (k0_off7_inb L k)).view.loc (V d (cV L) (jV L)) ↦[(blkAt (k0_off7 L k) (k0_off7_inb L k)).view.set]{fullShare} m (aLoc d)))
        ∗ ⌜SlotOK m d L k frL⌝)
    ∗ (∃ fr, (slotAt ![1 - k.val % 2, 0, 0] (oth_inb k)).view.loc (V d (cV L) (jV L)) ↦[(slotAt ![1 - k.val % 2, 0, 0] (oth_inb k)).view.set]{fullShare} fr)
    ∗ semVal (V d (cV L) (jV L), SemLoc.dma (semAt ![1 - k.val % 2] (oth1_inb k))) 0
    ∗ (∃ fi, (sI.view.loc (V d (cV L) (jV L)) ↦{fullShare} fi) ∗ ⌜k.val % 4 ≠ 0 → IdxOK m d L k fi⌝)
    ∗ (∃ fo, (sO.view.loc (V d (cV L) (jV L)) ↦{fullShare} fo) ∗ ⌜PrevOK m d L k fo⌝)
    ∗ semVal (cellI d L) 0 ∗ semVal (cellO d L) 0
    ∗ ∃ W', ⌜∀ p ∈ W', p ∈ W ∨ p.2 = none⌝ ∗ owes (V d (cV L) (jV L)) O W')

/-- After the last trip. -/
def invEnd (O : CellTallies nD τ sig (HIx 1)) (W : Waits sig (HIx 1)) : sProp 𝕄 :=
  iprop((bigSep Finset.univ fun g : Fin 16 => aBlkPts m d (blkOf (widL L) g))
    ∗ (bigSep Finset.univ fun q : Fin 4 => tStrPts m d (strOf (widL L) q))
    ∗ (∃ g, (bigSep Finset.univ fun q : Fin 4 => oStrPts d (strOf (widL L) q) g) ∗ ⌜DoneOK m d L 4 g⌝)
    ∗ (∃ f0, (slotAt ![0, 0, 0] slot0_inb).view.loc (V d (cV L) (jV L)) ↦[(slotAt ![0, 0, 0] slot0_inb).view.set]{fullShare} f0)
    ∗ (∃ f1, (slotAt ![1, 0, 0] slot1_inb).view.loc (V d (cV L) (jV L)) ↦[(slotAt ![1, 0, 0] slot1_inb).view.set]{fullShare} f1)
    ∗ semVal (cellA d L 0) 0 ∗ semVal (cellA d L 1) 0
    ∗ (∃ fi, sI.view.loc (V d (cV L) (jV L)) ↦{fullShare} fi)
    ∗ (∃ fo, sO.view.loc (V d (cV L) (jV L)) ↦{fullShare} fo)
    ∗ semVal (cellI d L) 0 ∗ semVal (cellO d L) 0
    ∗ ∃ W', ⌜∀ p ∈ W', p ∈ W ∨ p.2 = none⌝ ∗ owes (V d (cV L) (jV L)) O W')

def invOut (O : CellTallies nD τ sig (HIx 1)) (W : Waits sig (HIx 1)) (k : Nat) (_ : Unit) : sProp 𝕄 :=
  if h : k < 16 then invMid m d L O W ⟨k, h.trans_eq trips1.symm⟩ else invEnd m d L O W

theorem invOut_lt (O : CellTallies nD τ sig (HIx 1)) (W : Waits sig (HIx 1)) (k : Nat) (h : k < 16) (u : Unit) :
    invOut m d L O W k u = invMid m d L O W ⟨k, h.trans_eq trips1.symm⟩ := dif_pos h
theorem invOut_end (O : CellTallies nD τ sig (HIx 1)) (W : Waits sig (HIx 1)) (u : Unit) :
    invOut m d L O W 16 u = invEnd m d L O W := dif_neg (by decide)

theorem vec1_congr {a b : Nat} (h : a = b) : (![a] : Fin 1 → Nat) = ![b] := by rw [h]
theorem vec2_congr {a b : Nat} (h : a = b) : (![a, 0] : Fin 2 → Nat) = ![b, 0] := by rw [h]
theorem vec2'_congr {a b : Nat} (h : a = b) : (![0, a] : Fin 2 → Nat) = ![0, b] := by rw [h]
theorem vec3_congr {a b : Nat} (h : a = b) : (![a, 0, 0] : Fin 3 → Nat) = ![b, 0, 0] := by rw [h]

omit [FloatOps F] in
/-- Taking block k' out of "all but block k" and putting block k back leaves "all but block k'". -/
theorem blocks_swap {k k' : Fin 16} (h : k ≠ k') (Φ : Fin 16 → sProp 𝕄) :
    bigSep (Finset.univ.erase k') Φ = iprop(Φ k ∗ bigSep ((Finset.univ.erase k).erase k') Φ) := by
  rw [SparseCore.bigSep_erase' (Finset.mem_erase.mpr ⟨h, Finset.mem_univ k⟩), Finset.erase_right_comm]

theorem W_insert {W W' : Waits sig (HIx 1)} (hW' : ∀ p ∈ W', p ∈ W ∨ p.2 = none) (sm : SemLoc sig) :
    ∀ p ∈ insert (sm, (default : HIx 1)) W', p ∈ W ∨ p.2 = none := by
  intro p hp
  rcases Finset.mem_insert.mp hp with hp | hp
  · exact .inr (hp ▸ rfl)
  · exact hW' p hp

/-- The index scratch after the index stripe of outer trip k has landed in it. -/
abbrev idxLanded (k : Fin k0_t1_loop.trips) (h : k0_cond1 k = 1#1) (fi : Buf (Elt F) ((V d (cV L) (jV L)).loc cc0_scratch1)) :
    Buf (Elt F) ((V d (cV L) (jV L)).loc cc0_scratch1) :=
  View.write (Elt F) sI.view fi (ReadAs.same.apply (View.read (Elt F) (tV.slice (strRectI L k h) (fun _ => rfl)).view (idxT m d))) Finset.univ

/-- The transposed result after the out scratch of outer trip k has landed in its stripe. -/
abbrev outLanded (k : Fin k0_t1_loop.trips) (h : k0_cond3 k = 1#1) (g : Buf (Elt F) (oLoc d)) (fo : Buf (Elt F) ((V d (cV L) (jV L)).loc cc0_scratch2)) :
    Buf (Elt F) (oLoc d) :=
  (oV.slice (strRectO L k h) (fun _ => rfl)).view.writes (Elt F) g [⟨Rect.whole (strRectO L k h).shape, ReadAs.same.apply (View.read (Elt F) sO.view fo)⟩]

set_option maxHeartbeats 8000000 in
/-- The first trip of a stripe: the index stripe is fetched first. -/
theorem outer_step_first (hpre : PreOK m) (O : CellTallies nD τ sig (HIx 1)) (W : Waits sig (HIx 1)) (v2 : BitVec 32)
    (k k' : Fin k0_t1_loop.trips) (hk : k'.val = k.val + 1) (hr : k.val % 4 = 0) (u : Unit) :
    invMid m d L O W k
      ⊢ wp frame (wpE (defs₀ (F := F)) 𝒱₀ (V d (cV L) (jV L)) none) Set.univ
          (k0_t1_body L aV (Memref.isWhole_whole _) tV (Memref.isWhole_whole _) oV (Memref.isWhole_whole _)
            sR (Memref.isWhole_whole _) sI (Memref.isWhole_whole _) sO (Memref.isWhole_whole _) cc0_scratch3 cc0_scoped0 cc0_scoped1 v2 k u)
          (fun _ => invMid m d L O W k') := by
  have hk16 : k'.val < 16 := k_lt k'
  have hc1 : k0_cond1 k = 1#1 := (cond1_iff k).mpr hr
  have hc2 : k0_cond2 k = 1#1 := (cond2_iff k).mpr (by omega)
  have hc3 : ¬ k0_cond3 k = 1#1 := fun h => by have := (cond3_iff k).mp h; omega
  have h4 : k'.val / 4 = k.val / 4 := by omega
  have hne : Fin.cast trips1 k ≠ Fin.cast trips1 k' := fun e => by have := congrArg Fin.val e; simp only [Fin.coe_cast] at this; omega
  have e7 : k0_off7 L k' = k0_off4 L k := by rw [k0_off7_eq, k0_off4_eq, hk]; exact vec2_congr (by omega)
  have e6 : k0_off3 k = k0_off6 k' := by rw [k0_off3_eq, k0_off6_eq, hk]; exact vec3_congr (by omega)
  have e8 : k0_off5 k = k0_off8 k' := by rw [k0_off5_eq, k0_off8_eq, hk]; exact vec1_congr (by omega)
  unfold invMid k0_t1_body
  iintro ⟨#Hmw, Hblks, Ht, ⟨%g, Ho, %hg⟩, ⟨%frL, Hfl, %hfrL⟩, ⟨%fr, Hoth⟩, Hsem, ⟨%fi, Hi, -⟩, ⟨%fo, Hso, %hfo⟩, HsI, HsO, ⟨%W', %hW', HO⟩⟩
  ihave Hb := (Entails.of_eq (SparseCore.bigSep_erase' (Finset.mem_erase.mpr ⟨hne.symm, Finset.mem_univ _⟩))) $$ Hblks
  icases Hb with ⟨Hnext, Hblks⟩
  ihave Hnext := (Entails.of_eq ((pts_blk (F := F) d L k' _).symm.trans (pts_blk_respell (F := F) d L e7 (k0_off7_inb L k') (k0_off4_inb L k hc2) fullShare _))) $$ Hnext
  ihave Hoth := (Entails.of_eq (pts_slot_respell (F := F) d L (k0_off3_eq k).symm (oth_inb k) (k0_off3_inb k hc2) fullShare _)) $$ Hoth
  ihave Hsem := (Entails.of_eq (semVal_respell (F := F) d L (k0_off5_eq k).symm (oth1_inb k) (k0_off5_inb k hc2))) $$ Hsem
  have hfi' : IdxOK m d L k (idxLanded m d L k hc1 fi) := idx_lands m d L k (k0_off2 L k) (k0_off2_eq L k) (k0_off2_inb L k hc1) fi
  ihave Ht' := (Entails.of_eq (SparseCore.bigSep_erase' (Finset.mem_univ (strIx k)))) $$ Ht
  icases Ht' with ⟨Hstr, Ht⟩
  ihave Hstr := (Entails.of_eq (pts_strI (F := F) d L k hc1 _).symm) $$ Hstr
  sl_exec
  ihave Hfl_dst := (Entails.of_eq (pts_slot_respell (F := F) d L ((k0_off6_eq k).trans (k0_off10_eq k).symm) (k0_off6_inb k) (k0_off10_inb k) fullShare _)) $$ Hfl_dst
  sl_for (invIn m d L k frL (idxLanded m d L k hc1 fi)) $$ [Hfl_dst Hi Hso]
  case region =>
    intro t u'
    exact inner_step m d L hpre k _ frL _ hfrL hfi' t u'
  · unfold invIn
    isplitl [Hfl_dst]; · iexact Hfl_dst
    isplitl [Hi]; · iexact Hi
    iexists fo
    isplitl [Hso]; · iexact Hso
    ipureintro; exact OutOK_zero_of_prev m d L k fo hfo
  iintro %u' HI
  unfold invIn
  icases HI with ⟨Hslot, Hi, %fo', Hso, %hfo'⟩
  sl_exec
  rw [wp_ret]; imodintro
  isplitr; · iexact Hmw
  isplitl [Hblks Hfl_src]
  · ihave Hsrc := (Entails.of_eq (pts_blk (F := F) d L k _)) $$ Hfl_src
    iapply (Entails.of_eq (blocks_swap (F := F) hne (fun g : Fin 16 => aBlkPts m d (blkOf (widL L) g))).symm)
    isplitl [Hsrc]; · iexact Hsrc
    iexact Hblks
  isplitl [Ht Hstr]
  · ihave Hstr := (Entails.of_eq (pts_strI (F := F) d L k hc1 _)) $$ Hstr
    iapply (Entails.of_eq (SparseCore.bigSep_erase' (Finset.mem_univ (strIx k))).symm)
    isplitl [Hstr]; · iexact Hstr
    iexact Ht
  isplitl [Ho]
  · iexists g
    isplitl [Ho]; · iexact Ho
    ipureintro; rw [h4]; exact hg
  isplitl [Hsem]
  · iexists _
    isplitl [Hsem]
    · iapply (Entails.of_eq (flight_respell (F := F) d L e8 (k0_off5_inb k hc2) (k0_off8_inb k') e6 (k0_off3_inb k hc2) (k0_off6_inb k') e7.symm (k0_off4_inb L k hc2) (k0_off7_inb L k') _ _))
      iexact Hsem
    · ipureintro
      exact slot_lands m d L k' (k0_off3 k) ((k0_off3_eq k).trans (vec3_congr (by omega))) (k0_off3_inb k hc2)
        (k0_off4 L k) ((k0_off4_eq L k).trans (vec2_congr (by omega))) (k0_off4_inb L k hc2) fr
  isplitl [Hslot]
  · iexists _
    iapply (Entails.of_eq (pts_slot_respell (F := F) d L ((k0_off10_eq k).trans (vec3_congr (by omega))) (k0_off10_inb k) (oth_inb k') fullShare _))
    iexact Hslot
  isplitl [Hfl]
  · iapply (Entails.of_eq (semVal_respell (F := F) d L ((k0_off8_eq k).trans (vec1_congr (by omega))) (k0_off8_inb k) (oth1_inb k')))
    iexact Hfl
  isplitl [Hi]
  · iexists (idxLanded m d L k hc1 fi)
    isplitl [Hi]; · iexact Hi
    ipureintro; intro _; exact IdxOK_congr m d L h4.symm hfi'
  isplitl [Hso]
  · iexists fo'
    isplitl [Hso]; · iexact Hso
    ipureintro; exact PrevOK_next m d L hk (by omega) (trips2 ▸ hfo')
  isplitl [HsI]; · iexact HsI
  isplitl [HsO]; · iexact HsO
  iexists (insert (SemLoc.dma (semAt (k0_off8 k) (k0_off8_inb k)), (default : HIx 1)) (insert (SemLoc.dma cc0_scoped0.sem, (default : HIx 1)) W'))
  isplitr
  · ipureintro; exact W_insert (W_insert hW' _) _
  · iexact HO

set_option maxHeartbeats 8000000 in
/-- A trip in the middle of a stripe: the next block is started, block k is waited for and consumed. -/
theorem outer_step_mid (hpre : PreOK m) (O : CellTallies nD τ sig (HIx 1)) (W : Waits sig (HIx 1)) (v2 : BitVec 32)
    (k k' : Fin k0_t1_loop.trips) (hk : k'.val = k.val + 1) (hr : k.val % 4 = 1 ∨ k.val % 4 = 2) (u : Unit) :
    invMid m d L O W k
      ⊢ wp frame (wpE (defs₀ (F := F)) 𝒱₀ (V d (cV L) (jV L)) none) Set.univ
          (k0_t1_body L aV (Memref.isWhole_whole _) tV (Memref.isWhole_whole _) oV (Memref.isWhole_whole _)
            sR (Memref.isWhole_whole _) sI (Memref.isWhole_whole _) sO (Memref.isWhole_whole _) cc0_scratch3 cc0_scoped0 cc0_scoped1 v2 k u)
          (fun _ => invMid m d L O W k') := by
  have hk16 : k'.val < 16 := k_lt k'
  have hc1 : ¬ k0_cond1 k = 1#1 := fun h => by have := (cond1_iff k).mp h; omega
  have hc2 : k0_cond2 k = 1#1 := (cond2_iff k).mpr (by omega)
  have hc3 : ¬ k0_cond3 k = 1#1 := fun h => by have := (cond3_iff k).mp h; omega
  have h4 : k'.val / 4 = k.val / 4 := by omega
  have hne : Fin.cast trips1 k ≠ Fin.cast trips1 k' := fun e => by have := congrArg Fin.val e; simp only [Fin.coe_cast] at this; omega
  have e7 : k0_off7 L k' = k0_off4 L k := by rw [k0_off7_eq, k0_off4_eq, hk]; exact vec2_congr (by omega)
  have e6 : k0_off3 k = k0_off6 k' := by rw [k0_off3_eq, k0_off6_eq, hk]; exact vec3_congr (by omega)
  have e8 : k0_off5 k = k0_off8 k' := by rw [k0_off5_eq, k0_off8_eq, hk]; exact vec1_congr (by omega)
  unfold invMid k0_t1_body
  iintro ⟨#Hmw, Hblks, Ht, ⟨%g, Ho, %hg⟩, ⟨%frL, Hfl, %hfrL⟩, ⟨%fr, Hoth⟩, Hsem, ⟨%fi, Hi, %hfi⟩, ⟨%fo, Hso, %hfo⟩, HsI, HsO, ⟨%W', %hW', HO⟩⟩
  ihave Hb := (Entails.of_eq (SparseCore.bigSep_erase' (Finset.mem_erase.mpr ⟨hne.symm, Finset.mem_univ _⟩))) $$ Hblks
  icases Hb with ⟨Hnext, Hblks⟩
  ihave Hnext := (Entails.of_eq ((pts_blk (F := F) d L k' _).symm.trans (pts_blk_respell (F := F) d L e7 (k0_off7_inb L k') (k0_off4_inb L k hc2) fullShare _))) $$ Hnext
  ihave Hoth := (Entails.of_eq (pts_slot_respell (F := F) d L (k0_off3_eq k).symm (oth_inb k) (k0_off3_inb k hc2) fullShare _)) $$ Hoth
  ihave Hsem := (Entails.of_eq (semVal_respell (F := F) d L (k0_off5_eq k).symm (oth1_inb k) (k0_off5_inb k hc2))) $$ Hsem
  sl_exec
  ihave Hfl_dst := (Entails.of_eq (pts_slot_respell (F := F) d L ((k0_off6_eq k).trans (k0_off10_eq k).symm) (k0_off6_inb k) (k0_off10_inb k) fullShare _)) $$ Hfl_dst
  sl_for (invIn m d L k frL fi) $$ [Hfl_dst Hi Hso]
  case region =>
    intro t u'
    exact inner_step m d L hpre k _ frL fi hfrL (hfi (by omega)) t u'
  · unfold invIn
    isplitl [Hfl_dst]; · iexact Hfl_dst
    isplitl [Hi]; · iexact Hi
    iexists fo
    isplitl [Hso]; · iexact Hso
    ipureintro; exact OutOK_zero_of_prev m d L k fo hfo
  iintro %u' HI
  unfold invIn
  icases HI with ⟨Hslot, Hi, %fo', Hso, %hfo'⟩
  sl_exec
  rw [wp_ret]; imodintro
  isplitr; · iexact Hmw
  isplitl [Hblks Hfl_src]
  · ihave Hsrc := (Entails.of_eq (pts_blk (F := F) d L k _)) $$ Hfl_src
    iapply (Entails.of_eq (blocks_swap (F := F) hne (fun g : Fin 16 => aBlkPts m d (blkOf (widL L) g))).symm)
    isplitl [Hsrc]; · iexact Hsrc
    iexact Hblks
  isplitl [Ht]; · iexact Ht
  isplitl [Ho]
  · iexists g
    isplitl [Ho]; · iexact Ho
    ipureintro; rw [h4]; exact hg
  isplitl [Hsem]
  · iexists _
    isplitl [Hsem]
    · iapply (Entails.of_eq (flight_respell (F := F) d L e8 (k0_off5_inb k hc2) (k0_off8_inb k') e6 (k0_off3_inb k hc2) (k0_off6_inb k') e7.symm (k0_off4_inb L k hc2) (k0_off7_inb L k') _ _))
      iexact Hsem
    · ipureintro
      exact slot_lands m d L k' (k0_off3 k) ((k0_off3_eq k).trans (vec3_congr (by omega))) (k0_off3_inb k hc2)
        (k0_off4 L k) ((k0_off4_eq L k).trans (vec2_congr (by omega))) (k0_off4_inb L k hc2) fr
  isplitl [Hslot]
  · iexists _
    iapply (Entails.of_eq (pts_slot_respell (F := F) d L ((k0_off10_eq k).trans (vec3_congr (by omega))) (k0_off10_inb k) (oth_inb k') fullShare _))
    iexact Hslot
  isplitl [Hfl]
  · iapply (Entails.of_eq (semVal_respell (F := F) d L ((k0_off8_eq k).trans (vec1_congr (by omega))) (k0_off8_inb k) (oth1_inb k')))
    iexact Hfl
  isplitl [Hi]
  · iexists fi
    isplitl [Hi]; · iexact Hi
    ipureintro; intro _; exact IdxOK_congr m d L h4.symm (hfi (by omega))
  isplitl [Hso]
  · iexists fo'
    isplitl [Hso]; · iexact Hso
    ipureintro; exact PrevOK_next m d L hk (by omega) (trips2 ▸ hfo')
  isplitl [HsI]; · iexact HsI
  isplitl [HsO]; · iexact HsO
  iexists (insert (SemLoc.dma (semAt (k0_off8 k) (k0_off8_inb k)), (default : HIx 1)) W')
  isplitr
  · ipureintro; exact W_insert hW' _
  · iexact HO

set_option maxHeartbeats 8000000 in
/-- The last trip of a stripe (not the last of all): the out scratch, full, is written to the result's stripe. -/
theorem outer_step_last (hpre : PreOK m) (O : CellTallies nD τ sig (HIx 1)) (W : Waits sig (HIx 1)) (v2 : BitVec 32)
    (k k' : Fin k0_t1_loop.trips) (hk : k'.val = k.val + 1) (hr : k.val % 4 = 3) (u : Unit) :
    invMid m d L O W k
      ⊢ wp frame (wpE (defs₀ (F := F)) 𝒱₀ (V d (cV L) (jV L)) none) Set.univ
          (k0_t1_body L aV (Memref.isWhole_whole _) tV (Memref.isWhole_whole _) oV (Memref.isWhole_whole _)
            sR (Memref.isWhole_whole _) sI (Memref.isWhole_whole _) sO (Memref.isWhole_whole _) cc0_scratch3 cc0_scoped0 cc0_scoped1 v2 k u)
          (fun _ => invMid m d L O W k') := by
  have hk16 : k'.val < 16 := k_lt k'
  have hc1 : ¬ k0_cond1 k = 1#1 := fun h => by have := (cond1_iff k).mp h; omega
  have hc2 : k0_cond2 k = 1#1 := (cond2_iff k).mpr (by omega)
  have hc3 : k0_cond3 k = 1#1 := (cond3_iff k).mpr hr
  have h4 : k'.val / 4 = k.val / 4 + 1 := by omega
  have hne : Fin.cast trips1 k ≠ Fin.cast trips1 k' := fun e => by have := congrArg Fin.val e; simp only [Fin.coe_cast] at this; omega
  have e7 : k0_off7 L k' = k0_off4 L k := by rw [k0_off7_eq, k0_off4_eq, hk]; exact vec2_congr (by omega)
  have e6 : k0_off3 k = k0_off6 k' := by rw [k0_off3_eq, k0_off6_eq, hk]; exact vec3_congr (by omega)
  have e8 : k0_off5 k = k0_off8 k' := by rw [k0_off5_eq, k0_off8_eq, hk]; exact vec1_congr (by omega)
  unfold invMid k0_t1_body
  iintro ⟨#Hmw, Hblks, Ht, ⟨%g, Ho, %hg⟩, ⟨%frL, Hfl, %hfrL⟩, ⟨%fr, Hoth⟩, Hsem, ⟨%fi, Hi, %hfi⟩, ⟨%fo, Hso, %hfo⟩, HsI, HsO, ⟨%W', %hW', HO⟩⟩
  ihave Hb := (Entails.of_eq (SparseCore.bigSep_erase' (Finset.mem_erase.mpr ⟨hne.symm, Finset.mem_univ _⟩))) $$ Hblks
  icases Hb with ⟨Hnext, Hblks⟩
  ihave Hnext := (Entails.of_eq ((pts_blk (F := F) d L k' _).symm.trans (pts_blk_respell (F := F) d L e7 (k0_off7_inb L k') (k0_off4_inb L k hc2) fullShare _))) $$ Hnext
  ihave Hoth := (Entails.of_eq (pts_slot_respell (F := F) d L (k0_off3_eq k).symm (oth_inb k) (k0_off3_inb k hc2) fullShare _)) $$ Hoth
  ihave Hsem := (Entails.of_eq (semVal_respell (F := F) d L (k0_off5_eq k).symm (oth1_inb k) (k0_off5_inb k hc2))) $$ Hsem
  sl_exec
  ihave Hfl_dst := (Entails.of_eq (pts_slot_respell (F := F) d L ((k0_off6_eq k).trans (k0_off10_eq k).symm) (k0_off6_inb k) (k0_off10_inb k) fullShare _)) $$ Hfl_dst
  sl_for (invIn m d L k frL fi) $$ [Hfl_dst Hi Hso]
  case region =>
    intro t u'
    exact inner_step m d L hpre k _ frL fi hfrL (hfi (by omega)) t u'
  · unfold invIn
    isplitl [Hfl_dst]; · iexact Hfl_dst
    isplitl [Hi]; · iexact Hi
    iexists fo
    isplitl [Hso]; · iexact Hso
    ipureintro; exact OutOK_zero_of_prev m d L k fo hfo
  iintro %u' HI
  unfold invIn
  icases HI with ⟨Hslot, Hi, %fo', Hso, %hfo'⟩
  have hfull : ∀ (j : Fin 200) (y : Fin 128), fo' (ix2 (n0 := 200) (n1 := 128) j y)
      = outT m d (ix2 (n0 := 200) (n1 := 16384) j ⟨512 * (widL L).val + 128 * (k.val / 4) + y.val, by have := widL_lt L; have := k_lt k; omega⟩) :=
    fun j y => OutOK_hundred m d L k fo' (trips2 ▸ hfo') j y (by have := y.isLt; omega)
  have hl := out_lands m d L k (k0_off15 L k) (k0_off15_eq L k) (k0_off15_inb L k hc3) fo' g hfull
  ihave Ho' := (Entails.of_eq (SparseCore.bigSep_erase' (Finset.mem_univ (strIx k)))) $$ Ho
  icases Ho' with ⟨Hstr, Ho⟩
  ihave Hstr := (Entails.of_eq (pts_strO (F := F) d L k hc3 _).symm) $$ Hstr
  sl_exec
  rw [wp_ret]; imodintro
  isplitr; · iexact Hmw
  isplitl [Hblks Hfl_src]
  · ihave Hsrc := (Entails.of_eq (pts_blk (F := F) d L k _)) $$ Hfl_src
    iapply (Entails.of_eq (blocks_swap (F := F) hne (fun g : Fin 16 => aBlkPts m d (blkOf (widL L) g))).symm)
    isplitl [Hsrc]; · iexact Hsrc
    iexact Hblks
  isplitl [Ht]; · iexact Ht
  isplitl [Ho Hstr]
  · iexists (outLanded d L k hc3 g fo')
    isplitl [Ho Hstr]
    · ihave Hstr := (Entails.of_eq (pts_strO (F := F) d L k hc3 _)) $$ Hstr
      iapply (Entails.of_eq (SparseCore.bigSep_erase' (Finset.mem_univ (strIx k))).symm)
      isplitl [Hstr]; · iexact Hstr
      iapply (Entails.of_eq (oStr_others (F := F) d (widL L) (strIx k) g _ hl.2))
      iexact Ho
    · ipureintro; rw [h4]; exact done_step m d L k g _ hg hl.1 hl.2
  isplitl [Hsem]
  · iexists _
    isplitl [Hsem]
    · iapply (Entails.of_eq (flight_respell (F := F) d L e8 (k0_off5_inb k hc2) (k0_off8_inb k') e6 (k0_off3_inb k hc2) (k0_off6_inb k') e7.symm (k0_off4_inb L k hc2) (k0_off7_inb L k') _ _))
      iexact Hsem
    · ipureintro
      exact slot_lands m d L k' (k0_off3 k) ((k0_off3_eq k).trans (vec3_congr (by omega))) (k0_off3_inb k hc2)
        (k0_off4 L k) ((k0_off4_eq L k).trans (vec2_congr (by omega))) (k0_off4_inb L k hc2) fr
  isplitl [Hslot]
  · iexists _
    iapply (Entails.of_eq (pts_slot_respell (F := F) d L ((k0_off10_eq k).trans (vec3_congr (by omega))) (k0_off10_inb k) (oth_inb k') fullShare _))
    iexact Hslot
  isplitl [Hfl]
  · iapply (Entails.of_eq (semVal_respell (F := F) d L ((k0_off8_eq k).trans (vec1_congr (by omega))) (k0_off8_inb k) (oth1_inb k')))
    iexact Hfl
  isplitl [Hi]
  · iexists fi
    isplitl [Hi]; · iexact Hi
    ipureintro; intro h0; omega
  isplitl [Hso]
  · iexists fo'
    isplitl [Hso]; · iexact Hso
    ipureintro; exact PrevOK_of_zero m d L (by omega) fo'
  isplitl [HsI]; · iexact HsI
  isplitl [HsO]; · iexact HsO
  iexists (insert (SemLoc.dma cc0_scoped1.sem, (default : HIx 1)) (insert (SemLoc.dma (semAt (k0_off8 k) (k0_off8_inb k)), (default : HIx 1)) W'))
  isplitr
  · ipureintro; exact W_insert (W_insert hW' _) _
  · iexact HO

theorem one_inb : ∀ a, (![1] : Fin 1 → Nat) a + S1.size a ≤ S2.size a := by decide
/-- The two slot semaphores are the DMA pool's first two. -/
theorem semAt_zero : semAt ![0] inb_S2_S1_0 = dsem 0 := by decide
theorem semAt_one : semAt ![1] one_inb = dsem 1 := by decide

set_option maxHeartbeats 8000000 in
/-- The last trip of all: no block is started; afterwards nothing is in flight. -/
theorem outer_step_end (hpre : PreOK m) (O : CellTallies nD τ sig (HIx 1)) (W : Waits sig (HIx 1)) (v2 : BitVec 32)
    (k : Fin k0_t1_loop.trips) (hk : k.val = 15) (u : Unit) :
    invMid m d L O W k
      ⊢ wp frame (wpE (defs₀ (F := F)) 𝒱₀ (V d (cV L) (jV L)) none) Set.univ
          (k0_t1_body L aV (Memref.isWhole_whole _) tV (Memref.isWhole_whole _) oV (Memref.isWhole_whole _)
            sR (Memref.isWhole_whole _) sI (Memref.isWhole_whole _) sO (Memref.isWhole_whole _) cc0_scratch3 cc0_scoped0 cc0_scoped1 v2 k u)
          (fun _ => invEnd m d L O W) := by
  have hc1 : ¬ k0_cond1 k = 1#1 := fun h => by have := (cond1_iff k).mp h; omega
  have hc2 : ¬ k0_cond2 k = 1#1 := fun h => by have := (cond2_iff k).mp h; omega
  have hc3 : k0_cond3 k = 1#1 := (cond3_iff k).mpr (by omega)
  have h4 : k.val / 4 + 1 = 4 := by omega
  unfold invMid invEnd k0_t1_body
  iintro ⟨#Hmw, Hblks, Ht, ⟨%g, Ho, %hg⟩, ⟨%frL, Hfl, %hfrL⟩, ⟨%fr, Hoth⟩, Hsem, ⟨%fi, Hi, %hfi⟩, ⟨%fo, Hso, %hfo⟩, HsI, HsO, ⟨%W', %hW', HO⟩⟩
  sl_exec
  ihave Hfl_dst := (Entails.of_eq (pts_slot_respell (F := F) d L ((k0_off6_eq k).trans (k0_off10_eq k).symm) (k0_off6_inb k) (k0_off10_inb k) fullShare _)) $$ Hfl_dst
  sl_for (invIn m d L k frL fi) $$ [Hfl_dst Hi Hso]
  case region =>
    intro t u'
    exact inner_step m d L hpre k _ frL fi hfrL (hfi (by omega)) t u'
  · unfold invIn
    isplitl [Hfl_dst]; · iexact Hfl_dst
    isplitl [Hi]; · iexact Hi
    iexists fo
    isplitl [Hso]; · iexact Hso
    ipureintro; exact OutOK_zero_of_prev m d L k fo hfo
  iintro %u' HI
  unfold invIn
  icases HI with ⟨Hslot, Hi, %fo', Hso, %hfo'⟩
  have hfull : ∀ (j : Fin 200) (y : Fin 128), fo' (ix2 (n0 := 200) (n1 := 128) j y)
      = outT m d (ix2 (n0 := 200) (n1 := 16384) j ⟨512 * (widL L).val + 128 * (k.val / 4) + y.val, by have := widL_lt L; have := k_lt k; omega⟩) :=
    fun j y => OutOK_hundred m d L k fo' (trips2 ▸ hfo') j y (by have := y.isLt; omega)
  have hl := out_lands m d L k (k0_off15 L k) (k0_off15_eq L k) (k0_off15_inb L k hc3) fo' g hfull
  ihave Ho' := (Entails.of_eq (SparseCore.bigSep_erase' (Finset.mem_univ (strIx k)))) $$ Ho
  icases Ho' with ⟨Hstr, Ho⟩
  ihave Hstr := (Entails.of_eq (pts_strO (F := F) d L k hc3 _).symm) $$ Hstr
  sl_exec
  rw [wp_ret]; imodintro
  isplitl [Hblks Hfl_src]
  · ihave Hsrc := (Entails.of_eq (pts_blk (F := F) d L k _)) $$ Hfl_src
    iapply (Entails.of_eq (SparseCore.bigSep_erase' (Finset.mem_univ (Fin.cast trips1 k))).symm)
    isplitl [Hsrc]; · iexact Hsrc
    iexact Hblks
  isplitl [Ht]; · iexact Ht
  isplitl [Ho Hstr]
  · iexists (outLanded d L k hc3 g fo')
    isplitl [Ho Hstr]
    · ihave Hstr := (Entails.of_eq (pts_strO (F := F) d L k hc3 _)) $$ Hstr
      iapply (Entails.of_eq (SparseCore.bigSep_erase' (Finset.mem_univ (strIx k))).symm)
      isplitl [Hstr]; · iexact Hstr
      iapply (Entails.of_eq (oStr_others (F := F) d (widL L) (strIx k) g _ hl.2))
      iexact Ho
    · ipureintro; rw [← h4]; exact done_step m d L k g _ hg hl.1 hl.2
  isplitl [Hoth]
  · iexists fr
    iapply (Entails.of_eq (pts_slot_respell (F := F) d L (vec3_congr (by omega : 1 - k.val % 2 = 0)) (oth_inb k) slot0_inb fullShare _))
    iexact Hoth
  isplitl [Hslot]
  · iexists frL
    iapply (Entails.of_eq (pts_slot_respell (F := F) d L ((k0_off10_eq k).trans (vec3_congr (by omega : k.val % 2 = 1))) (k0_off10_inb k) slot1_inb fullShare _))
    iexact Hslot
  isplitl [Hsem]
  · iapply (Entails.of_eq ((semVal_respell (F := F) d L (vec1_congr (by omega : 1 - k.val % 2 = 0)) (oth1_inb k) inb_S2_S1_0).trans
      (congrArg (fun s => (semVal (V d (cV L) (jV L), SemLoc.dma s) 0 : sProp 𝕄)) semAt_zero)))
    iexact Hsem
  isplitl [Hfl]
  · iapply (Entails.of_eq ((semVal_respell (F := F) d L ((k0_off8_eq k).trans (vec1_congr (by omega : k.val % 2 = 1))) (k0_off8_inb k) one_inb).trans
      (congrArg (fun s => (semVal (V d (cV L) (jV L), SemLoc.dma s) 0 : sProp 𝕄)) semAt_one)))
    iexact Hfl
  isplitl [Hi]; · iexists fi; iexact Hi
  isplitl [Hso]; · iexists fo'; iexact Hso
  isplitl [HsI]; · iexact HsI
  isplitl [HsO]; · iexact HsO
  iexists (insert (SemLoc.dma cc0_scoped1.sem, (default : HIx 1)) (insert (SemLoc.dma (semAt (k0_off8 k) (k0_off8_inb k)), (default : HIx 1)) W'))
  isplitr
  · ipureintro; exact W_insert (W_insert hW' _) _
  · iexact HO

set_option maxHeartbeats 4000000 in
/-- One outer trip, whichever it is. -/
theorem outer_step (hpre : PreOK m) (O : CellTallies nD τ sig (HIx 1)) (W : Waits sig (HIx 1)) (v2 : BitVec 32)
    (k : Fin k0_t1_loop.trips) (u : Unit) :
    invOut m d L O W k.val u
      ⊢ wp frame (wpE (defs₀ (F := F)) 𝒱₀ (V d (cV L) (jV L)) none) Set.univ
          (k0_t1_body L aV (Memref.isWhole_whole _) tV (Memref.isWhole_whole _) oV (Memref.isWhole_whole _)
            sR (Memref.isWhole_whole _) sI (Memref.isWhole_whole _) sO (Memref.isWhole_whole _) cc0_scratch3 cc0_scoped0 cc0_scoped1 v2 k u)
          (invOut m d L O W (k.val + 1)) := by
  have hk := k_lt k
  rw [invOut_lt m d L O W k.val hk u]
  by_cases h15 : k.val = 15
  · have e : invOut m d L O W (k.val + 1) = fun _ => invEnd m d L O W := by
      funext u'; rw [h15]; exact invOut_end m d L O W u'
    rw [e]
    exact outer_step_end m d L hpre O W v2 k h15 u
  · have hk' : k.val + 1 < 16 := by omega
    have e : invOut m d L O W (k.val + 1) = fun _ => invMid m d L O W ⟨k.val + 1, hk'.trans_eq trips1.symm⟩ := by
      funext u'; exact invOut_lt m d L O W (k.val + 1) hk' u'
    rw [e]
    rcases (by omega : k.val % 4 = 0 ∨ (k.val % 4 = 1 ∨ k.val % 4 = 2) ∨ k.val % 4 = 3) with h | h | h
    · exact outer_step_first m d L hpre O W v2 k ⟨k.val + 1, hk'.trans_eq trips1.symm⟩ rfl h u
    · exact outer_step_mid m d L hpre O W v2 k ⟨k.val + 1, hk'.trans_eq trips1.symm⟩ rfl h u
    · exact outer_step_last m d L hpre O W v2 k ⟨k.val + 1, hk'.trans_eq trips1.symm⟩ rfl h u

/-- Outer trip 0. -/
def trip0 : Fin k0_t1_loop.trips := ⟨0, by rw [trips1]; decide⟩

set_option maxHeartbeats 8000000 in
/-- The task of the tile at `L` on device `d`. -/
theorem tile_body (hF : (K (F := F)).Facts) (hpre : PreOK m)
    (O : CellTallies nD τ sig (HIx 1)) (W : Waits sig (HIx 1)) (hO : ∀ g, O g none = 0) :
    iprop(levAts (K (F := F)).L (K (F := F)).lev ∗ emp ∗ goPts m d (widL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L aV (Memref.isWhole_whole _) tV (Memref.isWhole_whole _) oV (Memref.isWhole_whole _)
            sR (Memref.isWhole_whole _) sI (Memref.isWhole_whole _) sO (Memref.isWhole_whole _) cc0_scratch3 cc0_scoped0 cc0_scoped1)
          fun _ => iprop(tdPts m d (widL L) ∗ scopedBufs (V d (cV L) (jV L)) ∗ scopedSems0 (V d (cV L) (jV L))
            ∗ ∃ W', ⌜∀ p ∈ W', p ∈ W ∨ p.2 = none⌝ ∗ owes (V d (cV L) (jV L)) O W') := by
  have e8 : (![0] : Fin 1 → Nat) = k0_off8 trip0 := (k0_off8_eq trip0).symm
  have e6 : (![0, 0, 0] : Fin 3 → Nat) = k0_off6 trip0 := (k0_off6_eq trip0).symm
  have e7 : k0_off1 L = k0_off7 L trip0 := (k0_off1_eq L).trans ((k0_off7_eq L trip0).trans (vec2_congr (show 1024 * (L 1).val + 512 * (L 0).val + 32 * 0 = 1024 * (L 1).val + 512 * (L 0).val by omega))).symm
  simp only [cc0_k_eq_skeleton]; unfold cc0_k_skel
  rw [(K (F := F)).scopedBufs_V hF d (cV L) (jV L), SparseCore.Cfg.scopedSems0_V (Val := Elt F) d (cV L) (jV L), ownSems0_V, ownBufs_V]
  iintro ⟨#Hlv, -, ⟨Ha, Ht, Ho⟩, ⟨⟨%fr, Hr⟩, ⟨%fi, Hi⟩, ⟨%fo, Hso⟩, Hbufs⟩, ⟨Hs0, Hs1, HsI, HsO, Hsems⟩, HO⟩
  ihave Hmw := ((K (F := F)).mayWaits_none (thr := V d (cV L) (jV L)) hO) $$ Hlv
  ihave Hr' := (Entails.of_eq (sR_split (F := F) d L fr)) $$ Hr
  icases Hr' with ⟨Hr0, Hr1⟩
  ihave Hi := (Entails.of_eq (pts_sI (F := F) d L _).symm) $$ Hi
  ihave Hso := (Entails.of_eq (pts_sO (F := F) d L _).symm) $$ Hso
  ihave Ho' := (oStr_merge (F := F) d (widL L)) $$ Ho
  icases Ho' with ⟨%g, Ho⟩
  ihave Ha' := (Entails.of_eq (SparseCore.bigSep_erase' (Finset.mem_univ (0 : Fin 16)))) $$ Ha
  icases Ha' with ⟨Ha0, Hblks⟩
  ihave Ha0 := (Entails.of_eq (pts_blk0 (F := F) d L _).symm) $$ Ha0
  sl_exec
  sl_for (invOut m d L O W) $$ [Hblks Ht Ho Hs0 Hr1 Hs1 Hi Hso HsI HsO HO]
  case region =>
    intro k u
    exact outer_step m d L hpre O W _ k u
  · rw [invOut_lt m d L O W 0 (by decide)]
    unfold invMid
    isplitr; · iexact Hmw
    isplitl [Hblks]; · iexact Hblks
    isplitl [Ht]; · iexact Ht
    isplitl [Ho]
    · iexists g
      isplitl [Ho]; · iexact Ho
      ipureintro; intro q hq; exact absurd hq (Nat.not_lt_zero _)
    isplitl [Hs0]
    · iexists _
      isplitl [Hs0]
      · iapply (Entails.of_eq (flight_respell (F := F) d L e8 inb_S2_S1_0 (k0_off8_inb trip0) e6 inb_S2x32x1000_S1x32x1000_0_0_0 (k0_off6_inb trip0) e7 (k0_off1_inb L) (k0_off7_inb L trip0) _ _))
        iexact Hs0
      · ipureintro
        exact slot_lands m d L trip0 ![0, 0, 0] rfl inb_S2x32x1000_S1x32x1000_0_0_0 (k0_off1 L)
          ((k0_off1_eq L).trans (vec2_congr (show 1024 * (L 1).val + 512 * (L 0).val = 1024 * (L 1).val + 512 * (L 0).val + 32 * 0 by omega))) (k0_off1_inb L) fr
    isplitl [Hr1]; · iexists fr; iexact Hr1
    isplitl [Hs1]
    · iapply (Entails.of_eq (congrArg (fun s => (semVal (V d (cV L) (jV L), SemLoc.dma s) 0 : sProp 𝕄)) semAt_one.symm))
      iexact Hs1
    isplitl [Hi]
    · iexists fi
      isplitl [Hi]; · iexact Hi
      ipureintro; intro h; exact absurd rfl h
    isplitl [Hso]
    · iexists fo
      isplitl [Hso]; · iexact Hso
      ipureintro; exact PrevOK_of_zero m d L rfl fo
    isplitl [HsI]; · iexact HsI
    isplitl [HsO]; · iexact HsO
    iexists W
    isplitr
    · ipureintro; exact fun p hp => .inl hp
    · iexact HO
  iintro %u HI
  ihave HI := (Entails.of_eq (show invOut m d L O W k0_t1_loop.trips u = invEnd m d L O W from by rw [trips1]; exact invOut_end m d L O W u)) $$ HI
  unfold invEnd
  icases HI with ⟨Hblks, Ht, ⟨%g', Ho, %hg'⟩, ⟨%f0, Hr0⟩, ⟨%f1, Hr1⟩, Hs0, Hs1, ⟨%fi', Hi⟩, ⟨%fo', Hso⟩, HsI, HsO, ⟨%W', %hW', HO⟩⟩
  sl_step
  isplitl [Hblks Ht Ho]
  · isplitl [Hblks]; · iexact Hblks
    isplitl [Ht]; · iexact Ht
    iapply (Entails.of_eq (oStr_done (F := F) m d (widL L) g' (fun q => hg' q q.isLt)))
    iexact Ho
  isplitl [Hr0 Hr1 Hi Hso Hbufs]
  · isplitl [Hr0 Hr1]
    · iapply (slots_join (F := F) d L f0 f1)
      isplitl [Hr0]; · iexact Hr0
      iexact Hr1
    isplitl [Hi]
    · iexists fi'
      iapply (Entails.of_eq (pts_sI (F := F) d L _))
      iexact Hi
    isplitl [Hso]
    · iexists fo'
      iapply (Entails.of_eq (pts_sO (F := F) d L _))
      iexact Hso
    iexact Hbufs
  isplitl [Hs0 Hs1 HsI HsO Hsems]
  · isplitl [Hs0]; · iexact Hs0
    isplitl [Hs1]; · iexact Hs1
    isplitl [HsI]; · iexact HsI
    isplitl [HsO]; · iexact HsO
    iexact Hsems
  iexists W'
  isplitr
  · ipureintro; exact hW'
  · iexact HO

end Tile

end Cert.Proof.KB

end
-- ==== Proof.LaunchB.lean ====
/-
  The launch: the tile's task as the launch theorem's obligation, how a SparseCore's operands split among its sixteen
  tiles, @main on the TensorCore (a transpose of the index array, the call, a transpose of what the call left), and
  the run of the whole program with its result named.
-/
import proofs.«207812_g85461259256412_cont_9to1c4b_20_21_alg».proof.Proof.BodyB

noncomputable section

namespace Cert.Proof.KB

open Cert.Kernel Cert.Kernel.Gen Cert.Kernel.GenP

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## Numbering the blocks and the stripes by tile

  Block b of the table's 512 is block g = b mod 16 of tile w = b div 16, and tile w = 2 s + c is vector subcore
  s = w div 2 of SparseCore c = w mod 2: (c, s, g) ↦ 16 (2 s + c) + g is a bijection onto the 512 blocks. Likewise
  (c, s, q) ↦ 4 (2 s + c) + q onto the 128 stripes. -/

def tileBlk (p : (Fin 2 × Fin 16) × Fin 16) : Fin 512 := blkOf (wid p.1.1 p.1.2) p.2
def tileStr (p : (Fin 2 × Fin 16) × Fin 4) : Fin 128 := strOf (wid p.1.1 p.1.2) p.2

theorem tileBlk_injective : Function.Injective tileBlk := by
  rintro ⟨⟨c, s⟩, g⟩ ⟨⟨c', s'⟩, g'⟩ h
  have h' : 16 * (2 * s.val + c.val) + g.val = 16 * (2 * s'.val + c'.val) + g'.val := congrArg Fin.val h
  have hc : c = c' := Fin.ext (by omega)
  have hs : s = s' := Fin.ext (by omega)
  have hg : g = g' := Fin.ext (by omega)
  rw [hc, hs, hg]

theorem tileStr_injective : Function.Injective tileStr := by
  rintro ⟨⟨c, s⟩, q⟩ ⟨⟨c', s'⟩, q'⟩ h
  have h' : 4 * (2 * s.val + c.val) + q.val = 4 * (2 * s'.val + c'.val) + q'.val := congrArg Fin.val h
  have hc : c = c' := Fin.ext (by omega)
  have hs : s = s' := Fin.ext (by omega)
  have hq : q = q' := Fin.ext (by omega)
  rw [hc, hs, hq]

/-- An injection between two sets of 512 elements reaches every one. -/
theorem tileBlk_image : Finset.univ.image tileBlk = Finset.univ :=
  Finset.eq_univ_of_card _ (by
    rw [Finset.card_image_of_injective _ tileBlk_injective, Finset.card_univ, Fintype.card_prod, Fintype.card_prod,
      Fintype.card_fin, Fintype.card_fin, Fintype.card_fin])

theorem tileStr_image : Finset.univ.image tileStr = Finset.univ :=
  Finset.eq_univ_of_card _ (by
    rw [Finset.card_image_of_injective _ tileStr_injective, Finset.card_univ, Fintype.card_prod, Fintype.card_prod,
      Fintype.card_fin, Fintype.card_fin, Fintype.card_fin, Fintype.card_fin])

section Reindex

variable {M : Type} [URA M]

/-- A product over the 512 blocks, tile by tile. -/
theorem bigSep_blocks (Φ : Fin 512 → sProp M) :
    bigSep Finset.univ Φ = bigSep Finset.univ fun c : Fin 2 => bigSep Finset.univ fun s : Fin 16 =>
      bigSep Finset.univ fun g : Fin 16 => Φ (blkOf (wid c s) g) := by
  rw [← tileBlk_image, SparseCore.bigSep_image_of_injOn tileBlk_injective.injOn, ← Finset.univ_product_univ,
    SparseCore.bigSep_product, ← Finset.univ_product_univ, SparseCore.bigSep_product]
  rfl

/-- A product over the 128 stripes, tile by tile. -/
theorem bigSep_stripes (Φ : Fin 128 → sProp M) :
    bigSep Finset.univ Φ = bigSep Finset.univ fun c : Fin 2 => bigSep Finset.univ fun s : Fin 16 =>
      bigSep Finset.univ fun q : Fin 4 => Φ (strOf (wid c s) q) := by
  rw [← tileStr_image, SparseCore.bigSep_image_of_injOn tileStr_injective.injOn, ← Finset.univ_product_univ,
    SparseCore.bigSep_product, ← Finset.univ_product_univ, SparseCore.bigSep_product]
  rfl

end Reindex

/-! ## An array whole is its parts -/

theorem aBlk_disjoint : ∀ i ∈ (Finset.univ : Finset (Fin 512)), ∀ j ∈ (Finset.univ : Finset (Fin 512)), i ≠ j →
    Disjoint (aBlk i).set (aBlk j).set :=
  fun _ _ _ _ h => Rect.part_disjoint hdivA h
theorem tStr_disjoint : ∀ i ∈ (Finset.univ : Finset (Fin 128)), ∀ j ∈ (Finset.univ : Finset (Fin 128)), i ≠ j →
    Disjoint (tStr i).set (tStr j).set :=
  fun _ _ _ _ h => Rect.part_disjoint hdivT h
theorem aBlk_cover : (Finset.univ : Finset (Fin 512)).biUnion (fun b => (aBlk b).set) = Finset.univ := Rect.biUnion_part hdivA
theorem tStr_cover : (Finset.univ : Finset (Fin 128)).biUnion (fun q => (tStr q).set) = Finset.univ := Rect.biUnion_part hdivT

/-- The table whole is its 512 blocks. -/
theorem aPts_blocks (d : Dev nD) (f : Buf (Elt F) (aLoc d)) :
    (aLoc d ↦{fullShare} f : sProp 𝕄) = bigSep Finset.univ fun b : Fin 512 => aLoc d ↦[(aBlk b).set]{fullShare} f := by
  rw [← pointsTo_biUnion Finset.univ (ℓ := aLoc d) (fun b : Fin 512 => (aBlk b).set) aBlk_disjoint, aBlk_cover]
/-- The transposed index array whole is its 128 stripes. -/
theorem tPts_stripes (d : Dev nD) (f : Buf (Elt F) (tLoc d)) :
    (tLoc d ↦{fullShare} f : sProp 𝕄) = bigSep Finset.univ fun q : Fin 128 => tLoc d ↦[(tStr q).set]{fullShare} f := by
  rw [← pointsTo_biUnion Finset.univ (ℓ := tLoc d) (fun q : Fin 128 => (tStr q).set) tStr_disjoint, tStr_cover]
/-- The transposed result whole is its 128 stripes. -/
theorem oPts_stripes (d : Dev nD) (f : Buf (Elt F) (oLoc d)) :
    (oLoc d ↦{fullShare} f : sProp 𝕄) = bigSep Finset.univ fun q : Fin 128 => oLoc d ↦[(tStr q).set]{fullShare} f := by
  rw [← pointsTo_biUnion Finset.univ (ℓ := oLoc d) (fun q : Fin 128 => (tStr q).set) tStr_disjoint, tStr_cover]

/-! ## What the call takes for the two SparseCores, and what it hands back -/

/-- The launch theorem numbers call 0's SparseCores and tiles by types that are `Fin 2` and `Fin 16`. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

variable [FloatOps F]

theorem P_st (d : Dev nD) (c : Fin ((K (F := F)).nCore 0)) :
    (P m).st 0 d c = bigSep Finset.univ fun s : Fin 16 => goPts m d (wid (Fin.cast nCore_zero c) s) := rfl
theorem P_dn (d : Dev nD) (c : Fin ((K (F := F)).nCore 0)) :
    (P m).dn 0 d c = bigSep Finset.univ fun s : Fin 16 => tdPts m d (wid (Fin.cast nCore_zero c) s) := rfl
theorem P_go (d : Dev nD) (c : Fin ((K (F := F)).nCore 0)) (i : Fin ((K (F := F)).nSub 0)) :
    (P m).go 0 d c i = goPts m d (wid (Fin.cast nCore_zero c) (Fin.cast nSub_zero i)) := rfl
theorem P_td (d : Dev nD) (c : Fin ((K (F := F)).nCore 0)) (i : Fin ((K (F := F)).nSub 0)) :
    (P m).td 0 d c i = tdPts m d (wid (Fin.cast nCore_zero c) (Fin.cast nSub_zero i)) := rfl

/-- All the tiles' parts together, whatever the tiles hold of the transposed result's stripes: the table and the
    transposed index array whole, beside the 128 stripes of the transposed result. -/
theorem parts_all (d : Dev nD) (Ψ : Fin 128 → sProp 𝕄) :
    (bigSep Finset.univ fun c : Fin 2 => bigSep Finset.univ fun s : Fin 16 =>
        iprop((bigSep Finset.univ fun g : Fin 16 => aBlkPts m d (blkOf (wid c s) g))
          ∗ (bigSep Finset.univ fun q : Fin 4 => tStrPts m d (strOf (wid c s) q))
          ∗ bigSep Finset.univ fun q : Fin 4 => Ψ (strOf (wid c s) q)))
      = iprop(aPts m d ∗ tPts m d ∗ bigSep Finset.univ Ψ) := by
  unfold aPts tPts
  rw [aPts_blocks, tPts_stripes, bigSep_blocks, bigSep_stripes, bigSep_stripes Ψ]
  simp only [bigSep_sep']

/-- All the tiles' results together: the three arrays whole, the transposed result at `outT`. -/
theorem td_all (d : Dev nD) :
    (bigSep Finset.univ fun c : Fin 2 => bigSep Finset.univ fun s : Fin 16 => tdPts m d (wid c s))
      = iprop(aPts m d ∗ tPts m d ∗ oPts d (outT m d)) :=
  (parts_all m d fun q => oStrPts d q (outT m d)).trans (by unfold oPts; rw [oPts_stripes])

/-- All the tiles' operands together, from the three arrays whole. -/
theorem go_all (d : Dev nD) (f : Buf (Elt F) (oLoc d)) :
    iprop(aPts m d ∗ tPts m d ∗ oPts d f)
      ⊢ bigSep Finset.univ fun c : Fin 2 => bigSep Finset.univ fun s : Fin 16 => goPts m d (wid c s) := by
  rw [show (bigSep Finset.univ fun c : Fin 2 => bigSep Finset.univ fun s : Fin 16 => goPts m d (wid c s))
      = iprop(aPts m d ∗ tPts m d ∗ bigSep Finset.univ fun q : Fin 128 => iprop(∃ f, oStrPts d q f))
    from parts_all m d fun q => iprop(∃ f, oStrPts d q f)]
  refine sep_mono_right (sep_mono_right ?_)
  unfold oPts; rw [oPts_stripes]
  refine bigSep_mono fun q _ => ?_
  show (oLoc d ↦[(tStr q).set]{fullShare} f : sProp 𝕄) ⊢ iprop(∃ f', oStrPts d q f')
  iintro H; iexists f; iexact H

theorem st0_of (d : Dev nD) (f : Buf (Elt F) (oLoc d)) :
    iprop(aPts m d ∗ tPts m d ∗ oPts d f) ⊢ bigSep Finset.univ fun c : Fin ((K (F := F)).nCore 0) => (P m).st 0 d c := by
  simp only [P_st]
  rw [bigSep_cores (F := F) (fun c => bigSep Finset.univ fun s : Fin 16 => goPts m d (wid c s))]
  exact go_all m d f
theorem dn0_eq (d : Dev nD) :
    (bigSep Finset.univ fun c : Fin ((K (F := F)).nCore 0) => (P m).dn 0 d c) = iprop(aPts m d ∗ tPts m d ∗ oPts d (outT m d)) := by
  simp only [P_dn]
  rw [bigSep_cores (F := F) (fun c => bigSep Finset.univ fun s : Fin 16 => tdPts m d (wid c s))]
  exact td_all m d

/-! ## The launch theorem's obligations -/

/-- The grid coordinates of the tile of SparseCore `c`, vector subcore `s`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s)
          aV (Memref.isWhole_whole _) tV (Memref.isWhole_whole _) oV (Memref.isWhole_whole _)
          sR (Memref.isWhole_whole _) sI (Memref.isWhole_whole _) sO (Memref.isWhole_whole _) cc0_scratch3 cc0_scoped0 cc0_scoped1) ⟨⟩ c s := rfl

omit [FloatOps F] in
/-- A wait the task leaves recorded, if not one it found, is below every handshake: it is then also "below or of call `q`". -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The tile's task is the launch theorem's obligation at call 0. -/
theorem tileObl (hF : (K (F := F)).Facts) (hpre : PreOK m) : (K (F := F)).TileObl (D (F := F)) 𝒱 (P m) v₀ 0 := by
  intro d c i O W hO _ _
  -- the kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  -- the tile's number, as the call counts it and as the grid does
  have hw : wid (Fin.cast nCore_zero c) (Fin.cast nSub_zero i)
      = widL (coordsV ⟨((K (F := F)).core 0 c).val, hc.1⟩ ⟨((K (F := F)).sub 0 i).val, hc.2⟩) := by
    unfold widL wid; exact Fin.ext rfl
  rw [P_go, P_td, hw]
  exact (tile_body m d (coordsV ⟨_, hc.1⟩ ⟨_, hc.2⟩) hF hpre O W hO).trans (wp_mono frame _ _ fun _ => obl_post)

/-- A SparseCore's operands are its sixteen tiles' parts, and the results gather back. -/
theorem vecSplit : (K (F := F)).VecSplit' (P m) 0 := by
  intro d c
  show (bigSep Finset.univ fun s : Fin 16 => goPts m d (wid (Fin.cast nCore_zero c) s)) ⊢ |={Set.univ}=> iprop(
      (bigSep Finset.univ fun i : Fin ((K (F := F)).nSub 0) => goPts m d (wid (Fin.cast nCore_zero c) (Fin.cast nSub_zero i)))
      ∗ ((bigSep Finset.univ fun i : Fin ((K (F := F)).nSub 0) => tdPts m d (wid (Fin.cast nCore_zero c) (Fin.cast nSub_zero i)))
          -∗ bigSep Finset.univ fun s : Fin 16 => tdPts m d (wid (Fin.cast nCore_zero c) s)))
  rw [bigSep_tasks (F := F) (fun s => goPts m d (wid (Fin.cast nCore_zero c) s)),
    bigSep_tasks (F := F) (fun s => tdPts m d (wid (Fin.cast nCore_zero c) s))]
  iintro H; imodintro
  isplitl [H]; · iexact H
  iintro H; iexact H

/-! ## The launch element -/

/-- The certificate's launch element: the handshakes' rounds; nothing of the kernel's own. -/
def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev a' : DevRef τ sig := Proc.devRef .tc (main_arg0 : Ref sig .tc)
abbrev b' : DevRef τ sig := Proc.devRef .tc (main_arg1 : Ref sig .tc)
abbrev t' : DevRef τ sig := Proc.devRef .tc (main_v0 : Ref sig .tc)
abbrev o' : DevRef τ sig := Proc.devRef .tc (main_v1 : Ref sig .tc)
abbrev r' : DevRef τ sig := Proc.devRef .tc (main_v2 : Ref sig .tc)

/-- The TensorCore's arrays, all unscoped: the table, the index array, its transpose, the transposed result, the result. -/
abbrev S5 : Finset (DevRef τ sig) := {a', b', t', o', r'}

/-- @main's two host operations: the transpose of the index array and the transpose of what the call left. -/
abbrev opT : HloOp τ sig (Elt F) :=
  StableHlo.unary main_arg1 main_v0 ((transpose S200x16384 [1, 0] · transposes_S16384x200_S200x16384_1_0) : (⟨S16384x200, .i32⟩ : BufTy).Contents (Elt F) → (⟨S200x16384, .i32⟩ : BufTy).Contents (Elt F))
abbrev opR : HloOp τ sig (Elt F) :=
  StableHlo.unary main_v1 main_v2 ((transpose S16384x200 [1, 0] · transposes_S200x16384_S16384x200_1_0) : (⟨S200x16384, .f32⟩ : BufTy).Contents (Elt F) → (⟨S16384x200, .f32⟩ : BufTy).Contents (Elt F))

omit [FloatOps F] in
theorem held_S5 (d : Dev nD) (W : Valuation τ sig (Elt F)) :
    (held (T d) S5 W : sProp 𝕄) = iprop((aLoc d ↦{fullShare} W a') ∗ (bLoc d ↦{fullShare} W b') ∗ (tLoc d ↦{fullShare} W t')
      ∗ (oLoc d ↦{fullShare} W o') ∗ rLoc d ↦{fullShare} W r') := by
  unfold held S5
  rw [SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (bLoc d ↦{fullShare} W main_arg1) ∗ (tLoc d ↦{fullShare} W main_v0)
      ∗ (oLoc d ↦{fullShare} W main_v1) ∗ rLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The launch valuation; and the one the call leaves: the index array transposed, the transposed result written. -/
def V0 (d : Dev nD) : Valuation τ sig (Elt F) := fun b => m (d, b)
def V2 (d : Dev nD) : Valuation τ sig (Elt F) := Function.update (Function.update (V0 m d) t' (idxT m d)) o' (outT m d)

omit [FloatOps F] in
theorem unscoped_held (d : Dev nD) : (unscopedBufs d (fun b => m ((SparseCore.T d).loc b)) : sProp 𝕄) = held (T d) S5 (V0 m d) := by
  rw [unscopedBufs_eq, held_S5]; rfl

theorem hT : (opT (F := F)).bufs ⊆ S5 := show ({b', t'} : Finset (DevRef τ sig)) ⊆ S5 by decide
theorem hR : (opR (F := F)).bufs ⊆ S5 := show ({o', r'} : Finset (DevRef τ sig)) ⊆ S5 by decide

/-- After the first transpose: the transposed index array at `idxT`, every other array as launched. -/
theorem opT_a (d : Dev nD) : (opT (F := F)).result (V0 m d) a' = m (aLoc d) := StableHlo.unary_result_ne _ _ _ _ _ _ (by decide)
theorem opT_b (d : Dev nD) : (opT (F := F)).result (V0 m d) b' = m (bLoc d) := StableHlo.unary_result_ne _ _ _ _ _ _ (by decide)
theorem opT_t (d : Dev nD) : (opT (F := F)).result (V0 m d) t' = idxT m d := StableHlo.unary_result _ _ _ _ _ _
theorem opT_o (d : Dev nD) : (opT (F := F)).result (V0 m d) o' = m (oLoc d) := StableHlo.unary_result_ne _ _ _ _ _ _ (by decide)
theorem opT_r (d : Dev nD) : (opT (F := F)).result (V0 m d) r' = m (rLoc d) := StableHlo.unary_result_ne _ _ _ _ _ _ (by decide)

theorem V2_a (d : Dev nD) : V2 m d a' = m (aLoc d) :=
  (Function.update_of_ne (show a' ≠ o' by decide) _ _).trans (Function.update_of_ne (show a' ≠ t' by decide) _ _)
theorem V2_b (d : Dev nD) : V2 m d b' = m (bLoc d) :=
  (Function.update_of_ne (show b' ≠ o' by decide) _ _).trans (Function.update_of_ne (show b' ≠ t' by decide) _ _)
theorem V2_t (d : Dev nD) : V2 m d t' = idxT m d :=
  (Function.update_of_ne (show t' ≠ o' by decide) _ _).trans (Function.update_self _ _ _)
theorem V2_o (d : Dev nD) : V2 m d o' = outT m d := Function.update_self _ _ _
theorem V2_r (d : Dev nD) : V2 m d r' = m (rLoc d) :=
  (Function.update_of_ne (show r' ≠ o' by decide) _ _).trans (Function.update_of_ne (show r' ≠ t' by decide) _ _)

/-- After the second transpose: the result at the row-wise pick, the table and the index array as launched. -/
theorem opR_a (d : Dev nD) : (opR (F := F)).result (V2 m d) a' = m (aLoc d) :=
  (StableHlo.unary_result_ne _ _ _ _ _ _ (by decide)).trans (V2_a m d)
theorem opR_b (d : Dev nD) : (opR (F := F)).result (V2 m d) b' = m (bLoc d) :=
  (StableHlo.unary_result_ne _ _ _ _ _ _ (by decide)).trans (V2_b m d)
theorem opR_r (d : Dev nD) : (opR (F := F)).result (V2 m d) r' = outR m d :=
  (StableHlo.unary_result _ _ _ _ _ _).trans ((congrArg (fun x => transpose S16384x200 [1, 0] x transposes_S200x16384_S16384x200_1_0) (V2_o m d)).trans (outR_eq m d))

/-- What @main leaves the claim: the two arguments at their launch contents and the result at the row-wise pick. -/
abbrev FIN (d : Dev nD) : sProp 𝕄 := iprop(aPts m d ∗ (bLoc d ↦{fullShare} m (bLoc d)) ∗ (rLoc d ↦{fullShare} outR m d))

/-- @main on device `d`'s TensorCore: the index array transposed; the call, from the table, the transposed index array
    and the transposed result dealt to the 32 tiles, back with the transposed result written; that transposed. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the index array transposed
  iapply (wp_hlo_within 𝒱 (SparseCore.T d) none Set.univ (op := opT) (S := S5) hT (V := V0 m d)) $$ [Hb Hheld]
  · isplitl [Hb]; · iexact Hb
    iexact Hheld
  iintro ⟨Hb, Hheld⟩
  ihave Hh := (Entails.of_eq (held_S5 (F := F) d _)) $$ Hheld
  rw [opT_a, opT_b, opT_t, opT_o, opT_r]
  icases Hh with ⟨Ha, Hi, Ht, Ho, Hr⟩
  rw [wp_ret]; imodintro
  -- the call: every tile its blocks of the table and its stripes of the two transposed arrays
  iapply ((K (F := F)).wp_run (D (F := F)) 𝒱 (EH := EH) (P := P m) κ d 0) $$ [Hst Ha Hi Ht Ho Hr Hb]
  isplitr; · iexact Hctx
  isplitl [Hst]; · iexact Hst
  isplitl [Ha Ht Ho]
  · iapply (st0_of m d (m (oLoc d)))
    isplitl [Ha]; · iexact Ha
    isplitl [Ht]; · iexact Ht
    iexact Ho
  iintro ⟨Hst, Hdn⟩
  ihave Hdn' := (Entails.of_eq (dn0_eq m d)) $$ Hdn
  icases Hdn' with ⟨Ha, Ht, Ho⟩
  -- what the call left, transposed
  iapply (wp_hlo_within 𝒱 (SparseCore.T d) none Set.univ (op := opR) (S := S5) hR (V := V2 m d)) $$ [Hb Ha Hi Ht Ho Hr]
  · isplitl [Hb]; · iexact Hb
    rw [held_S5, V2_a, V2_b, V2_t, V2_o, V2_r]
    isplitl [Ha]; · iexact Ha
    isplitl [Hi]; · iexact Hi
    isplitl [Ht]; · iexact Ht
    isplitl [Ho]; · iexact Ho
    iexact Hr
  iintro ⟨Hb, Hheld⟩
  ihave Hh := (Entails.of_eq (held_S5 (F := F) d _)) $$ Hheld
  rw [opR_a, opR_b, opR_r]
  icases Hh with ⟨Ha, Hi, -, -, Hr⟩
  rw [wp_ret]; imodintro; imodintro
  isplitl [Hst]; · iexact Hst
  isplitl [Ha]; · iexact Ha
  isplitl [Hi]; · iexact Hi
  iexact Hr

/-! ## The final memory -/

def fq (d : Dev nD) (s' : Phys nD τ sig (Elt F)) : Prop :=
  s'.mem.mem (rLoc d) = outR m d ∧ s'.mem.mem (aLoc d) = m (aLoc d) ∧ s'.mem.mem (bLoc d) = m (bLoc d)

theorem hfin (d : Dev nD) (s' : Phys nD τ sig (Elt F)) : iprop(FIN m d ∗ SI s') ⊢ (⌜fq m d s'⌝ : sProp 𝕄) := by
  iintro ⟨⟨Ha, Hb, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := bLoc d) (I := Finset.univ) (q := fullShare) (f := m (bLoc d)))) $$ [HSI Hb]
  · isplitl [HSI] <;> iassumption
  icases H with ⟨%h2, HSI, -⟩
  ihave H := (SI_pointsTo_agree (st := s') (ℓ := rLoc d) (I := Finset.univ) (q := fullShare) (f := outR m d)) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-- The run's post: on every device the result is the pick of the arguments, and the arguments are unchanged. -/
def QC : PUnit × MemSt nD τ sig (Elt F) → Prop := fun r => ∀ c : Dev nD,
  r.2.mem (rLoc c) = outR m c ∧ r.2.mem (aLoc c) = m (aLoc c) ∧ r.2.mem (bLoc c) = m (bLoc c)

/-- Every weakly fair execution of the program's threads terminates, nothing faulting, with the result named. -/
theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KB

end
-- ==== Proof.RefValue.lean ====
/-
  The reference's run read as the row-wise pick: under "every index word is below 1000" the reference's result array
  is `Cert.Spec.pick` of its two argument arrays, and the arguments end unchanged.

  The reference wraps a negative index word by adding 1000, reshapes the index array to [16384, 200, 1], tests every
  wrapped word for 0 ≤ w ≤ 999 (and-reduced over the unit axis), gathers row r of the table at the clamped word for
  each (r, j), and keeps the gathered value where the test holds. For words below 1000 nothing is wrapped, the test
  holds everywhere, the clamp is the identity, and entry (r, j) is the table's entry (r, w) for the word w at (r, j).
-/
import proofs.«207812_g85461259256412_cont_9to1c4b_20_21_alg».proof.Defs
import proofs.«207812_g85461259256412_cont_9to1c4b_20_21_alg».proof.Proof.Gen.ReferenceIdeal
import proofs.«207812_g85461259256412_cont_9to1c4b_20_21_alg».proof.Proof.RefRun
import proofs.«207812_g85461259256412_cont_9to1c4b_20_21_alg».proof.Proof.RefRead
import proofs.«207812_g85461259256412_cont_9to1c4b_20_21_alg».proof.Proof.Spec
import Idealize.ShloMosaic.Lib.Affine
import Idealize.ShloMosaic.Lib.ValueIdx
import Idealize.ShloMosaic.Lib.Pipeline.Value
import Idealize.ShloMosaic.Lib.StableHlo.Run
import Idealize.ShloMosaic.PureOps.Reduce

noncomputable section

namespace Cert.Proof.RefValue

open Idealize.ShloMosaic Idealize.SL.Sem Cert.ReferenceIdeal
open Idealize.ShloMosaic.ValueIdx

/-! ## Words below 1000

A 32-bit word whose natural value is below 1000 has its top bit clear, so it reads the same signed and unsigned. -/

/-- Such a word's signed value is its natural value. -/
theorem toInt_of_lt {w : BitVec 32} (h : w.toNat < 1000) : w.toInt = (w.toNat : Int) := by
  rw [BitVec.toInt_eq_toNat_cond, if_pos (by omega)]

/-- It is not negative: the signed test "w < 0" answers 0. -/
theorem slt_zero {w : BitVec 32} (h : w.toNat < 1000) : IntOp.cmpi .slt w 0#32 = 0#1 := by
  refine eq_zero_of_ne_one fun e => ?_
  have e' := IntOp.cmpi_slt.1 e
  rw [toInt_of_lt h, show (0#32 : BitVec 32).toInt = 0 from by decide] at e'
  omega

/-- The signed test "w ≥ 0" answers 1. -/
theorem sge_zero {w : BitVec 32} (h : w.toNat < 1000) : IntOp.cmpi .sge w 0#32 = 1#1 := by
  rw [IntOp.cmpi_sge, toInt_of_lt h, show (0#32 : BitVec 32).toInt = 0 from by decide]
  omega

/-- The signed test "w ≤ 999" answers 1. -/
theorem sle_999 {w : BitVec 32} (h : w.toNat < 1000) : IntOp.cmpi .sle w 999#32 = 1#1 := by
  rw [IntOp.cmpi_sle, toInt_of_lt h, show (999#32 : BitVec 32).toInt = 999 from by decide]
  omega

/-- Read signed and clamped into [0, 999], it is its natural value. -/
theorem clamp_of_lt {w : BitVec 32} (h : w.toNat < 1000) : min w.toInt.toNat 999 = w.toNat := by
  rw [toInt_of_lt h, Int.toNat_natCast]
  omega

/-! ## An and-reduction of ones -/

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    have ha : IntOp.andi 1#1 (f a) = 1#1 := by rw [h a (List.mem_cons_self ..)]; decide
    show l.foldl (fun r n => IntOp.andi r (f n)) (IntOp.andi 1#1 (f a)) = 1#1
    rw [ha]
    exact foldl_andi_one f l fun n hn => h n (List.mem_cons_of_mem _ hn)

/-- A reduction by `and` from the constant 1 of an array of ones is 1 at every result index, whatever the axes. -/
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_one x _ fun i _ => hx i

/-! ## The batched gather at an index

Operand axis 0 is the batching axis, paired with axis 0 of the start indices; operand axis 1 is the one the start
index names, and it is collapsed; slices are 1 × 1 and the result has no offset axis. So result entry (r, c) reads
operand row r at the start index word at (r, c, 0), read signed and clamped into [0, 999]. -/

theorem gather_apply {α : Type} {w : Nat} [Facts₀] (x : S16384x1000.Idx → α) (idx : IVec S16384x200x1 w)
    (r : Fin 16384) (c : Fin 200) (k : Fin 1000)
    (hk : k.val = min (idx (ix3 r c ⟨0, Nat.one_pos⟩)).toInt.toNat 999) :
    Host.gather gather_S16384x1000_S16384x200x1_S16384x200_n_1_0_0_1_2_11 x idx (ix2 r c) = x (ix2 r k) := by
  unfold Host.gather
  congr 1
  funext a
  refine Fin.ext ?_
  match a with
  | ⟨0, _⟩ =>
    -- the batching axis: no start component, no offset; the batch coordinate is the result's row
    show GatherDims.start gather_S16384x1000_S16384x200x1_S16384x200_n_1_0_0_1_2_11 (ix2 r c) idx 0
        + GatherDims.batchCoord gather_S16384x1000_S16384x200x1_S16384x200_n_1_0_0_1_2_11 (ix2 r c) 0
        + GatherDims.offCoord gather_S16384x1000_S16384x200x1_S16384x200_n_1_0_0_1_2_11 (ix2 r c) 0 = r.val
    have hb : (0 : Fin S16384x1000.rank) ∈ (gather_S16384x1000_S16384x200x1_S16384x200_n_1_0_0_1_2_11).operandBatchingDims :=
      List.mem_singleton.mpr rfl
    rw [GatherDims.start_batching _ _ _ _ hb,
      GatherDims.offCoord_eq_zero _ _ _ (fun h => ((GatherDims.mem_sKept _ _).mp h).2 hb), Nat.zero_add, Nat.add_zero]
    unfold GatherDims.batchCoord
    rw [dif_pos hb]
    rfl
  | ⟨1, _⟩ =>
    -- the indexed axis: collapsed and not batching, so only the clamped start component remains
    show GatherDims.start gather_S16384x1000_S16384x200x1_S16384x200_n_1_0_0_1_2_11 (ix2 r c) idx 1
        + GatherDims.batchCoord gather_S16384x1000_S16384x200x1_S16384x200_n_1_0_0_1_2_11 (ix2 r c) 1
        + GatherDims.offCoord gather_S16384x1000_S16384x200x1_S16384x200_n_1_0_0_1_2_11 (ix2 r c) 1
      = k.val
    rw [hk]
    have hm : (1 : Fin S16384x1000.rank) ∈ (gather_S16384x1000_S16384x200x1_S16384x200_n_1_0_0_1_2_11).startIndexMap :=
      List.mem_singleton.mpr rfl
    have hc : (1 : Fin S16384x1000.rank) ∈ (gather_S16384x1000_S16384x200x1_S16384x200_n_1_0_0_1_2_11).collapsedSliceDims :=
      List.mem_singleton.mpr rfl
    rw [GatherDims.batchCoord_eq_zero _ _ _ (fun h => GatherDims.sim_disjoint _ _ hm h),
      GatherDims.offCoord_eq_zero _ _ _ (fun h => ((GatherDims.mem_sKept _ _).mp h).1 hc)]
    simp only [Nat.add_zero]
    unfold GatherDims.start
    rw [dif_pos hm]
    -- the start index is read at the result's two coordinates and 0 on the index vector's axis
    have hsi : (gather_S16384x1000_S16384x200x1_S16384x200_n_1_0_0_1_2_11).siIdx (ix2 r c)
        ⟨List.idxOf (1 : Fin S16384x1000.rank) (gather_S16384x1000_S16384x200x1_S16384x200_n_1_0_0_1_2_11).startIndexMap,
          List.idxOf_lt_length_iff.2 hm⟩ = ix3 r c ⟨0, Nat.one_pos⟩ := by
      funext b; refine Fin.ext ?_
      match b with
      | ⟨0, _⟩ => rfl
      | ⟨1, _⟩ => rfl
      | ⟨2, _⟩ => rfl
    rw [hsi]
    rfl

/-! ## The reference's stages at an index, for index words below 1000 -/

section Stages

variable {F : FTy → Type} [FloatOps F]

open Cert.ReferenceIdeal.ReadP

/-- No word is negative, so the wrap "w < 0 ? w + 1000 : w" returns the word. -/
theorem wrap_apply (x1 : (⟨S16384x200, .i32⟩ : BufTy).Contents (Elt F)) (i : S16384x200.Idx) (h : (x1 i).toNat < 1000) :
    val_main_call0_v4 (F := F) x1 i = x1 i := by
  rw [val_main_call0_v4_apply, val_main_call0_v1_apply, val_main_call0_v0_apply, val_main_call0_c_apply, slt_zero h,
    select_zero]

/-- The reshaped wrapped array at an index is an index word. -/
theorem reshaped_apply (x1 : (⟨S16384x200, .i32⟩ : BufTy).Contents (Elt F)) (h : ∀ i, (x1 i).toNat < 1000)
    (i' : S16384x200x1.Idx) : val_main_call0_v5 (F := F) x1 i' = x1 (idx_main_call0_v5 i') := by
  rw [val_main_call0_v5_apply, wrap_apply x1 _ (h _)]

/-- Position (r, j, 0) of the reshaped array is position (r, j) of the index array. -/
theorem idx_reshape (r : Fin 16384) (j : Fin 200) : idx_main_call0_v5 (ix3 r j ⟨0, Nat.one_pos⟩) = ix2 r j := by
  funext a
  refine Fin.ext ?_
  match a with
  | ⟨0, _⟩ => show ((r.val * 200 + j.val) * 1 + 0) / 200 = r.val; have := j.isLt; omega
  | ⟨1, _⟩ => show ((r.val * 200 + j.val) * 1 + 0) % 200 = j.val; have := j.isLt; omega

/-- The range test 0 ≤ w ≤ 999 holds at every position of the reshaped array. -/
theorem range_all (x1 : (⟨S16384x200, .i32⟩ : BufTy).Contents (Elt F)) (h : ∀ i, (x1 i).toNat < 1000)
    (i' : S16384x200x1.Idx) : val_main_call0_v11 (F := F) x1 i' = 1#1 := by
  rw [val_main_call0_v11_apply, val_main_call0_v7_apply, val_main_call0_v10_apply, val_main_call0_v6_apply,
    val_main_call0_c_2_apply, val_main_call0_v9_apply, val_main_call0_v8_apply, val_main_call0_c_1_apply,
    reshaped_apply x1 h i', sge_zero (h _), sle_999 (h _)]
  exact IntOp.andi_eq_one.2 ⟨rfl, rfl⟩

/-- So its and-reduction over the unit axis, the mask, is 1 everywhere. -/
theorem mask_one (x1 : (⟨S16384x200, .i32⟩ : BufTy).Contents (Elt F)) (h : ∀ i, (x1 i).toNat < 1000)
    (i : S16384x200.Idx) : val_main_call0_v12 (F := F) x1 i = 1#1 := by
  unfold val_main_call0_v12
  exact reduce_andi_one _ _ _ _ _ rfl (range_all x1 h)

/-- The reference's result is the row-wise pick: the mask keeps the gathered value, and the gather reads row r of the
    table at the word at (r, j), which the clamp leaves alone. -/
theorem ref_eq_pick (x0 : (⟨S16384x1000, .f32⟩ : BufTy).Contents (Elt F)) (x1 : (⟨S16384x200, .i32⟩ : BufTy).Contents (Elt F))
    (h : ∀ i, (x1 i).toNat < 1000) : val_main_v0 (F := F) x0 x1 = Cert.Spec.pick x0 x1 := by
  funext i
  obtain ⟨r, j, rfl⟩ : ∃ (r : Fin 16384) (j : Fin 200), i = ix2 r j := ⟨i 0, i 1, eq_ix2 i⟩
  rw [val_main_v0_apply, mask_one x1 h, select_one]
  unfold val_main_call0_v13
  -- the column the word names is the clamped start index: the reshaped array at (r, j, 0) is the word at (r, j)
  have hk : (Cert.Spec.col (x1 (ix2 r j))).val
      = min ((val_main_call0_v5 (F := F) x1) (ix3 r j ⟨0, Nat.one_pos⟩)).toInt.toNat 999 := by
    rw [reshaped_apply x1 h, idx_reshape, clamp_of_lt (h _), Cert.Spec.col_val_of_lt (h _)]
  rw [gather_apply _ _ r j _ hk]
  rfl

end Stages

/-- The reference's run: every weakly fair execution ends with the result at the pick of the arguments, the arguments unchanged. -/
theorem run [hR : Cert.ReferenceIdeal.Facts]
    (m : (ℓ : Loc nD τ sig) → Buf (Elt Ideal) ℓ) (ρ : Dev nD → PrngReg)
    (hidx : ∀ (c : Dev nD) i, (m ((c.tc : Thread nD τ).loc main_arg1) i).toNat < 1000) :
    θ_run (Cert.ReferenceIdeal.defs (F := Ideal)) (onTc (τ := τ) (Cert.ReferenceIdeal.main (F := Ideal))) ⟨m, fun _ => 0, ρ⟩ (fun r => ∀ c : Dev nD,
      r.2.mem ((c.tc : Thread nD τ).loc main_v0) = Cert.Spec.pick (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run Cert.ReferenceIdeal.defs _ _).mono
    (fun _ h c => ⟨(h c).1.trans ((Cert.ReferenceIdeal.ReadP.val_main_v0_eq _ _).trans (ref_eq_pick _ _ (hidx c))), (h c).2⟩)
    (Cert.ReferenceIdeal.ValueP.run (F := Ideal) m ρ)

end Cert.Proof.RefValue

end
-- ==== Proof.PreDecode.lean ====
/-
  The precondition read as a fact about the index words: every word of the index array, read as a natural number, is
  below 1000 (as a signed word it lies between 0 and 999). Stated once for every float instance.
-/
import proofs.«207812_g85461259256412_cont_9to1c4b_20_21_alg».proof.Pre_input_domain
import proofs.«207812_g85461259256412_cont_9to1c4b_20_21_alg».proof.Proof.Gen.Pre_input_domain
import Idealize.ShloMosaic.Lib.ReduceAll
import Idealize.ShloMosaic.Lib.StableHlo.Predicate
import Idealize.ShloMosaic.Lib.ValueIdx

noncomputable section

namespace Cert.Proof.PreDecode

open Idealize.ShloMosaic

/-- The scalar shape has one index. -/
instance : Subsingleton Cert.Pre_input_domain.S_.Idx := ⟨fun _ _ => funext fun d => d.elim0⟩

/-- A 32-bit word that lies between 0 and 999 as a signed number is below 1000 as a natural number: a word whose top
    bit is set reads negative, so the lower bound clears the top bit and the signed value is the unsigned one. -/
theorem toNat_lt_of_signed_range {w : BitVec 32} (h0 : (0#32 : BitVec 32).toInt ≤ w.toInt)
    (h1 : w.toInt ≤ (999#32 : BitVec 32).toInt) : w.toNat < 1000 := by
  have e0 : (0#32 : BitVec 32).toInt = 0 := by decide
  have e1 : (999#32 : BitVec 32).toInt = 999 := by decide
  rw [e0] at h0
  rw [e1] at h1
  rw [BitVec.toInt_eq_toNat_cond] at h0 h1
  have hw : w.toNat < 2 ^ 32 := w.isLt
  split at h0 <;> omega

/-- If the printed precondition is all ones, every index word is below 1000. -/
theorem idx_lt {F : FTy → Type} [FloatOps F] [hP : Cert.Pre_input_domain.Facts]
    (a0 : FVec F Cert.Pre_input_domain.S16384x1000 .f32) (a1 : IVec Cert.Pre_input_domain.S16384x200 32)
    (h : Cert.Pre_input_domain.fn (F := F) a0 a1 = (fun _ => 1#1)) :
    ∀ i, (a1 i).toNat < 1000 := by
  intro i
  -- the result word, at the scalar shape's one index
  have h0 := congrFun h ValueIdx.ix0
  dsimp only [Cert.Pre_input_domain.fn] at h0
  -- the conjunction's second half is the reduce-and over the index array's range test
  have hall := (IntOp.andi_eq_one.1 h0).2
  -- an and-reduction over every axis that came out 1 met a 1 at every index
  have hi := Host.reduce_andi_all _ _ _ _ _ hall i
  -- the range test at i: 0 ≤ w signed and w ≤ 999 signed (each bound a broadcast scalar constant)
  obtain ⟨hge, hle⟩ := IntOp.andi_eq_one.1 hi
  exact toNat_lt_of_signed_range (IntOp.cmpi_sge.1 hge) (IntOp.cmpi_sle.1 hle)

end Cert.Proof.PreDecode

end
-- ==== Proof.lean ====
/-
  The certificate's claim, assembled.

  The kernel gathers, for every row r of a 16384 × 1000 table and every column j of a 16384 × 200 index array, the
  table's entry (r, idx[r, j]): the row-wise pick `Cert.Spec.pick`. Both printed programs of the kernel — read at
  the bit-exact floats and at the ideal ones — run from any launch memory whose index words are all below 1000 and
  end with that pick of their two arguments in the result, the arguments unchanged; the reference's run ends with the
  same pick of its own arguments. The printed precondition, all ones, says exactly that every index word is below
  1000. The three frames are those runs with the result dropped; the idealization rewrote no operation; and at the
  ideal floats, from memories that agree on the arguments, the pick is the common result of kernel and reference.
-/
import proofs.«207812_g85461259256412_cont_9to1c4b_20_21_alg».proof.Defs
import proofs.«207812_g85461259256412_cont_9to1c4b_20_21_alg».proof.Proof.Gen.Kernel
import proofs.«207812_g85461259256412_cont_9to1c4b_20_21_alg».proof.Proof.Gen.KernelIdeal
import proofs.«207812_g85461259256412_cont_9to1c4b_20_21_alg».proof.Proof.Gen.ReferenceIdeal
import proofs.«207812_g85461259256412_cont_9to1c4b_20_21_alg».proof.Proof.Gen.Pre_input_domain
import proofs.«207812_g85461259256412_cont_9to1c4b_20_21_alg».proof.Proof.Launch
import proofs.«207812_g85461259256412_cont_9to1c4b_20_21_alg».proof.Proof.LaunchB
import proofs.«207812_g85461259256412_cont_9to1c4b_20_21_alg».proof.Proof.RefValue
import proofs.«207812_g85461259256412_cont_9to1c4b_20_21_alg».proof.Proof.PreDecode

noncomputable section

namespace Cert.Proof

open Idealize.ShloMosaic Idealize.SL.Sem

/-- What each run asks of the launch memory, from the printed precondition: every index word is below 1000. -/
theorem preOK_Kernel (m : (ℓ : Loc Cert.Kernel.nD Cert.Kernel.τ Cert.Kernel.sig) → Buf (Elt Bits) ℓ) (hpre : Cert.Pre_Kernel m) :
    KB.PreOK m := fun d i => PreDecode.idx_lt _ _ (hpre d) i
theorem preOK_KernelIdeal (m : (ℓ : Loc Cert.KernelIdeal.nD Cert.KernelIdeal.τ Cert.KernelIdeal.sig) → Buf (Elt Ideal) ℓ)
    (hpre : Cert.Pre_KernelIdeal m) : KI.PreOK m := fun d i => PreDecode.idx_lt _ _ (hpre d) i
theorem idx_ReferenceIdeal (m : (ℓ : Loc Cert.ReferenceIdeal.nD Cert.ReferenceIdeal.τ Cert.ReferenceIdeal.sig) → Buf (Elt Ideal) ℓ)
    (hpre : Cert.Pre_ReferenceIdeal m) (c : Dev Cert.ReferenceIdeal.nD) i :
    (m ((c.tc : Thread Cert.ReferenceIdeal.nD Cert.ReferenceIdeal.τ).loc Cert.ReferenceIdeal.main_arg1) i).toNat < 1000 :=
  PreDecode.idx_lt _ _ (hpre c) i

/-- The kernel as printed runs, its arguments unchanged: its run to the pick, the result dropped. -/
theorem frame_Kernel : Cert.frame_Kernel := by
  intro m ρ hpre
  exact (θ_run Cert.Kernel.defs _ _).mono (fun _ h c => ⟨(h c).2.1, (h c).2.2⟩) (KB.run_main (F := Bits) m ρ (preOK_Kernel m hpre))

/-- The same of its idealization. -/
theorem frame_KernelIdeal : Cert.frame_KernelIdeal := by
  intro m ρ hpre
  exact (θ_run Cert.KernelIdeal.defs _ _).mono (fun _ h c => ⟨(h c).2.1, (h c).2.2⟩) (KI.run_main (F := Ideal) m ρ (preOK_KernelIdeal m hpre))

/-- The reference runs, its arguments unchanged: its run to the pick, the result dropped. -/
theorem frame_ReferenceIdeal : Cert.frame_ReferenceIdeal := by
  intro m ρ hpre
  exact (θ_run Cert.ReferenceIdeal.defs _ _).mono (fun _ h c => ⟨(h c).2.1, (h c).2.2⟩) (RefValue.run m ρ (idx_ReferenceIdeal m hpre))

/-- At the ideal floats the kernel and the reference, from memories that agree on the arguments, both end with the
    row-wise pick of the arguments as their result, and the arguments unchanged. -/
theorem algebraic : Cert.algebraic_KernelIdeal_ReferenceIdeal := by
  intro m ρ m' ρ' hpre hagree
  refine ⟨fun c => KI.outR m c, KI.run_main (F := Ideal) m ρ (preOK_KernelIdeal m hpre), ?_⟩
  -- the reference's index words are the kernel's
  have hidx : ∀ (c : Dev Cert.ReferenceIdeal.nD) i,
      (m' ((c.tc : Thread Cert.ReferenceIdeal.nD Cert.ReferenceIdeal.τ).loc Cert.ReferenceIdeal.main_arg1) i).toNat < 1000 := by
    intro c i
    rw [(hagree c).2]
    exact PreDecode.idx_lt _ _ (hpre c) i
  refine (θ_run Cert.ReferenceIdeal.defs _ _).mono (fun _ h c => ⟨?_, (h c).2.1, (h c).2.2⟩) (RefValue.run m' ρ' hidx)
  -- the pick of the reference's arguments is the pick of the kernel's
  refine (h c).1.trans ?_
  rw [(hagree c).1, (hagree c).2]
  rfl

/-- The claim: the programs' stated facts as the generated modules prove them, then the five conjuncts. -/
theorem claim : Cert.Claim :=
  ⟨Cert.Kernel.Gen.facts, Cert.KernelIdeal.Gen.facts, Cert.ReferenceIdeal.Gen.facts, Cert.Pre_input_domain.Gen.facts,
    frame_Kernel, frame_KernelIdeal, frame_ReferenceIdeal, trivial, algebraic⟩

end Cert.Proof

end
